-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1000000 : Shape := ⟨1, ![1000000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1000000 : S_.BroadcastsInDim S1000000 (![] : Fin 0 → Fin S1000000.rank)
  reducesTo_S1000000_S_d0 : S1000000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg2 : IVec S1000000 32) (main_arg9 : FVec F S16 .f32) (main_v33 : IVec S_ 1) : IVec S_ 1 :=
  let main_v34 : FVec F S16 .f32 := Host.absf main_arg9
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  let main_c_14 : IVec S_ 32 := constantI S_ 32 4294867296#32
  let main_v39 : IVec S1000000 32 := broadcastInDim S1000000 ![] bcast_S_S1000000 main_c_14
  let main_v40 : IVec S1000000 1 := cmpi .sge main_arg2 main_v39
  let main_c_15 : IVec S_ 32 := constantI S_ 32 100000#32
  let main_v41 : IVec S1000000 32 := broadcastInDim S1000000 ![] bcast_S_S1000000 main_c_15
  let main_v42 : IVec S1000000 1 := cmpi .slt main_arg2 main_v41
  let main_v43 : IVec S1000000 1 := andi main_v40 main_v42
  let main_c_16 : IVec S_ 1 := constantI S_ 1 1#1
  let main_v44 : IVec S_ 1 := (fun x v => Host.reduce IntOp.andi x v reducesTo_S1000000_S_d0 h_S_) main_v43 main_c_16
  let main_v45 : IVec S_ 1 := andi main_v38 main_v44
  main_v45

def fn_part1 {F : FTy → Type} [FloatOps F] (main_arg2 : IVec S1000000 32) (main_arg6 : FVec F S64x32 .f32) (main_arg7 : FVec F S32 .f32) (main_arg8 : FVec F S32x16 .f32) (main_arg9 : FVec F S16 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x32 .f32 := Host.absf main_arg6
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S32 .f32 := Host.absf main_arg7
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x16 .f32 := Host.absf main_arg8
  let main_cst_10 : FVec F S_ .f32 := constant S_ .f32 0x7F800000#32
  let main_v30 : FVec F S32x16 .f32 := broadcastInDim S32x16 ![] bcast_S_S32x16 main_cst_10
  let main_v31 : IVec S32x16 1 := cmpf .olt main_v29 main_v30
  let main_c_11 : IVec S_ 1 := constantI S_ 1 1#1
  let main_v32 : IVec S_ 1 := (fun x v => Host.reduce IntOp.andi x v reducesTo_S32x16_S_d0_1 h_S_) main_v31 main_c_11
  let main_v33 : IVec S_ 1 := andi main_v28 main_v32
  fn_part2 (F := F) main_arg2 main_arg9 main_v33

def fn {F : FTy → Type} [FloatOps F] (main_arg0 : FVec F S100000x64 .f32) (main_arg1 : IVec S1000000 32) (main_arg2 : IVec S1000000 32) (main_arg3 : FVec F S1000000 .f32) (main_arg4 : FVec F S64x64 .f32) (main_arg5 : FVec F S64 .f32) (main_arg6 : FVec F S64x32 .f32) (main_arg7 : FVec F S32 .f32) (main_arg8 : FVec F S32x16 .f32) (main_arg9 : FVec F S16 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1000000 .f32 := Host.absf main_arg3
  let main_cst_0 : FVec F S_ .f32 := constant S_ .f32 0x7F800000#32
  let main_v5 : FVec F S1000000 .f32 := broadcastInDim S1000000 ![] bcast_S_S1000000 main_cst_0
  let main_v6 : IVec S1000000 1 := cmpf .olt main_v4 main_v5
  let main_c_1 : IVec S_ 1 := constantI S_ 1 1#1
  let main_v7 : IVec S_ 1 := (fun x v => Host.reduce IntOp.andi x v reducesTo_S1000000_S_d0 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg2 main_arg6 main_arg7 main_arg8 main_arg9 main_v13 main_v16
-- ==== Kernel.lean ====
abbrev S100000x64 : Shape := ⟨2, ![100000, 64]⟩
abbrev S1000000 : Shape := ⟨1, ![1000000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S10000x64 : Shape := ⟨2, ![10000, 64]⟩
abbrev S_ : Shape := ⟨0, ![]⟩
abbrev S1000000x1 : Shape := ⟨2, ![1000000, 1]⟩
abbrev S1 : Shape := ⟨1, ![1]⟩
abbrev S1x1 : Shape := ⟨2, ![1, 1]⟩
abbrev S1000000x64 : Shape := ⟨2, ![1000000, 64]⟩
abbrev S1x64 : Shape := ⟨2, ![1, 64]⟩
abbrev S100000x32 : Shape := ⟨2, ![100000, 32]⟩
abbrev S10000x32 : Shape := ⟨2, ![10000, 32]⟩
abbrev S1000000x32 : Shape := ⟨2, ![1000000, 32]⟩
abbrev S1x32 : Shape := ⟨2, ![1, 32]⟩
abbrev S100000x16 : Shape := ⟨2, ![100000, 16]⟩
abbrev S10000x16 : Shape := ⟨2, ![10000, 16]⟩
abbrev S1000000x16 : Shape := ⟨2, ![1000000, 16]⟩
abbrev S1x16 : Shape := ⟨2, ![1, 16]⟩

abbrev nBuf : Space → Nat
  | .hbm => 107
  | .vmem => 22
  | .smem => 0
  | _ => 0

abbrev bufTy : (tb : Table) → Fin (tcTables nBuf tb) → BufTy
  | .hbm, ⟨0, _⟩ => ⟨S100000x64, .f32⟩
  | .hbm, ⟨1, _⟩ => ⟨S1000000, .i32⟩
  | .hbm, ⟨2, _⟩ => ⟨S1000000, .i32⟩
  | .hbm, ⟨3, _⟩ => ⟨S1000000, .f32⟩
  | .hbm, ⟨4, _⟩ => ⟨S64x64, .f32⟩
  | .hbm, ⟨5, _⟩ => ⟨S64, .f32⟩
  | .hbm, ⟨6, _⟩ => ⟨S64x32, .f32⟩
  | .hbm, ⟨7, _⟩ => ⟨S32, .f32⟩
  | .hbm, ⟨8, _⟩ => ⟨S32x16, .f32⟩
  | .hbm, ⟨9, _⟩ => ⟨S16, .f32⟩
  | .hbm, ⟨10, _⟩ => ⟨S100000x64, .f32⟩
  | .hbm, ⟨11, _⟩ => ⟨S_, .i32⟩
  | .hbm, ⟨12, _⟩ => ⟨S1000000, .i32⟩
  | .hbm, ⟨13, _⟩ => ⟨S1000000, .i1⟩
  | .hbm, ⟨14, _⟩ => ⟨S_, .i32⟩
  | .hbm, ⟨15, _⟩ => ⟨S1000000, .i32⟩
  | .hbm, ⟨16, _⟩ => ⟨S1000000, .i32⟩
  | .hbm, ⟨17, _⟩ => ⟨S1000000, .i32⟩
  | .hbm, ⟨18, _⟩ => ⟨S1000000x1, .i32⟩
  | .hbm, ⟨19, _⟩ => ⟨S1, .i32⟩
  | .hbm, ⟨20, _⟩ => ⟨S_, .i32⟩
  | .hbm, ⟨21, _⟩ => ⟨S1000000x1, .i32⟩
  | .hbm, ⟨22, _⟩ => ⟨S1000000x1, .i1⟩
  | .hbm, ⟨23, _⟩ => ⟨S1x1, .i32⟩
  | .hbm, ⟨24, _⟩ => ⟨S1000000x1, .i32⟩
  | .hbm, ⟨25, _⟩ => ⟨S1000000x1, .i1⟩
  | .hbm, ⟨26, _⟩ => ⟨S1000000x1, .i1⟩
  | .hbm, ⟨27, _⟩ => ⟨S_, .i1⟩
  | .hbm, ⟨28, _⟩ => ⟨S1000000, .i1⟩
  | .hbm, ⟨29, _⟩ => ⟨S1000000x64, .f32⟩
  | .hbm, ⟨30, _⟩ => ⟨S1000000x64, .i1⟩
  | .hbm, ⟨31, _⟩ => ⟨S_, .f32⟩
  | .hbm, ⟨32, _⟩ => ⟨S1000000x64, .f32⟩
  | .hbm, ⟨33, _⟩ => ⟨S1000000x64, .f32⟩
  | .hbm, ⟨34, _⟩ => ⟨S1000000x1, .f32⟩
  | .hbm, ⟨35, _⟩ => ⟨S1000000x64, .f32⟩
  | .hbm, ⟨36, _⟩ => ⟨S1000000x64, .f32⟩
  | .hbm, ⟨37, _⟩ => ⟨S_, .f32⟩
  | .hbm, ⟨38, _⟩ => ⟨S100000x64, .f32⟩
  | .hbm, ⟨39, _⟩ => ⟨S1000000x1, .i32⟩
  | .hbm, ⟨40, _⟩ => ⟨S100000x64, .f32⟩
  | .hbm, ⟨41, _⟩ => ⟨S1x64, .f32⟩
  | .hbm, ⟨42, _⟩ => ⟨S100000x32, .f32⟩
  | .hbm, ⟨43, _⟩ => ⟨S_, .i32⟩
  | .hbm, ⟨44, _⟩ => ⟨S1000000, .i32⟩
  | .hbm, ⟨45, _⟩ => ⟨S1000000, .i1⟩
  | .hbm, ⟨46, _⟩ => ⟨S_, .i32⟩
  | .hbm, ⟨47, _⟩ => ⟨S1000000, .i32⟩
  | .hbm, ⟨48, _⟩ => ⟨S1000000, .i32⟩
  | .hbm, ⟨49, _⟩ => ⟨S1000000, .i32⟩
  | .hbm, ⟨50, _⟩ => ⟨S1000000x1, .i32⟩
  | .hbm, ⟨51, _⟩ => ⟨S1, .i32⟩
  | .hbm, ⟨52, _⟩ => ⟨S_, .i32⟩
  | .hbm, ⟨53, _⟩ => ⟨S1000000x1, .i32⟩
  | .hbm, ⟨54, _⟩ => ⟨S1000000x1, .i1⟩
  | .hbm, ⟨55, _⟩ => ⟨S1x1, .i32⟩
  | .hbm, ⟨56, _⟩ => ⟨S1000000x1, .i32⟩
  | .hbm, ⟨57, _⟩ => ⟨S1000000x1, .i1⟩
  | .hbm, ⟨58, _⟩ => ⟨S1000000x1, .i1⟩
  | .hbm, ⟨59, _⟩ => ⟨S_, .i1⟩
  | .hbm, ⟨60, _⟩ => ⟨S1000000, .i1⟩
  | .hbm, ⟨61, _⟩ => ⟨S1000000x32, .f32⟩
  | .hbm, ⟨62, _⟩ => ⟨S1000000x32, .i1⟩
  | .hbm, ⟨63, _⟩ => ⟨S_, .f32⟩
  | .hbm, ⟨64, _⟩ => ⟨S1000000x32, .f32⟩
  | .hbm, ⟨65, _⟩ => ⟨S1000000x32, .f32⟩
  | .hbm, ⟨66, _⟩ => ⟨S1000000x1, .f32⟩
  | .hbm, ⟨67, _⟩ => ⟨S1000000x32, .f32⟩
  | .hbm, ⟨68, _⟩ => ⟨S1000000x32, .f32⟩
  | .hbm, ⟨69, _⟩ => ⟨S_, .f32⟩
  | .hbm, ⟨70, _⟩ => ⟨S100000x32, .f32⟩
  | .hbm, ⟨71, _⟩ => ⟨S1000000x1, .i32⟩
  | .hbm, ⟨72, _⟩ => ⟨S100000x32, .f32⟩
  | .hbm, ⟨73, _⟩ => ⟨S1x32, .f32⟩
  | .hbm, ⟨74, _⟩ => ⟨S100000x16, .f32⟩
  | .hbm, ⟨75, _⟩ => ⟨S_, .i32⟩
  | .hbm, ⟨76, _⟩ => ⟨S1000000, .i32⟩
  | .hbm, ⟨77, _⟩ => ⟨S1000000, .i1⟩
  | .hbm, ⟨78, _⟩ => ⟨S_, .i32⟩
  | .hbm, ⟨79, _⟩ => ⟨S1000000, .i32⟩
  | .hbm, ⟨80, _⟩ => ⟨S1000000, .i32⟩
  | .hbm, ⟨81, _⟩ => ⟨S1000000, .i32⟩
  | .hbm, ⟨82, _⟩ => ⟨S1000000x1, .i32⟩
  | .hbm, ⟨83, _⟩ => ⟨S1, .i32⟩
  | .hbm, ⟨84, _⟩ => ⟨S_, .i32⟩
  | .hbm, ⟨85, _⟩ => ⟨S1000000x1, .i32⟩
  | .hbm, ⟨86, _⟩ => ⟨S1000000x1, .i1⟩
  | .hbm, ⟨87, _⟩ => ⟨S1x1, .i32⟩
  | .hbm, ⟨88, _⟩ => ⟨S1000000x1, .i32⟩
  | .hbm, ⟨89, _⟩ => ⟨S1000000x1, .i1⟩
  | .hbm, ⟨90, _⟩ => ⟨S1000000x1, .i1⟩
  | .hbm, ⟨91, _⟩ => ⟨S_, .i1⟩
  | .hbm, ⟨92, _⟩ => ⟨S1000000, .i1⟩
  | .hbm, ⟨93, _⟩ => ⟨S1000000x16, .f32⟩
  | .hbm, ⟨94, _⟩ => ⟨S1000000x16, .i1⟩
  | .hbm, ⟨95, _⟩ => ⟨S_, .f32⟩
  | .hbm, ⟨96, _⟩ => ⟨S1000000x16, .f32⟩
  | .hbm, ⟨97, _⟩ => ⟨S1000000x16, .f32⟩
  | .hbm, ⟨98, _⟩ => ⟨S1000000x1, .f32⟩
  | .hbm, ⟨99, _⟩ => ⟨S1000000x16, .f32⟩
  | .hbm, ⟨100, _⟩ => ⟨S1000000x16, .f32⟩
  | .hbm, ⟨101, _⟩ => ⟨S_, .f32⟩
  | .hbm, ⟨102, _⟩ => ⟨S100000x16, .f32⟩
  | .hbm, ⟨103, _⟩ => ⟨S1000000x1, .i32⟩
  | .hbm, ⟨104, _⟩ => ⟨S100000x16, .f32⟩
  | .hbm, ⟨105, _⟩ => ⟨S1x16, .f32⟩
  | .hbm, ⟨106, _⟩ => ⟨S100000x16, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S64x32, .f32⟩
  | .local _ .vmem, ⟨9, _⟩ => ⟨S10000x32, .f32⟩
  | .local _ .vmem, ⟨10, _⟩ => ⟨S10000x32, .f32⟩
  | .local _ .vmem, ⟨11, _⟩ => ⟨S10000x32, .f32⟩
  | .local _ .vmem, ⟨12, _⟩ => ⟨S10000x32, .f32⟩
  | .local _ .vmem, ⟨13, _⟩ => ⟨S1x32, .f32⟩
  | .local _ .vmem, ⟨14, _⟩ => ⟨S32x16, .f32⟩
  | .local _ .vmem, ⟨15, _⟩ => ⟨S10000x16, .f32⟩
  | .local _ .vmem, ⟨16, _⟩ => ⟨S10000x16, .f32⟩
  | .local _ .vmem, ⟨17, _⟩ => ⟨S10000x16, .f32⟩
  | .local _ .vmem, ⟨18, _⟩ => ⟨S10000x16, .f32⟩
  | .local _ .vmem, ⟨19, _⟩ => ⟨S1x16, .f32⟩
  | .local _ .vmem, ⟨20, _⟩ => ⟨S10000x16, .f32⟩
  | .local _ .vmem, ⟨21, _⟩ => ⟨S10000x16, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v1 : Ref sig .tc := ⟨.hbm, 33, rfl⟩
abbrev main_v2 : Ref sig .tc := ⟨.hbm, 34, rfl⟩
abbrev main_v3 : Ref sig .tc := ⟨.hbm, 35, rfl⟩
abbrev main_v4 : Ref sig .tc := ⟨.hbm, 36, rfl⟩
abbrev main_cst : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_call1_c : Ref sig .tc := ⟨.hbm, 43, rfl⟩
abbrev main_call1_v0 : Ref sig .tc := ⟨.hbm, 44, rfl⟩
abbrev main_call1_v1 : Ref sig .tc := ⟨.hbm, 45, rfl⟩
abbrev main_call1_c_0 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_c_1 : Ref sig .tc := ⟨.hbm, 51, rfl⟩
abbrev main_call1_c_2 : Ref sig .tc := ⟨.hbm, 52, rfl⟩
abbrev main_call1_v6 : Ref sig .tc := ⟨.hbm, 53, rfl⟩
abbrev main_call1_v7 : Ref sig .tc := ⟨.hbm, 54, rfl⟩
abbrev main_call1_v8 : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_c_3 : Ref sig .tc := ⟨.hbm, 59, rfl⟩
abbrev main_call1_v12 : Ref sig .tc := ⟨.hbm, 60, rfl⟩
abbrev main_call1_v13 : Ref sig .tc := ⟨.hbm, 61, rfl⟩
abbrev main_call1_v14 : Ref sig .tc := ⟨.hbm, 62, rfl⟩
abbrev main_call1_cst : Ref sig .tc := ⟨.hbm, 63, rfl⟩
abbrev main_call1_v15 : Ref sig .tc := ⟨.hbm, 64, rfl⟩
abbrev main_v10 : Ref sig .tc := ⟨.hbm, 65, rfl⟩
abbrev main_v11 : Ref sig .tc := ⟨.hbm, 66, rfl⟩
abbrev main_v12 : Ref sig .tc := ⟨.hbm, 67, rfl⟩
abbrev main_v13 : Ref sig .tc := ⟨.hbm, 68, rfl⟩
abbrev main_cst_0 : Ref sig .tc := ⟨.hbm, 69, rfl⟩
abbrev main_v14 : Ref sig .tc := ⟨.hbm, 70, rfl⟩
abbrev main_v15 : Ref sig .tc := ⟨.hbm, 71, rfl⟩
abbrev main_v16 : Ref sig .tc := ⟨.hbm, 72, rfl⟩
abbrev main_v17 : Ref sig .tc := ⟨.hbm, 73, rfl⟩
abbrev main_v18 : Ref sig .tc := ⟨.hbm, 74, rfl⟩
abbrev main_call2_c : Ref sig .tc := ⟨.hbm, 75, rfl⟩
abbrev main_call2_v0 : Ref sig .tc := ⟨.hbm, 76, rfl⟩
abbrev main_call2_v1 : Ref sig .tc := ⟨.hbm, 77, rfl⟩
abbrev main_call2_c_0 : Ref sig .tc := ⟨.hbm, 78, rfl⟩
abbrev main_call2_v2 : Ref sig .tc := ⟨.hbm, 79, rfl⟩
abbrev main_call2_v3 : Ref sig .tc := ⟨.hbm, 80, rfl⟩
abbrev main_call2_v4 : Ref sig .tc := ⟨.hbm, 81, rfl⟩
abbrev main_call2_v5 : Ref sig .tc := ⟨.hbm, 82, rfl⟩
abbrev main_call2_c_1 : Ref sig .tc := ⟨.hbm, 83, rfl⟩
abbrev main_call2_c_2 : Ref sig .tc := ⟨.hbm, 84, rfl⟩
abbrev main_call2_v6 : Ref sig .tc := ⟨.hbm, 85, rfl⟩
abbrev main_call2_v7 : Ref sig .tc := ⟨.hbm, 86, rfl⟩
abbrev main_call2_v8 : Ref sig .tc := ⟨.hbm, 87, rfl⟩
abbrev main_call2_v9 : Ref sig .tc := ⟨.hbm, 88, rfl⟩
abbrev main_call2_v10 : Ref sig .tc := ⟨.hbm, 89, rfl⟩
abbrev main_call2_v11 : Ref sig .tc := ⟨.hbm, 90, rfl⟩
abbrev main_call2_c_3 : Ref sig .tc := ⟨.hbm, 91, rfl⟩
abbrev main_call2_v12 : Ref sig .tc := ⟨.hbm, 92, rfl⟩
abbrev main_call2_v13 : Ref sig .tc := ⟨.hbm, 93, rfl⟩
abbrev main_call2_v14 : Ref sig .tc := ⟨.hbm, 94, rfl⟩
abbrev main_call2_cst : Ref sig .tc := ⟨.hbm, 95, rfl⟩
abbrev main_call2_v15 : Ref sig .tc := ⟨.hbm, 96, rfl⟩
abbrev main_v19 : Ref sig .tc := ⟨.hbm, 97, rfl⟩
abbrev main_v20 : Ref sig .tc := ⟨.hbm, 98, rfl⟩
abbrev main_v21 : Ref sig .tc := ⟨.hbm, 99, rfl⟩
abbrev main_v22 : Ref sig .tc := ⟨.hbm, 100, rfl⟩
abbrev main_cst_1 : Ref sig .tc := ⟨.hbm, 101, rfl⟩
abbrev main_v23 : Ref sig .tc := ⟨.hbm, 102, rfl⟩
abbrev main_v24 : Ref sig .tc := ⟨.hbm, 103, rfl⟩
abbrev main_v25 : Ref sig .tc := ⟨.hbm, 104, rfl⟩
abbrev main_v26 : Ref sig .tc := ⟨.hbm, 105, rfl⟩
abbrev main_v27 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S32x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  reducesTo_S1000000x1_S1000000_d1 : S1000000x1.ReducesTo [1] S1000000
  h_S_ : 0 < S_.numel
  bcast_S1000000_S1000000x64_0 : S1000000.BroadcastsInDim S1000000x64 (![0] : Fin 1 → Fin S1000000x64.rank)
  bcast_S_S1000000x64 : S_.BroadcastsInDim S1000000x64 (![] : Fin 0 → Fin S1000000x64.rank)
  bcast_S1000000x1_S1000000x64_0_1 : S1000000x1.BroadcastsInDim S1000000x64 (![0, 1] : Fin 2 → Fin S1000000x64.rank)
  bcast_S_S100000x64 : S_.BroadcastsInDim S100000x64 (![] : Fin 0 → Fin S100000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  shapeCasts_S10000x64_S10000x64 : S10000x64.ShapeCasts S10000x64
  inb_S64x32_S64x32_0_0 : ∀ a, (![0, 0] : Fin 2 → Nat) a + S64x32.size a ≤ S64x32.size a
  h_S64x32 : 0 < S64x32.numel
  inb_S10000x32_S10000x32_0_0 : ∀ a, (![0, 0] : Fin 2 → Nat) a + S10000x32.size a ≤ S10000x32.size a
  h_S10000x32 : 0 < S10000x32.numel
  bcast_S1000000_S1000000x32_0 : S1000000.BroadcastsInDim S1000000x32 (![0] : Fin 1 → Fin S1000000x32.rank)
  bcast_S_S1000000x32 : S_.BroadcastsInDim S1000000x32 (![] : Fin 0 → Fin S1000000x32.rank)
  bcast_S1000000x1_S1000000x32_0_1 : S1000000x1.BroadcastsInDim S1000000x32 (![0, 1] : Fin 2 → Fin S1000000x32.rank)
  bcast_S_S100000x32 : S_.BroadcastsInDim S100000x32 (![] : Fin 0 → Fin S100000x32.rank)
  shapeCasts_S32_S1x32 : S32.ShapeCasts S1x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  shapeCasts_S10000x32_S10000x32 : S10000x32.ShapeCasts S10000x32
  inb_S32x16_S32x16_0_0 : ∀ a, (![0, 0] : Fin 2 → Nat) a + S32x16.size a ≤ S32x16.size a
  h_S32x16 : 0 < S32x16.numel
  inb_S10000x16_S10000x16_0_0 : ∀ a, (![0, 0] : Fin 2 → Nat) a + S10000x16.size a ≤ S10000x16.size a
  h_S10000x16 : 0 < S10000x16.numel
  bcast_S1000000_S1000000x16_0 : S1000000.BroadcastsInDim S1000000x16 (![0] : Fin 1 → Fin S1000000x16.rank)
  bcast_S_S1000000x16 : S_.BroadcastsInDim S1000000x16 (![] : Fin 0 → Fin S1000000x16.rank)
  bcast_S1000000x1_S1000000x16_0_1 : S1000000x1.BroadcastsInDim S1000000x16 (![0, 1] : Fin 2 → Fin S1000000x16.rank)
  bcast_S_S100000x16 : S_.BroadcastsInDim S100000x16 (![] : Fin 0 → Fin S100000x16.rank)
  shapeCasts_S16_S1x16 : S16.ShapeCasts S1x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  shapeCasts_S10000x16_S10000x16 : S10000x16.ShapeCasts S10000x16
  dot_S10000x64_S64x64_S10000x64_1_0_0_1_n_n_wf : DotDims.WF S10000x64 S64x64 S10000x64 [1] [0] [0] [1] [] []
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S10000x64_S64x32_S10000x32_1_0_0_1_n_n_wf : DotDims.WF S10000x64 S64x32 S10000x32 [1] [0] [0] [1] [] []
  gather_S100000x32_S1000000x1_S1000000x32_1_0_n_n_0_1_132_wf : GatherDims.WF S100000x32 S1000000x1 S1000000x32 [1] [0] [] [0] [] 1 ![1, 32]
  scatter_S100000x32_S1000000x1_S1000000x32_1_0_0_1_wf : ScatterDims.WF S100000x32 S1000000x1 S1000000x32 [1] [0] [0] 1
  dot_S10000x32_S32x16_S10000x16_1_0_0_1_n_n_wf : DotDims.WF S10000x32 S32x16 S10000x16 [1] [0] [0] [1] [] []
  gather_S100000x16_S1000000x1_S1000000x16_1_0_n_n_0_1_116_wf : GatherDims.WF S100000x16 S1000000x1 S1000000x16 [1] [0] [] [0] [] 1 ![1, 16]
  scatter_S100000x16_S1000000x1_S1000000x16_1_0_0_1_wf : ScatterDims.WF S100000x16 S1000000x1 S1000000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x32.size a ≤ S64x32.size a
  hwx1_2 : ∀ i : grid1.Coords, EltTy.bits .f32 = 32 ∨ (Rect.block (s := S64x32) S64x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x32.size a ≤ S100000x32.size a
  hwx1_3 : ∀ i : grid1.Coords, EltTy.bits .f32 = 32 ∨ (Rect.block (s := S100000x32) S10000x32.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x32.size a ≤ S100000x32.size a
  hwx2_0 : ∀ i : grid2.Coords, EltTy.bits .f32 = 32 ∨ (Rect.block (s := S100000x32) S10000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x32.size a ≤ S1x32.size a
  hwx2_1 : ∀ i : grid2.Coords, EltTy.bits .f32 = 32 ∨ (Rect.block (s := S1x32) S1x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x16.size a ≤ S32x16.size a
  hwx2_2 : ∀ i : grid2.Coords, EltTy.bits .f32 = 32 ∨ (Rect.block (s := S32x16) S32x16.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x16.size a ≤ S100000x16.size a
  hwx2_3 : ∀ i : grid2.Coords, EltTy.bits .f32 = 32 ∨ (Rect.block (s := S100000x16) S10000x16.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x16.size a ≤ S100000x16.size a
  hwx3_0 : ∀ i : grid3.Coords, EltTy.bits .f32 = 32 ∨ (Rect.block (s := S100000x16) S10000x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x16.size a ≤ S1x16.size a
  hwx3_1 : ∀ i : grid3.Coords, EltTy.bits .f32 = 32 ∨ (Rect.block (s := S1x16) S1x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x16.size a ≤ S100000x16.size a
  hwx3_2 : ∀ i : grid3.Coords, EltTy.bits .f32 = 32 ∨ (Rect.block (s := S100000x16) S10000x16.size (cc3_transform_2 i) (hinb3_2 i)).WholeWords (EltTy.packing .f32)

variable [Facts₀]

def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S100000x32_S1000000x1_S1000000x32_1_0_n_n_0_1_132 : GatherDims S100000x32 S1000000x1 S1000000x32 where
  offsetDims := [1]
  collapsedSliceDims := [0]
  operandBatchingDims := []
  startIndicesBatchingDims := []
  startIndexMap := [0]
  indexVectorDim := 1
  sliceSizes := ![1, 32]
  wf := gather_S100000x32_S1000000x1_S1000000x32_1_0_n_n_0_1_132_wf
def scatter_S100000x32_S1000000x1_S1000000x32_1_0_0_1 : ScatterDims S100000x32 S1000000x1 S1000000x32 where
  updateWindowDims := [1]
  insertedWindowDims := [0]
  scatterDimsToOperandDims := [0]
  indexVectorDim := 1
  wf := scatter_S100000x32_S1000000x1_S1000000x32_1_0_0_1_wf
def dot_S10000x32_S32x16_S10000x16_1_0_0_1_n_n : DotDims S10000x32 S32x16 S10000x16 where
  lhsContracting := [1]
  rhsContracting := [0]
  lhsNonContracting := [0]
  rhsNonContracting := [1]
  lhsBatch := []
  rhsBatch := []
  wf := dot_S10000x32_S32x16_S10000x16_1_0_0_1_n_n_wf
def gather_S100000x16_S1000000x1_S1000000x16_1_0_n_n_0_1_116 : GatherDims S100000x16 S1000000x1 S1000000x16 where
  offsetDims := [1]
  collapsedSliceDims := [0]
  operandBatchingDims := []
  startIndicesBatchingDims := []
  startIndexMap := [0]
  indexVectorDim := 1
  sliceSizes := ![1, 16]
  wf := gather_S100000x16_S1000000x1_S1000000x16_1_0_n_n_0_1_116_wf
def scatter_S100000x16_S1000000x1_S1000000x16_1_0_0_1 : ScatterDims S100000x16 S1000000x1 S1000000x16 where
  updateWindowDims := [1]
  insertedWindowDims := [0]
  scatterDimsToOperandDims := [0]
  indexVectorDim := 1
  wf := scatter_S100000x16_S1000000x1_S1000000x16_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v7) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v9) S10000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v16) S10000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S1x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S32x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v18) S10000x16.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v25) S10000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v26) S1x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v27) S10000x16.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x64 : Shape := ⟨2, ![100000, 64]⟩
abbrev S1000000 : Shape := ⟨1, ![1000000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S1000000x1 : Shape := ⟨2, ![1000000, 1]⟩
abbrev S_ : Shape := ⟨0, ![]⟩
abbrev S1000000x64 : Shape := ⟨2, ![1000000, 64]⟩
abbrev S1x64 : Shape := ⟨2, ![1, 64]⟩
abbrev S100000x32 : Shape := ⟨2, ![100000, 32]⟩
abbrev S1000000x32 : Shape := ⟨2, ![1000000, 32]⟩
abbrev S1x32 : Shape := ⟨2, ![1, 32]⟩
abbrev S100000x16 : Shape := ⟨2, ![100000, 16]⟩
abbrev S1000000x16 : Shape := ⟨2, ![1000000, 16]⟩
abbrev S1x16 : Shape := ⟨2, ![1, 16]⟩

abbrev nBuf : Space → Nat
  | .hbm => 94
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1000000, .i32⟩
  | .hbm, ⟨2, _⟩ => ⟨S1000000, .i32⟩
  | .hbm, ⟨3, _⟩ => ⟨S1000000, .f32⟩
  | .hbm, ⟨4, _⟩ => ⟨S64x64, .f32⟩
  | .hbm, ⟨5, _⟩ => ⟨S64, .f32⟩
  | .hbm, ⟨6, _⟩ => ⟨S64x32, .f32⟩
  | .hbm, ⟨7, _⟩ => ⟨S32, .f32⟩
  | .hbm, ⟨8, _⟩ => ⟨S32x16, .f32⟩
  | .hbm, ⟨9, _⟩ => ⟨S16, .f32⟩
  | .hbm, ⟨10, _⟩ => ⟨S100000x64, .f32⟩
  | .hbm, ⟨11, _⟩ => ⟨S1000000x1, .f32⟩
  | .hbm, ⟨12, _⟩ => ⟨S_, .i32⟩
  | .hbm, ⟨13, _⟩ => ⟨S1000000, .i32⟩
  | .hbm, ⟨14, _⟩ => ⟨S1000000, .i1⟩
  | .hbm, ⟨15, _⟩ => ⟨S_, .i32⟩
  | .hbm, ⟨16, _⟩ => ⟨S1000000, .i32⟩
  | .hbm, ⟨17, _⟩ => ⟨S1000000, .i32⟩
  | .hbm, ⟨18, _⟩ => ⟨S1000000, .i32⟩
  | .hbm, ⟨19, _⟩ => ⟨S1000000x1, .i32⟩
  | .hbm, ⟨20, _⟩ => ⟨S1000000x64, .f32⟩
  | .hbm, ⟨21, _⟩ => ⟨S1000000x64, .f32⟩
  | .hbm, ⟨22, _⟩ => ⟨S1000000x64, .f32⟩
  | .hbm, ⟨23, _⟩ => ⟨S_, .f32⟩
  | .hbm, ⟨24, _⟩ => ⟨S100000x64, .f32⟩
  | .hbm, ⟨25, _⟩ => ⟨S1000000x1, .i32⟩
  | .hbm, ⟨26, _⟩ => ⟨S100000x64, .f32⟩
  | .hbm, ⟨27, _⟩ => ⟨S1x64, .f32⟩
  | .hbm, ⟨28, _⟩ => ⟨S100000x64, .f32⟩
  | .hbm, ⟨29, _⟩ => ⟨S100000x64, .f32⟩
  | .hbm, ⟨30, _⟩ => ⟨S_, .f32⟩
  | .hbm, ⟨31, _⟩ => ⟨S_, .f32⟩
  | .hbm, ⟨32, _⟩ => ⟨S100000x64, .f32⟩
  | .hbm, ⟨33, _⟩ => ⟨S100000x64, .i1⟩
  | .hbm, ⟨34, _⟩ => ⟨S_, .f32⟩
  | .hbm, ⟨35, _⟩ => ⟨S100000x64, .f32⟩
  | .hbm, ⟨36, _⟩ => ⟨S100000x64, .f32⟩
  | .hbm, ⟨37, _⟩ => ⟨S100000x64, .f32⟩
  | .hbm, ⟨38, _⟩ => ⟨S100000x32, .f32⟩
  | .hbm, ⟨39, _⟩ => ⟨S1000000x1, .f32⟩
  | .hbm, ⟨40, _⟩ => ⟨S_, .i32⟩
  | .hbm, ⟨41, _⟩ => ⟨S1000000, .i32⟩
  | .hbm, ⟨42, _⟩ => ⟨S1000000, .i1⟩
  | .hbm, ⟨43, _⟩ => ⟨S_, .i32⟩
  | .hbm, ⟨44, _⟩ => ⟨S1000000, .i32⟩
  | .hbm, ⟨45, _⟩ => ⟨S1000000, .i32⟩
  | .hbm, ⟨46, _⟩ => ⟨S1000000, .i32⟩
  | .hbm, ⟨47, _⟩ => ⟨S1000000x1, .i32⟩
  | .hbm, ⟨48, _⟩ => ⟨S1000000x32, .f32⟩
  | .hbm, ⟨49, _⟩ => ⟨S1000000x32, .f32⟩
  | .hbm, ⟨50, _⟩ => ⟨S1000000x32, .f32⟩
  | .hbm, ⟨51, _⟩ => ⟨S_, .f32⟩
  | .hbm, ⟨52, _⟩ => ⟨S100000x32, .f32⟩
  | .hbm, ⟨53, _⟩ => ⟨S1000000x1, .i32⟩
  | .hbm, ⟨54, _⟩ => ⟨S100000x32, .f32⟩
  | .hbm, ⟨55, _⟩ => ⟨S1x32, .f32⟩
  | .hbm, ⟨56, _⟩ => ⟨S100000x32, .f32⟩
  | .hbm, ⟨57, _⟩ => ⟨S100000x32, .f32⟩
  | .hbm, ⟨58, _⟩ => ⟨S_, .f32⟩
  | .hbm, ⟨59, _⟩ => ⟨S_, .f32⟩
  | .hbm, ⟨60, _⟩ => ⟨S100000x32, .f32⟩
  | .hbm, ⟨61, _⟩ => ⟨S100000x32, .i1⟩
  | .hbm, ⟨62, _⟩ => ⟨S_, .f32⟩
  | .hbm, ⟨63, _⟩ => ⟨S100000x32, .f32⟩
  | .hbm, ⟨64, _⟩ => ⟨S100000x32, .f32⟩
  | .hbm, ⟨65, _⟩ => ⟨S100000x32, .f32⟩
  | .hbm, ⟨66, _⟩ => ⟨S100000x16, .f32⟩
  | .hbm, ⟨67, _⟩ => ⟨S1000000x1, .f32⟩
  | .hbm, ⟨68, _⟩ => ⟨S_, .i32⟩
  | .hbm, ⟨69, _⟩ => ⟨S1000000, .i32⟩
  | .hbm, ⟨70, _⟩ => ⟨S1000000, .i1⟩
  | .hbm, ⟨71, _⟩ => ⟨S_, .i32⟩
  | .hbm, ⟨72, _⟩ => ⟨S1000000, .i32⟩
  | .hbm, ⟨73, _⟩ => ⟨S1000000, .i32⟩
  | .hbm, ⟨74, _⟩ => ⟨S1000000, .i32⟩
  | .hbm, ⟨75, _⟩ => ⟨S1000000x1, .i32⟩
  | .hbm, ⟨76, _⟩ => ⟨S1000000x16, .f32⟩
  | .hbm, ⟨77, _⟩ => ⟨S1000000x16, .f32⟩
  | .hbm, ⟨78, _⟩ => ⟨S1000000x16, .f32⟩
  | .hbm, ⟨79, _⟩ => ⟨S_, .f32⟩
  | .hbm, ⟨80, _⟩ => ⟨S100000x16, .f32⟩
  | .hbm, ⟨81, _⟩ => ⟨S1000000x1, .i32⟩
  | .hbm, ⟨82, _⟩ => ⟨S100000x16, .f32⟩
  | .hbm, ⟨83, _⟩ => ⟨S1x16, .f32⟩
  | .hbm, ⟨84, _⟩ => ⟨S100000x16, .f32⟩
  | .hbm, ⟨85, _⟩ => ⟨S100000x16, .f32⟩
  | .hbm, ⟨86, _⟩ => ⟨S_, .f32⟩
  | .hbm, ⟨87, _⟩ => ⟨S_, .f32⟩
  | .hbm, ⟨88, _⟩ => ⟨S100000x16, .f32⟩
  | .hbm, ⟨89, _⟩ => ⟨S100000x16, .i1⟩
  | .hbm, ⟨90, _⟩ => ⟨S_, .f32⟩
  | .hbm, ⟨91, _⟩ => ⟨S100000x16, .f32⟩
  | .hbm, ⟨92, _⟩ => ⟨S100000x16, .f32⟩
  | .hbm, ⟨93, _⟩ => ⟨S100000x16, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_call0_cst : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_c_2 : Ref sig .tc := ⟨.hbm, 40, rfl⟩
abbrev main_v20 : Ref sig .tc := ⟨.hbm, 41, rfl⟩
abbrev main_v21 : Ref sig .tc := ⟨.hbm, 42, rfl⟩
abbrev main_c_3 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_4 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_5 : Ref sig .tc := ⟨.hbm, 58, rfl⟩
abbrev main_call1_cst : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_c_6 : Ref sig .tc := ⟨.hbm, 68, rfl⟩
abbrev main_v38 : Ref sig .tc := ⟨.hbm, 69, rfl⟩
abbrev main_v39 : Ref sig .tc := ⟨.hbm, 70, rfl⟩
abbrev main_c_7 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_cst_8 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_cst_9 : Ref sig .tc := ⟨.hbm, 86, rfl⟩
abbrev main_call2_cst : Ref sig .tc := ⟨.hbm, 87, rfl⟩
abbrev main_call2_v0 : Ref sig .tc := ⟨.hbm, 88, rfl⟩
abbrev main_call2_v1 : Ref sig .tc := ⟨.hbm, 89, rfl⟩
abbrev main_call2_v2 : Ref sig .tc := ⟨.hbm, 90, rfl⟩
abbrev main_call2_v3 : Ref sig .tc := ⟨.hbm, 91, rfl⟩
abbrev main_call2_v4 : Ref sig .tc := ⟨.hbm, 92, rfl⟩
abbrev main_v53 : Ref sig .tc := ⟨.hbm, 93, rfl⟩

abbrev nD : Nat := 1
abbrev τ : Topo := Topo.v7x

variable {F : FTy → Type} [FloatOps F]

class Facts₀ : Prop where
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S1000000x1_S1000000x64_0_1 : S1000000x1.BroadcastsInDim S1000000x64 (![0, 1] : Fin 2 → Fin S1000000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1000000x1_S1000000x32_0_1 : S1000000x1.BroadcastsInDim S1000000x32 (![0, 1] : Fin 2 → Fin S1000000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S1000000x1_S1000000x16_0_1 : S1000000x1.BroadcastsInDim S1000000x16 (![0, 1] : Fin 2 → Fin S1000000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  dot_S100000x64_S64x64_S100000x64_1_0_0_1_n_n_wf : DotDims.WF S100000x64 S64x64 S100000x64 [1] [0] [0] [1] [] []
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S100000x64_S64x32_S100000x32_1_0_0_1_n_n_wf : DotDims.WF S100000x64 S64x32 S100000x32 [1] [0] [0] [1] [] []
  gather_S100000x32_S1000000x1_S1000000x32_1_0_n_n_0_1_132_wf : GatherDims.WF S100000x32 S1000000x1 S1000000x32 [1] [0] [] [0] [] 1 ![1, 32]
  scatter_S100000x32_S1000000x1_S1000000x32_1_0_0_1_wf : ScatterDims.WF S100000x32 S1000000x1 S1000000x32 [1] [0] [0] 1
  dot_S100000x32_S32x16_S100000x16_1_0_0_1_n_n_wf : DotDims.WF S100000x32 S32x16 S100000x16 [1] [0] [0] [1] [] []
  gather_S100000x16_S1000000x1_S1000000x16_1_0_n_n_0_1_116_wf : GatherDims.WF S100000x16 S1000000x1 S1000000x16 [1] [0] [] [0] [] 1 ![1, 16]
  scatter_S100000x16_S1000000x1_S1000000x16_1_0_0_1_wf : ScatterDims.WF S100000x16 S1000000x1 S1000000x16 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1000000x1_S1000000x32_1_0_n_n_0_1_132 : GatherDims S100000x32 S1000000x1 S1000000x32 where
  offsetDims := [1]
  collapsedSliceDims := [0]
  operandBatchingDims := []
  startIndicesBatchingDims := []
  startIndexMap := [0]
  indexVectorDim := 1
  sliceSizes := ![1, 32]
  wf := gather_S100000x32_S1000000x1_S1000000x32_1_0_n_n_0_1_132_wf
def scatter_S100000x32_S1000000x1_S1000000x32_1_0_0_1 : ScatterDims S100000x32 S1000000x1 S1000000x32 where
  updateWindowDims := [1]
  insertedWindowDims := [0]
  scatterDimsToOperandDims := [0]
  indexVectorDim := 1
  wf := scatter_S100000x32_S1000000x1_S1000000x32_1_0_0_1_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def gather_S100000x16_S1000000x1_S1000000x16_1_0_n_n_0_1_116 : GatherDims S100000x16 S1000000x1 S1000000x16 where
  offsetDims := [1]
  collapsedSliceDims := [0]
  operandBatchingDims := []
  startIndicesBatchingDims := []
  startIndexMap := [0]
  indexVectorDim := 1
  sliceSizes := ![1, 16]
  wf := gather_S100000x16_S1000000x1_S1000000x16_1_0_n_n_0_1_116_wf
def scatter_S100000x16_S1000000x1_S1000000x16_1_0_0_1 : ScatterDims S100000x16 S1000000x1 S1000000x16 where
  updateWindowDims := [1]
  insertedWindowDims := [0]
  scatterDimsToOperandDims := [0]
  indexVectorDim := 1
  wf := scatter_S100000x16_S1000000x1_S1000000x16_1_0_0_1_wf

class Facts : Prop extends Facts₀ where

variable [Facts]
-- ==== Proof.RefStages.lean ====
/-
  The reference's three layers as named stage functions of its arguments, each built from the very host operations
  its printed `main` applies, in the same order and over the same dimension records.

  One layer: `lin` (the dense product with the layer's weight matrix), `agg` (the sparse aggregation: the edge
  columns wrapped as numpy wraps a negative index, a row gather at them, the rows scaled by the edge weights, and a
  scatter-add into the edge rows of a zero matrix), `bias` (the bias vector laid along the rows and added), `leaky`
  (the rectifier with slope 1/4). `out` composes the three layers.
-/
import proofs.«427570_j26783416058429_1_alg».proof.ReferenceIdeal

noncomputable section

namespace Cert.ReferenceIdeal.Stages

open Idealize.ShloMosaic Cert.ReferenceIdeal

variable {F : FTy → Type} [FloatOps F] [Facts]
open Facts₀ Facts

/-- numpy's reading of a possibly negative index: `c + 100000` where `c < 0`, else `c`. -/
def wrap (col : IVec S1000000 32) : IVec S1000000 32 :=
  select (cmpi .slt col (broadcastInDim S1000000 ![] bcast_S_S1000000 (constantI S_ 32 0#32)))
    (addi col (broadcastInDim S1000000 ![] bcast_S_S1000000 (constantI S_ 32 100000#32))) col

/-! ## Layer 1: 64 features to 64 -/

def lin1 (x : FVec F S100000x64 .f32) (w : FVec F S64x64 .f32) : FVec F S100000x64 .f32 :=
  Host.dotGeneral dot_S100000x64_S64x64_S100000x64_1_0_0_1_n_n none x w

def agg64 (sup : FVec F S100000x64 .f32) (row col : IVec S1000000 32) (ew : FVec F S1000000 .f32) : FVec F S100000x64 .f32 :=
  Host.scatterAdd scatter_S100000x64_S1000000x1_S1000000x64_1_0_0_1
    (broadcastInDim S100000x64 ![] bcast_S_S100000x64 (constant S_ .f32 0x00000000#32))
    (broadcastInDim S1000000x1 ![0] bcast_S1000000_S1000000x1_0 row)
    (mulf (broadcastInDim S1000000x64 ![0, 1] bcast_S1000000x1_S1000000x64_0_1 (broadcastInDim S1000000x1 ![0] bcast_S1000000_S1000000x1_0 ew))
      (Host.gather gather_S100000x64_S1000000x1_S1000000x64_1_0_n_n_0_1_164 sup (broadcastInDim S1000000x1 ![0] bcast_S1000000_S1000000x1_0 (wrap col))))

def bias64 (y : FVec F S100000x64 .f32) (b : FVec F S64 .f32) : FVec F S100000x64 .f32 :=
  addf y (broadcastInDim S100000x64 ![0, 1] bcast_S1x64_S100000x64_0_1 (broadcastInDim S1x64 ![1] bcast_S64_S1x64_1 b))

def leaky64 (y : FVec F S100000x64 .f32) : FVec F S100000x64 .f32 :=
  select (cmpf .oge y (broadcastInDim S100000x64 ![] bcast_S_S100000x64 (constant S_ .f32 0x00000000#32))) y
    (mulf (broadcastInDim S100000x64 ![] bcast_S_S100000x64 (id (constant S_ .f32 0x3E800000#32))) y)

/-! ## Layer 2: 64 features to 32 -/

def lin2 (x : FVec F S100000x64 .f32) (w : FVec F S64x32 .f32) : FVec F S100000x32 .f32 :=
  Host.dotGeneral dot_S100000x64_S64x32_S100000x32_1_0_0_1_n_n none x w

def agg32 (sup : FVec F S100000x32 .f32) (row col : IVec S1000000 32) (ew : FVec F S1000000 .f32) : FVec F S100000x32 .f32 :=
  Host.scatterAdd scatter_S100000x32_S1000000x1_S1000000x32_1_0_0_1
    (broadcastInDim S100000x32 ![] bcast_S_S100000x32 (constant S_ .f32 0x00000000#32))
    (broadcastInDim S1000000x1 ![0] bcast_S1000000_S1000000x1_0 row)
    (mulf (broadcastInDim S1000000x32 ![0, 1] bcast_S1000000x1_S1000000x32_0_1 (broadcastInDim S1000000x1 ![0] bcast_S1000000_S1000000x1_0 ew))
      (Host.gather gather_S100000x32_S1000000x1_S1000000x32_1_0_n_n_0_1_132 sup (broadcastInDim S1000000x1 ![0] bcast_S1000000_S1000000x1_0 (wrap col))))

def bias32 (y : FVec F S100000x32 .f32) (b : FVec F S32 .f32) : FVec F S100000x32 .f32 :=
  addf y (broadcastInDim S100000x32 ![0, 1] bcast_S1x32_S100000x32_0_1 (broadcastInDim S1x32 ![1] bcast_S32_S1x32_1 b))

def leaky32 (y : FVec F S100000x32 .f32) : FVec F S100000x32 .f32 :=
  select (cmpf .oge y (broadcastInDim S100000x32 ![] bcast_S_S100000x32 (constant S_ .f32 0x00000000#32))) y
    (mulf (broadcastInDim S100000x32 ![] bcast_S_S100000x32 (id (constant S_ .f32 0x3E800000#32))) y)

/-! ## Layer 3: 32 features to 16 -/

def lin3 (x : FVec F S100000x32 .f32) (w : FVec F S32x16 .f32) : FVec F S100000x16 .f32 :=
  Host.dotGeneral dot_S100000x32_S32x16_S100000x16_1_0_0_1_n_n none x w

def agg16 (sup : FVec F S100000x16 .f32) (row col : IVec S1000000 32) (ew : FVec F S1000000 .f32) : FVec F S100000x16 .f32 :=
  Host.scatterAdd scatter_S100000x16_S1000000x1_S1000000x16_1_0_0_1
    (broadcastInDim S100000x16 ![] bcast_S_S100000x16 (constant S_ .f32 0x00000000#32))
    (broadcastInDim S1000000x1 ![0] bcast_S1000000_S1000000x1_0 row)
    (mulf (broadcastInDim S1000000x16 ![0, 1] bcast_S1000000x1_S1000000x16_0_1 (broadcastInDim S1000000x1 ![0] bcast_S1000000_S1000000x1_0 ew))
      (Host.gather gather_S100000x16_S1000000x1_S1000000x16_1_0_n_n_0_1_116 sup (broadcastInDim S1000000x1 ![0] bcast_S1000000_S1000000x1_0 (wrap col))))

def bias16 (y : FVec F S100000x16 .f32) (b : FVec F S16 .f32) : FVec F S100000x16 .f32 :=
  addf y (broadcastInDim S100000x16 ![0, 1] bcast_S1x16_S100000x16_0_1 (broadcastInDim S1x16 ![1] bcast_S16_S1x16_1 b))

def leaky16 (y : FVec F S100000x16 .f32) : FVec F S100000x16 .f32 :=
  select (cmpf .oge y (broadcastInDim S100000x16 ![] bcast_S_S100000x16 (constant S_ .f32 0x00000000#32))) y
    (mulf (broadcastInDim S100000x16 ![] bcast_S_S100000x16 (id (constant S_ .f32 0x3E800000#32))) y)

/-! ## The three layers composed -/

/-- What the reference returns, as a function of its ten arguments. -/
def out (x : FVec F S100000x64 .f32) (row col : IVec S1000000 32) (ew : FVec F S1000000 .f32)
    (w1 : FVec F S64x64 .f32) (b1 : FVec F S64 .f32) (w2 : FVec F S64x32 .f32) (b2 : FVec F S32 .f32)
    (w3 : FVec F S32x16 .f32) (b3 : FVec F S16 .f32) : FVec F S100000x16 .f32 :=
  leaky16 (bias16 (agg16 (lin3 (leaky32 (bias32 (agg32 (lin2 (leaky64 (bias64 (agg64 (lin1 x w1) row col ew) b1)) w2) row col ew) b2)) w3) row col ew) b3)

end Cert.ReferenceIdeal.Stages

end
-- ==== Proof.RefRun.lean ====
/-
  The reference program's run, read back: every weakly fair execution of its `main` terminates without a fault,
  the result array holding the three layers composed (`Stages.out`) of the argument arrays, which end unchanged.
-/
import proofs.«427570_j26783416058429_1_alg».proof.Proof.RefStages
import proofs.«427570_j26783416058429_1_alg».proof.Proof.Gen.ReferenceIdeal
import Idealize.ShloMosaic.Lib.StableHlo.Run
import Idealize.ShloMosaic.Adequacy
import Idealize.ShloMosaic.Init

noncomputable section

namespace Cert.ReferenceIdeal.RefRun

open Idealize.ShloMosaic Idealize.SL.Sem Cert.ReferenceIdeal

variable {F : FTy → Type} [FloatOps F]

section Line

open Idealize.ShloMosaic.StableHlo Idealize.ShloMosaic.TcCoe Facts₀ Facts

/-- The reference's `main` as one straight line of host operations, in order, each call replaced by the callee's
    own operations over that call's buffers: a rectifier call is the zero, its broadcast, the comparison with it,
    the slope converted and broadcast, the product with the slope, and the selection between the argument and that
    product (the inner selection function's single operation). -/
private abbrev ops : List (HloOp τ sig (Elt F)) :=
  [ binary main_arg0 main_arg4 main_v0 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg3 main_v1 (broadcastInDim S1000000x1 ![0] bcast_S1000000_S1000000x1_0 : (⟨S1000000, .f32⟩ : BufTy).Contents (Elt F) → (⟨S1000000x1, .f32⟩ : BufTy).Contents (Elt F)),
    nullary main_c (constantI S_ 32 0#32),
    unary main_c main_v2 (broadcastInDim S1000000 ![] bcast_S_S1000000 : (⟨S_, .i32⟩ : BufTy).Contents (Elt F) → (⟨S1000000, .i32⟩ : BufTy).Contents (Elt F)),
    binary main_arg2 main_v2 main_v3 (cmpi .slt : (⟨S1000000, .i32⟩ : BufTy).Contents (Elt F) → (⟨S1000000, .i32⟩ : BufTy).Contents (Elt F) → (⟨S1000000, .i1⟩ : BufTy).Contents (Elt F)),
    nullary main_c_0 (constantI S_ 32 100000#32),
    unary main_c_0 main_v4 (broadcastInDim S1000000 ![] bcast_S_S1000000 : (⟨S_, .i32⟩ : BufTy).Contents (Elt F) → (⟨S1000000, .i32⟩ : BufTy).Contents (Elt F)),
    binary main_arg2 main_v4 main_v5 (addi : (⟨S1000000, .i32⟩ : BufTy).Contents (Elt F) → (⟨S1000000, .i32⟩ : BufTy).Contents (Elt F) → (⟨S1000000, .i32⟩ : BufTy).Contents (Elt F)),
    ternary main_v3 main_v5 main_arg2 main_v6 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v6 main_v7 (broadcastInDim S1000000x1 ![0] bcast_S1000000_S1000000x1_0 : (⟨S1000000, .i32⟩ : BufTy).Contents (Elt F) → (⟨S1000000x1, .i32⟩ : BufTy).Contents (Elt F)),
    binary main_v0 main_v7 main_v8 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    unary main_v1 main_v9 (broadcastInDim S1000000x64 ![0, 1] bcast_S1000000x1_S1000000x64_0_1 : (⟨S1000000x1, .f32⟩ : BufTy).Contents (Elt F) → (⟨S1000000x64, .f32⟩ : BufTy).Contents (Elt F)),
    binary main_v9 main_v8 main_v10 (mulf : (⟨S1000000x64, .f32⟩ : BufTy).Contents (Elt F) → (⟨S1000000x64, .f32⟩ : BufTy).Contents (Elt F) → (⟨S1000000x64, .f32⟩ : BufTy).Contents (Elt F)),
    nullary main_cst (constant S_ .f32 0x00000000#32),
    unary main_cst main_v11 (broadcastInDim S100000x64 ![] bcast_S_S100000x64 : (⟨S_, .f32⟩ : BufTy).Contents (Elt F) → (⟨S100000x64, .f32⟩ : BufTy).Contents (Elt F)),
    unary main_arg1 main_v12 (broadcastInDim S1000000x1 ![0] bcast_S1000000_S1000000x1_0 : (⟨S1000000, .i32⟩ : BufTy).Contents (Elt F) → (⟨S1000000x1, .i32⟩ : BufTy).Contents (Elt F)),
    ternary main_v11 main_v12 main_v10 main_v13 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    unary main_arg5 main_v14 (broadcastInDim S1x64 ![1] bcast_S64_S1x64_1 : (⟨S64, .f32⟩ : BufTy).Contents (Elt F) → (⟨S1x64, .f32⟩ : BufTy).Contents (Elt F)),
    unary main_v14 main_v15 (broadcastInDim S100000x64 ![0, 1] bcast_S1x64_S100000x64_0_1 : (⟨S1x64, .f32⟩ : BufTy).Contents (Elt F) → (⟨S100000x64, .f32⟩ : BufTy).Contents (Elt F)),
    binary main_v13 main_v15 main_v16 (addf : (⟨S100000x64, .f32⟩ : BufTy).Contents (Elt F) → (⟨S100000x64, .f32⟩ : BufTy).Contents (Elt F) → (⟨S100000x64, .f32⟩ : BufTy).Contents (Elt F)),
    nullary main_cst_1 (constant S_ .f32 0x3E800000#32),
    TRef.nullary main_call0.cst (constant S_ .f32 0x00000000#32),
    TRef.unary main_call0.cst main_call0.v0 (broadcastInDim S100000x64 ![] bcast_S_S100000x64),
    TRef.binary (.of main_v16 : TRef sig ⟨S100000x64, .f32⟩) main_call0.v0 main_call0.v1 (cmpf .oge),
    TRef.unary (.of main_cst_1 : TRef sig ⟨S_, .f32⟩) main_call0.v2 id,
    TRef.unary main_call0.v2 main_call0.v3 (broadcastInDim S100000x64 ![] bcast_S_S100000x64),
    TRef.binary main_call0.v3 (.of main_v16 : TRef sig ⟨S100000x64, .f32⟩) main_call0.v4 mulf,
    TRef.ternary main_call0.v1 (.of main_v16 : TRef sig ⟨S100000x64, .f32⟩) main_call0.v4 main_call0.call0.v0 select,
    binary main_v17 main_arg6 main_v18 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    unary main_arg3 main_v19 (broadcastInDim S1000000x1 ![0] bcast_S1000000_S1000000x1_0 : (⟨S1000000, .f32⟩ : BufTy).Contents (Elt F) → (⟨S1000000x1, .f32⟩ : BufTy).Contents (Elt F)),
    nullary main_c_2 (constantI S_ 32 0#32),
    unary main_c_2 main_v20 (broadcastInDim S1000000 ![] bcast_S_S1000000 : (⟨S_, .i32⟩ : BufTy).Contents (Elt F) → (⟨S1000000, .i32⟩ : BufTy).Contents (Elt F)),
    binary main_arg2 main_v20 main_v21 (cmpi .slt : (⟨S1000000, .i32⟩ : BufTy).Contents (Elt F) → (⟨S1000000, .i32⟩ : BufTy).Contents (Elt F) → (⟨S1000000, .i1⟩ : BufTy).Contents (Elt F)),
    nullary main_c_3 (constantI S_ 32 100000#32),
    unary main_c_3 main_v22 (broadcastInDim S1000000 ![] bcast_S_S1000000 : (⟨S_, .i32⟩ : BufTy).Contents (Elt F) → (⟨S1000000, .i32⟩ : BufTy).Contents (Elt F)),
    binary main_arg2 main_v22 main_v23 (addi : (⟨S1000000, .i32⟩ : BufTy).Contents (Elt F) → (⟨S1000000, .i32⟩ : BufTy).Contents (Elt F) → (⟨S1000000, .i32⟩ : BufTy).Contents (Elt F)),
    ternary main_v21 main_v23 main_arg2 main_v24 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v24 main_v25 (broadcastInDim S1000000x1 ![0] bcast_S1000000_S1000000x1_0 : (⟨S1000000, .i32⟩ : BufTy).Contents (Elt F) → (⟨S1000000x1, .i32⟩ : BufTy).Contents (Elt F)),
    binary main_v18 main_v25 main_v26 ((fun x i => Host.gather gather_S100000x32_S1000000x1_S1000000x32_1_0_n_n_0_1_132 x i) : (⟨S100000x32, .f32⟩ : BufTy).Contents (Elt F) → (⟨S1000000x1, .i32⟩ : BufTy).Contents (Elt F) → (⟨S1000000x32, .f32⟩ : BufTy).Contents (Elt F)),
    unary main_v19 main_v27 (broadcastInDim S1000000x32 ![0, 1] bcast_S1000000x1_S1000000x32_0_1 : (⟨S1000000x1, .f32⟩ : BufTy).Contents (Elt F) → (⟨S1000000x32, .f32⟩ : BufTy).Contents (Elt F)),
    binary main_v27 main_v26 main_v28 (mulf : (⟨S1000000x32, .f32⟩ : BufTy).Contents (Elt F) → (⟨S1000000x32, .f32⟩ : BufTy).Contents (Elt F) → (⟨S1000000x32, .f32⟩ : BufTy).Contents (Elt F)),
    nullary main_cst_4 (constant S_ .f32 0x00000000#32),
    unary main_cst_4 main_v29 (broadcastInDim S100000x32 ![] bcast_S_S100000x32 : (⟨S_, .f32⟩ : BufTy).Contents (Elt F) → (⟨S100000x32, .f32⟩ : BufTy).Contents (Elt F)),
    unary main_arg1 main_v30 (broadcastInDim S1000000x1 ![0] bcast_S1000000_S1000000x1_0 : (⟨S1000000, .i32⟩ : BufTy).Contents (Elt F) → (⟨S1000000x1, .i32⟩ : BufTy).Contents (Elt F)),
    ternary main_v29 main_v30 main_v28 main_v31 ((fun x i u => Host.scatterAdd scatter_S100000x32_S1000000x1_S1000000x32_1_0_0_1 x i u) : (⟨S100000x32, .f32⟩ : BufTy).Contents (Elt F) → (⟨S1000000x1, .i32⟩ : BufTy).Contents (Elt F) → (⟨S1000000x32, .f32⟩ : BufTy).Contents (Elt F) → (⟨S100000x32, .f32⟩ : BufTy).Contents (Elt F)),
    unary main_arg7 main_v32 (broadcastInDim S1x32 ![1] bcast_S32_S1x32_1 : (⟨S32, .f32⟩ : BufTy).Contents (Elt F) → (⟨S1x32, .f32⟩ : BufTy).Contents (Elt F)),
    unary main_v32 main_v33 (broadcastInDim S100000x32 ![0, 1] bcast_S1x32_S100000x32_0_1 : (⟨S1x32, .f32⟩ : BufTy).Contents (Elt F) → (⟨S100000x32, .f32⟩ : BufTy).Contents (Elt F)),
    binary main_v31 main_v33 main_v34 (addf : (⟨S100000x32, .f32⟩ : BufTy).Contents (Elt F) → (⟨S100000x32, .f32⟩ : BufTy).Contents (Elt F) → (⟨S100000x32, .f32⟩ : BufTy).Contents (Elt F)),
    nullary main_cst_5 (constant S_ .f32 0x3E800000#32),
    TRef.nullary main_call1.cst (constant S_ .f32 0x00000000#32),
    TRef.unary main_call1.cst main_call1.v0 (broadcastInDim S100000x32 ![] bcast_S_S100000x32),
    TRef.binary (.of main_v34 : TRef sig ⟨S100000x32, .f32⟩) main_call1.v0 main_call1.v1 (cmpf .oge),
    TRef.unary (.of main_cst_5 : TRef sig ⟨S_, .f32⟩) main_call1.v2 id,
    TRef.unary main_call1.v2 main_call1.v3 (broadcastInDim S100000x32 ![] bcast_S_S100000x32),
    TRef.binary main_call1.v3 (.of main_v34 : TRef sig ⟨S100000x32, .f32⟩) main_call1.v4 mulf,
    TRef.ternary main_call1.v1 (.of main_v34 : TRef sig ⟨S100000x32, .f32⟩) main_call1.v4 main_call1.call0.v0 select,
    binary main_v35 main_arg8 main_v36 ((fun l r => Host.dotGeneral dot_S100000x32_S32x16_S100000x16_1_0_0_1_n_n none l r) : (⟨S100000x32, .f32⟩ : BufTy).Contents (Elt F) → (⟨S32x16, .f32⟩ : BufTy).Contents (Elt F) → (⟨S100000x16, .f32⟩ : BufTy).Contents (Elt F)),
    unary main_arg3 main_v37 (broadcastInDim S1000000x1 ![0] bcast_S1000000_S1000000x1_0 : (⟨S1000000, .f32⟩ : BufTy).Contents (Elt F) → (⟨S1000000x1, .f32⟩ : BufTy).Contents (Elt F)),
    nullary main_c_6 (constantI S_ 32 0#32),
    unary main_c_6 main_v38 (broadcastInDim S1000000 ![] bcast_S_S1000000 : (⟨S_, .i32⟩ : BufTy).Contents (Elt F) → (⟨S1000000, .i32⟩ : BufTy).Contents (Elt F)),
    binary main_arg2 main_v38 main_v39 (cmpi .slt : (⟨S1000000, .i32⟩ : BufTy).Contents (Elt F) → (⟨S1000000, .i32⟩ : BufTy).Contents (Elt F) → (⟨S1000000, .i1⟩ : BufTy).Contents (Elt F)),
    nullary main_c_7 (constantI S_ 32 100000#32),
    unary main_c_7 main_v40 (broadcastInDim S1000000 ![] bcast_S_S1000000 : (⟨S_, .i32⟩ : BufTy).Contents (Elt F) → (⟨S1000000, .i32⟩ : BufTy).Contents (Elt F)),
    binary main_arg2 main_v40 main_v41 (addi : (⟨S1000000, .i32⟩ : BufTy).Contents (Elt F) → (⟨S1000000, .i32⟩ : BufTy).Contents (Elt F) → (⟨S1000000, .i32⟩ : BufTy).Contents (Elt F)),
    ternary main_v39 main_v41 main_arg2 main_v42 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v42 main_v43 (broadcastInDim S1000000x1 ![0] bcast_S1000000_S1000000x1_0 : (⟨S1000000, .i32⟩ : BufTy).Contents (Elt F) → (⟨S1000000x1, .i32⟩ : BufTy).Contents (Elt F)),
    binary main_v36 main_v43 main_v44 ((fun x i => Host.gather gather_S100000x16_S1000000x1_S1000000x16_1_0_n_n_0_1_116 x i) : (⟨S100000x16, .f32⟩ : BufTy).Contents (Elt F) → (⟨S1000000x1, .i32⟩ : BufTy).Contents (Elt F) → (⟨S1000000x16, .f32⟩ : BufTy).Contents (Elt F)),
    unary main_v37 main_v45 (broadcastInDim S1000000x16 ![0, 1] bcast_S1000000x1_S1000000x16_0_1 : (⟨S1000000x1, .f32⟩ : BufTy).Contents (Elt F) → (⟨S1000000x16, .f32⟩ : BufTy).Contents (Elt F)),
    binary main_v45 main_v44 main_v46 (mulf : (⟨S1000000x16, .f32⟩ : BufTy).Contents (Elt F) → (⟨S1000000x16, .f32⟩ : BufTy).Contents (Elt F) → (⟨S1000000x16, .f32⟩ : BufTy).Contents (Elt F)),
    nullary main_cst_8 (constant S_ .f32 0x00000000#32),
    unary main_cst_8 main_v47 (broadcastInDim S100000x16 ![] bcast_S_S100000x16 : (⟨S_, .f32⟩ : BufTy).Contents (Elt F) → (⟨S100000x16, .f32⟩ : BufTy).Contents (Elt F)),
    unary main_arg1 main_v48 (broadcastInDim S1000000x1 ![0] bcast_S1000000_S1000000x1_0 : (⟨S1000000, .i32⟩ : BufTy).Contents (Elt F) → (⟨S1000000x1, .i32⟩ : BufTy).Contents (Elt F)),
    ternary main_v47 main_v48 main_v46 main_v49 ((fun x i u => Host.scatterAdd scatter_S100000x16_S1000000x1_S1000000x16_1_0_0_1 x i u) : (⟨S100000x16, .f32⟩ : BufTy).Contents (Elt F) → (⟨S1000000x1, .i32⟩ : BufTy).Contents (Elt F) → (⟨S1000000x16, .f32⟩ : BufTy).Contents (Elt F) → (⟨S100000x16, .f32⟩ : BufTy).Contents (Elt F)),
    unary main_arg9 main_v50 (broadcastInDim S1x16 ![1] bcast_S16_S1x16_1 : (⟨S16, .f32⟩ : BufTy).Contents (Elt F) → (⟨S1x16, .f32⟩ : BufTy).Contents (Elt F)),
    unary main_v50 main_v51 (broadcastInDim S100000x16 ![0, 1] bcast_S1x16_S100000x16_0_1 : (⟨S1x16, .f32⟩ : BufTy).Contents (Elt F) → (⟨S100000x16, .f32⟩ : BufTy).Contents (Elt F)),
    binary main_v49 main_v51 main_v52 (addf : (⟨S100000x16, .f32⟩ : BufTy).Contents (Elt F) → (⟨S100000x16, .f32⟩ : BufTy).Contents (Elt F) → (⟨S100000x16, .f32⟩ : BufTy).Contents (Elt F)),
    nullary main_cst_9 (constant S_ .f32 0x3E800000#32),
    TRef.nullary main_call2.cst (constant S_ .f32 0x00000000#32),
    TRef.unary main_call2.cst main_call2.v0 (broadcastInDim S100000x16 ![] bcast_S_S100000x16),
    TRef.binary (.of main_v52 : TRef sig ⟨S100000x16, .f32⟩) main_call2.v0 main_call2.v1 (cmpf .oge),
    TRef.unary (.of main_cst_9 : TRef sig ⟨S_, .f32⟩) main_call2.v2 id,
    TRef.unary main_call2.v2 main_call2.v3 (broadcastInDim S100000x16 ![] bcast_S_S100000x16),
    TRef.binary main_call2.v3 (.of main_v52 : TRef sig ⟨S100000x16, .f32⟩) main_call2.v4 mulf,
    TRef.ternary main_call2.v1 (.of main_v52 : TRef sig ⟨S100000x16, .f32⟩) main_call2.v4 main_call2.call0.v0 select ]

set_option maxRecDepth 8192 in
set_option maxHeartbeats 4000000 in
/-- `main` is that line: the two windows and the called functions unfolded at their calls, both sides are one chain
    of operation steps once sequencing is associated to the right. -/
private theorem main_eq (c : Dev nD) : main (F := F) c = seq ops := by
  simp only [main, main_part0, main_part1, fn_leaky_relu.body, fn_leaky_relu_0.body, fn_leaky_relu_2.body,
    fn_where.body, fn_where_1.body, fn_where_3.body, seq, bind_assoc, pure_bind]

private theorem scopedRefs_eq : (Finset.univ.filter fun b : Ref sig .tc => b.isScoped) = ∅ := by decide
private theorem scopedSems_eq : (Finset.univ.filter fun sm : SemLoc sig => sm.isScoped .tc) = ∅ := by decide

set_option maxRecDepth 8192 in
/-- Every operation of the line touches TensorCore buffers only. -/
private theorem ops_sub : (ops : List (HloOp τ sig (Elt F))).Forall fun op => op.bufs ⊆ tcRefs τ sig :=
  ⟨binary_bufs_sub .., unary_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    binary_bufs_sub .., nullary_bufs_sub .., unary_bufs_sub .., unary_bufs_sub .., ternary_bufs_sub .., unary_bufs_sub ..,
    unary_bufs_sub .., binary_bufs_sub .., nullary_bufs_sub .., nullary_bufs_sub .., unary_bufs_sub .., binary_bufs_sub ..,
    unary_bufs_sub .., unary_bufs_sub .., binary_bufs_sub .., ternary_bufs_sub .., binary_bufs_sub .., unary_bufs_sub ..,
    nullary_bufs_sub .., unary_bufs_sub .., binary_bufs_sub .., nullary_bufs_sub .., unary_bufs_sub .., binary_bufs_sub ..,
    ternary_bufs_sub .., unary_bufs_sub .., binary_bufs_sub .., unary_bufs_sub .., binary_bufs_sub .., nullary_bufs_sub ..,
    unary_bufs_sub .., unary_bufs_sub .., ternary_bufs_sub .., unary_bufs_sub .., unary_bufs_sub .., binary_bufs_sub ..,
    nullary_bufs_sub .., nullary_bufs_sub .., unary_bufs_sub .., binary_bufs_sub .., unary_bufs_sub .., unary_bufs_sub ..,
    binary_bufs_sub .., ternary_bufs_sub .., binary_bufs_sub .., unary_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., binary_bufs_sub .., nullary_bufs_sub .., unary_bufs_sub .., unary_bufs_sub ..,
    ternary_bufs_sub .., unary_bufs_sub .., unary_bufs_sub .., binary_bufs_sub .., nullary_bufs_sub .., nullary_bufs_sub ..,
    unary_bufs_sub .., binary_bufs_sub .., unary_bufs_sub .., unary_bufs_sub .., binary_bufs_sub .., ternary_bufs_sub ..⟩

end Line

section Read

open Idealize.ShloMosaic.StableHlo Idealize.ShloMosaic.TcCoe

set_option maxRecDepth 8192 in
set_option maxHeartbeats 4000000 in
/-- What the result array holds after the line, from any contents `V`: each operation's result read at its own
    buffer and every other buffer left as it was, the composed term is the three layers of the argument arrays. -/
private theorem out_eq (V : Valuation τ sig (Elt F)) :
    after ops V (Proc.devRef .tc main_v53 : DevRef τ sig)
      = Stages.out (V (Proc.devRef .tc main_arg0 : DevRef τ sig)) (V (Proc.devRef .tc main_arg1 : DevRef τ sig)) (V (Proc.devRef .tc main_arg2 : DevRef τ sig)) (V (Proc.devRef .tc main_arg3 : DevRef τ sig))
          (V (Proc.devRef .tc main_arg4 : DevRef τ sig)) (V (Proc.devRef .tc main_arg5 : DevRef τ sig)) (V (Proc.devRef .tc main_arg6 : DevRef τ sig)) (V (Proc.devRef .tc main_arg7 : DevRef τ sig))
          (V (Proc.devRef .tc main_arg8 : DevRef τ sig)) (V (Proc.devRef .tc main_arg9 : DevRef τ sig)) := by
  after_results_simp
  rfl

set_option maxRecDepth 8192 in
set_option maxHeartbeats 4000000 in
/-- No operation of the line writes an argument array: after it each holds what it held (one statement per argument). -/
private theorem arg0_eq (V : Valuation τ sig (Elt F)) : after ops V (Proc.devRef .tc main_arg0 : DevRef τ sig) = V (Proc.devRef .tc main_arg0 : DevRef τ sig) := by
  after_results_simp

set_option maxRecDepth 8192 in
set_option maxHeartbeats 4000000 in
private theorem arg1_eq (V : Valuation τ sig (Elt F)) : after ops V (Proc.devRef .tc main_arg1 : DevRef τ sig) = V (Proc.devRef .tc main_arg1 : DevRef τ sig) := by
  after_results_simp

set_option maxRecDepth 8192 in
set_option maxHeartbeats 4000000 in
private theorem arg2_eq (V : Valuation τ sig (Elt F)) : after ops V (Proc.devRef .tc main_arg2 : DevRef τ sig) = V (Proc.devRef .tc main_arg2 : DevRef τ sig) := by
  after_results_simp

set_option maxRecDepth 8192 in
set_option maxHeartbeats 4000000 in
private theorem arg3_eq (V : Valuation τ sig (Elt F)) : after ops V (Proc.devRef .tc main_arg3 : DevRef τ sig) = V (Proc.devRef .tc main_arg3 : DevRef τ sig) := by
  after_results_simp

set_option maxRecDepth 8192 in
set_option maxHeartbeats 4000000 in
private theorem arg4_eq (V : Valuation τ sig (Elt F)) : after ops V (Proc.devRef .tc main_arg4 : DevRef τ sig) = V (Proc.devRef .tc main_arg4 : DevRef τ sig) := by
  after_results_simp

set_option maxRecDepth 8192 in
set_option maxHeartbeats 4000000 in
private theorem arg5_eq (V : Valuation τ sig (Elt F)) : after ops V (Proc.devRef .tc main_arg5 : DevRef τ sig) = V (Proc.devRef .tc main_arg5 : DevRef τ sig) := by
  after_results_simp

set_option maxRecDepth 8192 in
set_option maxHeartbeats 4000000 in
private theorem arg6_eq (V : Valuation τ sig (Elt F)) : after ops V (Proc.devRef .tc main_arg6 : DevRef τ sig) = V (Proc.devRef .tc main_arg6 : DevRef τ sig) := by
  after_results_simp

set_option maxRecDepth 8192 in
set_option maxHeartbeats 4000000 in
private theorem arg7_eq (V : Valuation τ sig (Elt F)) : after ops V (Proc.devRef .tc main_arg7 : DevRef τ sig) = V (Proc.devRef .tc main_arg7 : DevRef τ sig) := by
  after_results_simp

set_option maxRecDepth 8192 in
set_option maxHeartbeats 4000000 in
private theorem arg8_eq (V : Valuation τ sig (Elt F)) : after ops V (Proc.devRef .tc main_arg8 : DevRef τ sig) = V (Proc.devRef .tc main_arg8 : DevRef τ sig) := by
  after_results_simp

set_option maxRecDepth 8192 in
set_option maxHeartbeats 4000000 in
private theorem arg9_eq (V : Valuation τ sig (Elt F)) : after ops V (Proc.devRef .tc main_arg9 : DevRef τ sig) = V (Proc.devRef .tc main_arg9 : DevRef τ sig) := by
  after_results_simp

end Read

theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v53)
        = Stages.out (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8))
            (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  refine (θ_run defs _ _).mono (fun _ h c => ?_)
    (StableHlo.run_seq scopedRefs_eq scopedSems_eq defs main (fun _ => ops) main_eq (fun _ => ops_sub) m ρ)
  exact ⟨(h c main_v53).trans (out_eq _), (h c main_arg0).trans (arg0_eq _), (h c main_arg1).trans (arg1_eq _),
    (h c main_arg2).trans (arg2_eq _), (h c main_arg3).trans (arg3_eq _), (h c main_arg4).trans (arg4_eq _),
    (h c main_arg5).trans (arg5_eq _), (h c main_arg6).trans (arg6_eq _), (h c main_arg7).trans (arg7_eq _),
    (h c main_arg8).trans (arg8_eq _), (h c main_arg9).trans (arg9_eq _)⟩

end Cert.ReferenceIdeal.RefRun

end
-- ==== Proof.KStages.lean ====
/-
  The host side of the kernel's program between its four kernel regions, as named functions of array values, each
  built from the very host operations the printed program applies, in the same order and over the same records.

  `wrap` reads a possibly negative edge column as numpy does (c + 100000 where c < 0). `idx` lays the wrapped
  columns out as a one-column index matrix. `inRange` is the mask "0 <= wrapped column <= 99999", reduced over the
  one column. `takeD` gathers the rows of a support matrix at the wrapped columns and keeps a gathered row only where
  the mask holds, putting the quiet-NaN word elsewhere. `kaggD` scales the taken rows by the edge weights and
  scatter-adds them into the edge rows of a zero matrix. `gaggD` is the same aggregation over a bare gather.
-/
import proofs.«427570_j26783416058429_1_alg».proof.KernelIdeal

noncomputable section

namespace Cert.KernelIdeal.KStages

open Idealize.ShloMosaic Cert.KernelIdeal

variable {F : FTy → Type} [FloatOps F] [Facts]
open Facts₀ Facts

/-- numpy's reading of a possibly negative index: `c + 100000` where `c < 0`, else `c`. -/
def wrap (col : IVec S1000000 32) : IVec S1000000 32 :=
  select (cmpi .slt col (broadcastInDim S1000000 ![] bcast_S_S1000000 (constantI S_ 32 0#32)))
    (addi col (broadcastInDim S1000000 ![] bcast_S_S1000000 (constantI S_ 32 100000#32))) col

/-- The wrapped columns as a one-column index matrix. -/
def idx (col : IVec S1000000 32) : IVec S1000000x1 32 :=
  broadcastInDim S1000000x1 ![0] bcast_S1000000_S1000000x1_0 (wrap col)

/-- The mask "0 <= wrapped column <= 99999", per edge. -/
def inRange (col : IVec S1000000 32) : IVec S1000000 1 :=
  Host.reduce IntOp.andi
    (andi (cmpi .sge (idx col) (broadcastInDim S1000000x1 ![] bcast_S_S1000000x1 (constantI S_ 32 0#32)))
      (cmpi .sle (idx col) (broadcastInDim S1000000x1 ![0, 1] bcast_S1x1_S1000000x1_0_1
        (broadcastInDim S1x1 ![1] bcast_S1_S1x1_1 (constantI S1 32 99999#32)))))
    (constantI S_ 1 1#1) reducesTo_S1000000x1_S1000000_d1 h_S_

def take64 (sup : FVec F S100000x64 .f32) (col : IVec S1000000 32) : FVec F S1000000x64 .f32 :=
  select (broadcastInDim S1000000x64 ![0] bcast_S1000000_S1000000x64_0 (inRange col))
    (Host.gather gather_S100000x64_S1000000x1_S1000000x64_1_0_n_n_0_1_164 sup (idx col))
    (broadcastInDim S1000000x64 ![] bcast_S_S1000000x64 (constant S_ .f32 0x7FC00000#32))

/-- The sparse aggregation as the kernel's program spells it: the rows taken at the edge columns, scaled by the edge
    weights, and scatter-added into the edge rows of a zero matrix. -/
def kagg64 (sup : FVec F S100000x64 .f32) (row col : IVec S1000000 32) (ew : FVec F S1000000 .f32) : FVec F S100000x64 .f32 :=
  Host.scatterAdd scatter_S100000x64_S1000000x1_S1000000x64_1_0_0_1
    (broadcastInDim S100000x64 ![] bcast_S_S100000x64 (constant S_ .f32 0x00000000#32))
    (broadcastInDim S1000000x1 ![0] bcast_S1000000_S1000000x1_0 row)
    (mulf (broadcastInDim S1000000x64 ![0, 1] bcast_S1000000x1_S1000000x64_0_1 (broadcastInDim S1000000x1 ![0] bcast_S1000000_S1000000x1_0 ew))
      (take64 sup col))

/-- The same aggregation with the rows fetched by a bare gather at the wrapped columns (no range mask). -/
def gagg64 (sup : FVec F S100000x64 .f32) (row col : IVec S1000000 32) (ew : FVec F S1000000 .f32) : FVec F S100000x64 .f32 :=
  Host.scatterAdd scatter_S100000x64_S1000000x1_S1000000x64_1_0_0_1
    (broadcastInDim S100000x64 ![] bcast_S_S100000x64 (constant S_ .f32 0x00000000#32))
    (broadcastInDim S1000000x1 ![0] bcast_S1000000_S1000000x1_0 row)
    (mulf (broadcastInDim S1000000x64 ![0, 1] bcast_S1000000x1_S1000000x64_0_1 (broadcastInDim S1000000x1 ![0] bcast_S1000000_S1000000x1_0 ew))
      (Host.gather gather_S100000x64_S1000000x1_S1000000x64_1_0_n_n_0_1_164 sup (idx col)))

def take32 (sup : FVec F S100000x32 .f32) (col : IVec S1000000 32) : FVec F S1000000x32 .f32 :=
  select (broadcastInDim S1000000x32 ![0] bcast_S1000000_S1000000x32_0 (inRange col))
    (Host.gather gather_S100000x32_S1000000x1_S1000000x32_1_0_n_n_0_1_132 sup (idx col))
    (broadcastInDim S1000000x32 ![] bcast_S_S1000000x32 (constant S_ .f32 0x7FC00000#32))

/-- The sparse aggregation as the kernel's program spells it: the rows taken at the edge columns, scaled by the edge
    weights, and scatter-added into the edge rows of a zero matrix. -/
def kagg32 (sup : FVec F S100000x32 .f32) (row col : IVec S1000000 32) (ew : FVec F S1000000 .f32) : FVec F S100000x32 .f32 :=
  Host.scatterAdd scatter_S100000x32_S1000000x1_S1000000x32_1_0_0_1
    (broadcastInDim S100000x32 ![] bcast_S_S100000x32 (constant S_ .f32 0x00000000#32))
    (broadcastInDim S1000000x1 ![0] bcast_S1000000_S1000000x1_0 row)
    (mulf (broadcastInDim S1000000x32 ![0, 1] bcast_S1000000x1_S1000000x32_0_1 (broadcastInDim S1000000x1 ![0] bcast_S1000000_S1000000x1_0 ew))
      (take32 sup col))

/-- The same aggregation with the rows fetched by a bare gather at the wrapped columns (no range mask). -/
def gagg32 (sup : FVec F S100000x32 .f32) (row col : IVec S1000000 32) (ew : FVec F S1000000 .f32) : FVec F S100000x32 .f32 :=
  Host.scatterAdd scatter_S100000x32_S1000000x1_S1000000x32_1_0_0_1
    (broadcastInDim S100000x32 ![] bcast_S_S100000x32 (constant S_ .f32 0x00000000#32))
    (broadcastInDim S1000000x1 ![0] bcast_S1000000_S1000000x1_0 row)
    (mulf (broadcastInDim S1000000x32 ![0, 1] bcast_S1000000x1_S1000000x32_0_1 (broadcastInDim S1000000x1 ![0] bcast_S1000000_S1000000x1_0 ew))
      (Host.gather gather_S100000x32_S1000000x1_S1000000x32_1_0_n_n_0_1_132 sup (idx col)))

def take16 (sup : FVec F S100000x16 .f32) (col : IVec S1000000 32) : FVec F S1000000x16 .f32 :=
  select (broadcastInDim S1000000x16 ![0] bcast_S1000000_S1000000x16_0 (inRange col))
    (Host.gather gather_S100000x16_S1000000x1_S1000000x16_1_0_n_n_0_1_116 sup (idx col))
    (broadcastInDim S1000000x16 ![] bcast_S_S1000000x16 (constant S_ .f32 0x7FC00000#32))

/-- The sparse aggregation as the kernel's program spells it: the rows taken at the edge columns, scaled by the edge
    weights, and scatter-added into the edge rows of a zero matrix. -/
def kagg16 (sup : FVec F S100000x16 .f32) (row col : IVec S1000000 32) (ew : FVec F S1000000 .f32) : FVec F S100000x16 .f32 :=
  Host.scatterAdd scatter_S100000x16_S1000000x1_S1000000x16_1_0_0_1
    (broadcastInDim S100000x16 ![] bcast_S_S100000x16 (constant S_ .f32 0x00000000#32))
    (broadcastInDim S1000000x1 ![0] bcast_S1000000_S1000000x1_0 row)
    (mulf (broadcastInDim S1000000x16 ![0, 1] bcast_S1000000x1_S1000000x16_0_1 (broadcastInDim S1000000x1 ![0] bcast_S1000000_S1000000x1_0 ew))
      (take16 sup col))

/-- The same aggregation with the rows fetched by a bare gather at the wrapped columns (no range mask). -/
def gagg16 (sup : FVec F S100000x16 .f32) (row col : IVec S1000000 32) (ew : FVec F S1000000 .f32) : FVec F S100000x16 .f32 :=
  Host.scatterAdd scatter_S100000x16_S1000000x1_S1000000x16_1_0_0_1
    (broadcastInDim S100000x16 ![] bcast_S_S100000x16 (constant S_ .f32 0x00000000#32))
    (broadcastInDim S1000000x1 ![0] bcast_S1000000_S1000000x1_0 row)
    (mulf (broadcastInDim S1000000x16 ![0, 1] bcast_S1000000x1_S1000000x16_0_1 (broadcastInDim S1000000x1 ![0] bcast_S1000000_S1000000x1_0 ew))
      (Host.gather gather_S100000x16_S1000000x1_S1000000x16_1_0_n_n_0_1_116 sup (idx col)))

end Cert.KernelIdeal.KStages

end
-- ==== Proof.Take.lean ====
/-
  Under the range fact on the edge columns (each lies in [-100000, 100000)), every wrapped column lies in
  [0, 99999], the kernel program's range mask holds on every edge, and its masked take is the bare gather: the
  aggregation `kaggD` is `gaggD`. The range fact is read out of the printed precondition's last conjunct.
-/
import proofs.«427570_j26783416058429_1_alg».proof.Proof.KStages
import proofs.«427570_j26783416058429_1_alg».proof.Pre_finite_inputs
import proofs.«427570_j26783416058429_1_alg».proof.Proof.Gen.Pre_finite_inputs
import proofs.«427570_j26783416058429_1_alg».proof.Proof.Gen.KernelIdeal
import Idealize.ShloMosaic.Lib.StableHlo.Predicate
import Idealize.ShloMosaic.Lib.ReduceAll
import Idealize.ShloMosaic.Lib.ValueIdx

noncomputable section

namespace Cert.KernelIdeal.Take

open Idealize.ShloMosaic Idealize.ShloMosaic.ValueIdx Cert.KernelIdeal

variable {F : FTy → Type} [FloatOps F]

/-- Every edge column lies in [-100000, 100000) as a signed 32-bit integer. -/
def ColsInRange (col : IVec S1000000 32) : Prop :=
  ∀ e : Fin 1000000, (-100000 : Int) ≤ (col (ix1 e)).toInt ∧ (col (ix1 e)).toInt < 100000

/-! ## Signed compares of 32-bit words are the order of their signed values -/

private theorem sge_iff (a b : BitVec 32) : IntOp.cmpi .sge a b = 1#1 ↔ b.toInt ≤ a.toInt := by
  unfold IntOp.cmpi
  simp only [StableHlo.Predicate.ofBool_eq_one_iff, BitVec.sle, decide_eq_true_eq]

private theorem sle_iff (a b : BitVec 32) : IntOp.cmpi .sle a b = 1#1 ↔ a.toInt ≤ b.toInt := by
  unfold IntOp.cmpi
  simp only [StableHlo.Predicate.ofBool_eq_one_iff, BitVec.sle, decide_eq_true_eq]

private theorem slt_iff (a b : BitVec 32) : IntOp.cmpi .slt a b = 1#1 ↔ a.toInt < b.toInt := by
  unfold IntOp.cmpi
  simp only [StableHlo.Predicate.ofBool_eq_one_iff, BitVec.slt, decide_eq_true_eq]

private theorem toInt_zero : (0#32 : BitVec 32).toInt = 0 := by decide
private theorem toInt_hi : (99999#32 : BitVec 32).toInt = 99999 := by decide
private theorem toInt_n : (100000#32 : BitVec 32).toInt = 100000 := by decide
private theorem toInt_neg_n : (4294867296#32 : BitVec 32).toInt = -100000 := by decide

/-- Adding 100000 to a word in [-100000, 0) does not wrap around in 32 bits. -/
private theorem toInt_add_n (c : BitVec 32) (h1 : (-100000 : Int) ≤ c.toInt) (h2 : c.toInt < 0) :
    (IntOp.addi c 100000#32).toInt = c.toInt + 100000 := by
  unfold IntOp.addi
  rw [BitVec.toInt_add, toInt_n]
  exact Int.bmod_eq_of_le_mul_two (by omega) (by omega)

/-- A word c in [-100000, 100000), a negative one counted back from the end (c + 100000 where c < 0), lies in [0, 99999]. -/
private theorem wrap_word (c : BitVec 32) (h1 : (-100000 : Int) ≤ c.toInt) (h2 : c.toInt < 100000) :
    IntOp.andi (IntOp.cmpi .sge (Scalar.select (IntOp.cmpi .slt c 0#32) (IntOp.addi c 100000#32) c) 0#32)
      (IntOp.cmpi .sle (Scalar.select (IntOp.cmpi .slt c 0#32) (IntOp.addi c 100000#32) c) 99999#32) = 1#1 := by
  rw [IntOp.andi_eq_one, sge_iff, sle_iff, toInt_zero, toInt_hi]
  by_cases hc : c.toInt < 0
  · have e : IntOp.cmpi .slt c 0#32 = 1#1 := (slt_iff _ _).2 (by rw [toInt_zero]; exact hc)
    rw [e, select_one, toInt_add_n c h1 hc]
    omega
  · have e : IntOp.cmpi .slt c 0#32 = 0#1 :=
      eq_zero_of_ne_one (fun h => hc (by have := (slt_iff _ _).1 h; rwa [toInt_zero] at this))
    rw [e, select_zero]
    omega

/-! ## An and-reduction of all ones is one -/

private theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_ones f hf l

private theorem reduce_andi_ones {s t u : Shape} {axes : List (Fin s.rank)} (x : s.Idx → BitVec 1) (hx : ∀ i, x i = 1#1)
    (h : s.ReducesTo axes t) (hu : 0 < u.numel) (j : t.Idx) :
    Host.reduce IntOp.andi x (constantI u 1 1#1) h hu j = 1#1 := by
  rw [Host.reduce_eq_foldl]
  exact foldl_andi_ones x hx _

/-- A select whose mask is one everywhere is its first operand. -/
private theorem select_ones {α : Type} {s : Shape} (c : IVec s 1) (hc : ∀ i, c i = 1#1) (a b : s.Idx → α) :
    select c a b = a := by
  funext i
  rw [select_apply, hc i, select_one]

/-- So is a select whose mask is a broadcast of all ones. -/
private theorem select_bcast_ones {α : Type} {s t : Shape} (dims : Fin s.rank → Fin t.rank) (hb : s.BroadcastsInDim t dims)
    (a b : t.Idx → α) : select (broadcastInDim t dims hb (fun _ => (1#1 : BitVec 1))) a b = a :=
  select_ones _ (fun _ => rfl) a b

/-! ## The range mask holds on every edge -/

private theorem wrap_apply (col : IVec S1000000 32) (k : S1000000.Idx) :
    KStages.wrap col k = Scalar.select (IntOp.cmpi .slt (col k) 0#32) (IntOp.addi (col k) 100000#32) (col k) := rfl

private theorem inRange_eq (col : IVec S1000000 32) (h : ColsInRange col) : KStages.inRange col = fun _ => 1#1 := by
  funext j
  unfold KStages.inRange
  refine reduce_andi_ones _ (fun i => ?_) _ _ j
  obtain ⟨k, hk⟩ : ∃ k, KStages.idx col i = KStages.wrap col k := ⟨_, rfl⟩
  show IntOp.andi (IntOp.cmpi .sge (KStages.idx col i) 0#32) (IntOp.cmpi .sle (KStages.idx col i) 99999#32) = 1#1
  rw [hk, wrap_apply]
  have hc := h (k 0)
  rw [show col (ix1 (k 0)) = col k from congrArg col (eq_ix1 k).symm] at hc
  exact wrap_word _ hc.1 hc.2

theorem kagg64_eq (sup : FVec F S100000x64 .f32) (row col : IVec S1000000 32) (ew : FVec F S1000000 .f32) (h : ColsInRange col) :
    KStages.kagg64 sup row col ew = KStages.gagg64 sup row col ew := by
  unfold KStages.kagg64 KStages.gagg64 KStages.take64
  rw [inRange_eq col h, select_bcast_ones]

theorem kagg32_eq (sup : FVec F S100000x32 .f32) (row col : IVec S1000000 32) (ew : FVec F S1000000 .f32) (h : ColsInRange col) :
    KStages.kagg32 sup row col ew = KStages.gagg32 sup row col ew := by
  unfold KStages.kagg32 KStages.gagg32 KStages.take32
  rw [inRange_eq col h, select_bcast_ones]

theorem kagg16_eq (sup : FVec F S100000x16 .f32) (row col : IVec S1000000 32) (ew : FVec F S1000000 .f32) (h : ColsInRange col) :
    KStages.kagg16 sup row col ew = KStages.gagg16 sup row col ew := by
  unfold KStages.kagg16 KStages.gagg16 KStages.take16
  rw [inRange_eq col h, select_bcast_ones]

/-- The printed precondition, all ones, gives the range fact on its third argument (the edge columns). -/
theorem cols_of_pre (a0 : FVec F Cert.Pre_finite_inputs.S100000x64 .f32) (a1 a2 : IVec Cert.Pre_finite_inputs.S1000000 32)
    (a3 : FVec F Cert.Pre_finite_inputs.S1000000 .f32) (a4 : FVec F Cert.Pre_finite_inputs.S64x64 .f32) (a5 : FVec F Cert.Pre_finite_inputs.S64 .f32)
    (a6 : FVec F Cert.Pre_finite_inputs.S64x32 .f32) (a7 : FVec F Cert.Pre_finite_inputs.S32 .f32) (a8 : FVec F Cert.Pre_finite_inputs.S32x16 .f32)
    (a9 : FVec F Cert.Pre_finite_inputs.S16 .f32)
    (h : Cert.Pre_finite_inputs.fn (F := F) a0 a1 a2 a3 a4 a5 a6 a7 a8 a9 = (fun _ => 1#1)) : ColsInRange a2 := by
  intro e
  have h0 := congrFun h ix0
  dsimp only [Cert.Pre_finite_inputs.fn, Cert.Pre_finite_inputs.fn_part1, Cert.Pre_finite_inputs.fn_part2] at h0
  have h1 := (IntOp.andi_eq_one.1 h0).2
  haveI : Subsingleton Cert.Pre_finite_inputs.S_.Idx := ⟨fun a b => funext fun d => d.elim0⟩
  have h2 := Host.reduce_andi_all _ _ _ _ _ h1 (ix1 e)
  have h3 := IntOp.andi_eq_one.1 h2
  have g1 : (4294867296#32 : BitVec 32).toInt ≤ (a2 (ix1 e)).toInt := (sge_iff _ _).1 h3.1
  have g2 : (a2 (ix1 e)).toInt < (100000#32 : BitVec 32).toInt := (slt_iff _ _).1 h3.2
  rw [toInt_neg_n] at g1
  rw [toInt_n] at g2
  exact ⟨g1, g2⟩

end Cert.KernelIdeal.Take

end
-- ==== Proof.Spec.lean ====
/-
  The mathematics both programs compute, index by index, on the extended reals.

  A graph-convolution layer here is three things. `linS A W` is the dense product: entry (i, j) is the sum over k
  of A(i, k) * W(k, j). The sparse aggregation (gather rows at the edge columns, scale by the edge weight, add into
  the edge rows) is the same host operation chain in both programs and is never opened: it is carried as one
  function of the support matrix. `actS A b` adds the bias b(j) to entry (i, j) and applies the leaky rectifier
  `leakyS`: y where y >= 0, and 1/4 * y elsewhere (the literal 0x3E800000 is 0.25; it is the same word on both
  sides and is never evaluated).
-/
import Idealize.ShloMosaic.PureOps.Ideal
import Idealize.ShloMosaic.Lib.ValueIdx

noncomputable section

namespace Cert.Spec

open Idealize.ShloMosaic Idealize.ShloMosaic.ValueIdx

/-- The leaky rectifier with slope 1/4 on one extended real: `y` itself where the ordered comparison `y >= 0`
    holds, and `0.25 * y` elsewhere. -/
def leakyS (y : EReal) : EReal :=
  Scalar.select (FloatOps.cmpf (F := Ideal) (φ := .f32) .oge y (Ideal.ofBits .f32 0x00000000#32)) y
    (Ideal.ofBits .f32 0x3E800000#32 * y)

/-- The dense product of an [n, d] matrix with a [d, e] matrix: entry (i, j) is the sum over k of A(i, k) * W(k, j). -/
def linS {n d e : Nat} (A : (⟨2, ![n, d]⟩ : Shape).Idx → EReal) (W : (⟨2, ![d, e]⟩ : Shape).Idx → EReal) :
    (⟨2, ![n, e]⟩ : Shape).Idx → EReal :=
  fun i => ∑ k : Fin d, A (ix2 (i 0) k) * W (ix2 k (i 1))

/-- Bias then rectifier: entry (i, j) of the result is `leakyS (A(i, j) + b(j))`. -/
def actS {n d : Nat} (A : (⟨2, ![n, d]⟩ : Shape).Idx → EReal) (b : Fin d → EReal) :
    (⟨2, ![n, d]⟩ : Shape).Idx → EReal :=
  fun i => leakyS (A i + b (i 1))

theorem linS_apply {n d e : Nat} (A : (⟨2, ![n, d]⟩ : Shape).Idx → EReal) (W : (⟨2, ![d, e]⟩ : Shape).Idx → EReal)
    (p : Fin n) (q : Fin e) : linS A W (ix2 p q) = ∑ k : Fin d, A (ix2 p k) * W (ix2 k q) := rfl

theorem actS_apply {n d : Nat} (A : (⟨2, ![n, d]⟩ : Shape).Idx → EReal) (b : Fin d → EReal)
    (p : Fin n) (q : Fin d) : actS A b (ix2 p q) = leakyS (A (ix2 p q) + b q) := rfl

end Cert.Spec

end
-- ==== Proof.KHost.lean ====
/-
  The kernel program's host stretches between its regions, read as values: what each stretch leaves in the buffers
  the next region reads, as the named stage functions of the stretch's entry contents.
-/
import proofs.«427570_j26783416058429_1_alg».proof.Proof.Gen.KernelIdeal.Frame
import proofs.«427570_j26783416058429_1_alg».proof.Proof.KStages
import Idealize.ShloMosaic.Lib.StableHlo.Run
import Idealize.ShloMosaic.Lib.ValueIdx
import Idealize.ShloMosaic.Lib.ValueLayout

set_option maxRecDepth 16384
noncomputable section

namespace Cert.KernelIdeal.KHost

open Idealize.ShloMosaic Idealize.ShloMosaic.TcCoe Idealize.ShloMosaic.ValueIdx Idealize.SL.Sem Cert.KernelIdeal Cert.KernelIdeal.Gen

variable {F : FTy → Type} [FloatOps F]
variable (m : (ℓ : Loc nD τ sig) → Buf (Elt F) ℓ) (ρ : Dev nD → PrngReg)

/-! ## Contents at a typed reference

A called function's operations move a value between its own type and its buffer's type along an equation of the two
types. Written and read back at one reference the value is unchanged, and the contents written are the value. -/

/-- Reading a typed reference's contents back at the value's type undoes writing them there. -/
private theorem ofBuf_toBuf {T : BufTy} (x : StableHlo.TRef sig T) (v : T.Contents (Elt F)) : x.ofBuf (x.toBuf v) = v := by
  obtain ⟨r, h, h2, h3⟩ := x
  subst h
  rfl

/-- Contents written at a typed reference are the value written. -/
private theorem toBuf_eq {T : BufTy} (x : StableHlo.TRef sig T) (v : T.Contents (Elt F)) (w : x.ref.ty.Contents (Elt F))
    (h : HEq v w) : x.toBuf v = w := by
  obtain ⟨r, h1, h2, h3⟩ := x
  subst h1
  exact eq_of_heq h

/-! ## The stretch between regions 0 and 1 -/

/-! Region 0 writes none of the program's arguments: at its exit each holds what was launched. -/

private theorem W1_arg1 (c : Dev nD) : W1 m ρ c (Proc.devRef .tc main_arg1) = m ((c : Thread nD τ).loc main_arg1) :=
  W1_of_ne m ρ c main_arg1 (by decide)
private theorem W1_arg2 (c : Dev nD) : W1 m ρ c (Proc.devRef .tc main_arg2) = m ((c : Thread nD τ).loc main_arg2) :=
  W1_of_ne m ρ c main_arg2 (by decide)
private theorem W1_arg3 (c : Dev nD) : W1 m ρ c (Proc.devRef .tc main_arg3) = m ((c : Thread nD τ).loc main_arg3) :=
  W1_of_ne m ρ c main_arg3 (by decide)
private theorem W1_arg5 (c : Dev nD) : W1 m ρ c (Proc.devRef .tc main_arg5) = m ((c : Thread nD τ).loc main_arg5) :=
  W1_of_ne m ρ c main_arg5 (by decide)
private theorem W1_arg6 (c : Dev nD) : W1 m ρ c (Proc.devRef .tc main_arg6) = m ((c : Thread nD τ).loc main_arg6) :=
  W1_of_ne m ρ c main_arg6 (by decide)
private theorem W1_arg7 (c : Dev nD) : W1 m ρ c (Proc.devRef .tc main_arg7) = m ((c : Thread nD τ).loc main_arg7) :=
  W1_of_ne m ρ c main_arg7 (by decide)
private theorem W1_arg8 (c : Dev nD) : W1 m ρ c (Proc.devRef .tc main_arg8) = m ((c : Thread nD τ).loc main_arg8) :=
  W1_of_ne m ρ c main_arg8 (by decide)
private theorem W1_arg9 (c : Dev nD) : W1 m ρ c (Proc.devRef .tc main_arg9) = m ((c : Thread nD τ).loc main_arg9) :=
  W1_of_ne m ρ c main_arg9 (by decide)

/-- The take over any entry contents: the masked gather of the support rows at the wrapped columns. -/
private theorem take1_v1 (V : Valuation τ sig (Elt F)) :
    StableHlo.after (hostOps1 (F := F)) V (Proc.devRef .tc main_v1)
      = KStages.take64 (V (Proc.devRef .tc main_v0)) (V (Proc.devRef .tc main_arg2)) := by
  after_results_simp
  have e2 : (StableHlo.TRef.of main_arg2 : StableHlo.TRef sig ⟨S1000000, .i32⟩).ofBuf (V (Proc.devRef .tc main_arg2)) = V (Proc.devRef .tc main_arg2) := rfl
  have e0 : (StableHlo.TRef.of main_v0 : StableHlo.TRef sig ⟨S100000x64, .f32⟩).ofBuf (V (Proc.devRef .tc main_v0)) = V (Proc.devRef .tc main_v0) := rfl
  simp only [ofBuf_toBuf, e2, e0]
  refine toBuf_eq _ _ _ (heq_of_eq ?_)
  unfold KStages.take64 KStages.inRange KStages.idx KStages.wrap
  rfl

/-- The take writes neither the edge rows nor the edge weights. -/
private theorem take1_arg1 (V : Valuation τ sig (Elt F)) :
    StableHlo.after (hostOps1 (F := F)) V (Proc.devRef .tc main_arg1) = V (Proc.devRef .tc main_arg1) := by after_results_simp
private theorem take1_arg3 (V : Valuation τ sig (Elt F)) :
    StableHlo.after (hostOps1 (F := F)) V (Proc.devRef .tc main_arg3) = V (Proc.devRef .tc main_arg3) := by after_results_simp

/-- The scaling and the scatter-add over any entry contents. -/
private theorem tail1_v7 (V : Valuation τ sig (Elt F)) :
    StableHlo.after (hostOps1_1 (F := F)) V (Proc.devRef .tc main_v7)
      = Host.scatterAdd scatter_S100000x64_S1000000x1_S1000000x64_1_0_0_1
          (broadcastInDim S100000x64 ![] bcast_S_S100000x64 (constant S_ .f32 0x00000000#32))
          (broadcastInDim S1000000x1 ![0] bcast_S1000000_S1000000x1_0 (V (Proc.devRef .tc main_arg1)))
          (mulf (broadcastInDim S1000000x64 ![0, 1] bcast_S1000000x1_S1000000x64_0_1 (broadcastInDim S1000000x1 ![0] bcast_S1000000_S1000000x1_0 (V (Proc.devRef .tc main_arg3))))
            (V (Proc.devRef .tc main_v1))) := by
  after_results

theorem W3_v7 (c : Dev nD) : W3 m ρ c (Proc.devRef .tc main_v7)
    = KStages.kagg64 (W1 m ρ c (Proc.devRef .tc main_v0)) (m ((c : Thread nD τ).loc main_arg1)) (m ((c : Thread nD τ).loc main_arg2)) (m ((c : Thread nD τ).loc main_arg3)) := by
  show StableHlo.after hostOps1_1 (StableHlo.after hostOps1 (W1 m ρ c)) (Proc.devRef .tc main_v7) = _
  rw [tail1_v7, take1_v1, take1_arg1, take1_arg3, W1_arg1 m ρ c, W1_arg2 m ρ c, W1_arg3 m ρ c]
  rfl

theorem W3_v8 (c : Dev nD) (k : Fin 64) : W3 m ρ c (Proc.devRef .tc main_v8) (ix2 0 k) = m ((c : Thread nD τ).loc main_arg5) (ix1 k) := by
  show StableHlo.after hostOps1_1 (StableHlo.after hostOps1 (W1 m ρ c)) (Proc.devRef .tc main_v8) (ix2 0 k) = _
  after_results
  show shapeCast (⟨2, ![1, 64]⟩ : Shape) (W1 m ρ c (Proc.devRef .tc main_arg5)) shapeCasts_S64_S1x64 (ix2 0 k) = _
  rw [W1_arg5 m ρ c]
  exact shapeCast_a_1a_apply (a := 64) _ _ 0 k

theorem W3_arg6 (c : Dev nD) : W3 m ρ c (Proc.devRef .tc main_arg6) = m ((c : Thread nD τ).loc main_arg6) := by
  show StableHlo.after hostOps1_1 (StableHlo.after hostOps1 (W1 m ρ c)) (Proc.devRef .tc main_arg6) = _
  after_results_simp
  exact W1_arg6 m ρ c

/-! The stretch writes none of the other arguments either: at region 1's entry each holds what was launched. -/

private theorem W3_arg1 (c : Dev nD) : W3 m ρ c (Proc.devRef .tc main_arg1) = m ((c : Thread nD τ).loc main_arg1) := by
  show StableHlo.after hostOps1_1 (StableHlo.after hostOps1 (W1 m ρ c)) (Proc.devRef .tc main_arg1) = _
  after_results_simp
  exact W1_arg1 m ρ c
private theorem W3_arg2 (c : Dev nD) : W3 m ρ c (Proc.devRef .tc main_arg2) = m ((c : Thread nD τ).loc main_arg2) := by
  show StableHlo.after hostOps1_1 (StableHlo.after hostOps1 (W1 m ρ c)) (Proc.devRef .tc main_arg2) = _
  after_results_simp
  exact W1_arg2 m ρ c
private theorem W3_arg3 (c : Dev nD) : W3 m ρ c (Proc.devRef .tc main_arg3) = m ((c : Thread nD τ).loc main_arg3) := by
  show StableHlo.after hostOps1_1 (StableHlo.after hostOps1 (W1 m ρ c)) (Proc.devRef .tc main_arg3) = _
  after_results_simp
  exact W1_arg3 m ρ c
private theorem W3_arg7 (c : Dev nD) : W3 m ρ c (Proc.devRef .tc main_arg7) = m ((c : Thread nD τ).loc main_arg7) := by
  show StableHlo.after hostOps1_1 (StableHlo.after hostOps1 (W1 m ρ c)) (Proc.devRef .tc main_arg7) = _
  after_results_simp
  exact W1_arg7 m ρ c
private theorem W3_arg8 (c : Dev nD) : W3 m ρ c (Proc.devRef .tc main_arg8) = m ((c : Thread nD τ).loc main_arg8) := by
  show StableHlo.after hostOps1_1 (StableHlo.after hostOps1 (W1 m ρ c)) (Proc.devRef .tc main_arg8) = _
  after_results_simp
  exact W1_arg8 m ρ c
private theorem W3_arg9 (c : Dev nD) : W3 m ρ c (Proc.devRef .tc main_arg9) = m ((c : Thread nD τ).loc main_arg9) := by
  show StableHlo.after hostOps1_1 (StableHlo.after hostOps1 (W1 m ρ c)) (Proc.devRef .tc main_arg9) = _
  after_results_simp
  exact W1_arg9 m ρ c

/-! ## The stretch between regions 1 and 2 -/

/-! Region 1 writes none of these arguments: at its exit each holds what was launched. -/

private theorem W4_arg1 (c : Dev nD) : W4 m ρ c (Proc.devRef .tc main_arg1) = m ((c : Thread nD τ).loc main_arg1) :=
  (W4_of_ne m ρ c main_arg1 (by decide)).trans (W3_arg1 m ρ c)
private theorem W4_arg2 (c : Dev nD) : W4 m ρ c (Proc.devRef .tc main_arg2) = m ((c : Thread nD τ).loc main_arg2) :=
  (W4_of_ne m ρ c main_arg2 (by decide)).trans (W3_arg2 m ρ c)
private theorem W4_arg3 (c : Dev nD) : W4 m ρ c (Proc.devRef .tc main_arg3) = m ((c : Thread nD τ).loc main_arg3) :=
  (W4_of_ne m ρ c main_arg3 (by decide)).trans (W3_arg3 m ρ c)
private theorem W4_arg7 (c : Dev nD) : W4 m ρ c (Proc.devRef .tc main_arg7) = m ((c : Thread nD τ).loc main_arg7) :=
  (W4_of_ne m ρ c main_arg7 (by decide)).trans (W3_arg7 m ρ c)
private theorem W4_arg8 (c : Dev nD) : W4 m ρ c (Proc.devRef .tc main_arg8) = m ((c : Thread nD τ).loc main_arg8) :=
  (W4_of_ne m ρ c main_arg8 (by decide)).trans (W3_arg8 m ρ c)
private theorem W4_arg9 (c : Dev nD) : W4 m ρ c (Proc.devRef .tc main_arg9) = m ((c : Thread nD τ).loc main_arg9) :=
  (W4_of_ne m ρ c main_arg9 (by decide)).trans (W3_arg9 m ρ c)

/-- The take over any entry contents: the masked gather of the support rows at the wrapped columns. -/
private theorem take2_v10 (V : Valuation τ sig (Elt F)) :
    StableHlo.after (hostOps2 (F := F)) V (Proc.devRef .tc main_v10)
      = KStages.take32 (V (Proc.devRef .tc main_v9)) (V (Proc.devRef .tc main_arg2)) := by
  after_results_simp
  have e2 : (StableHlo.TRef.of main_arg2 : StableHlo.TRef sig ⟨S1000000, .i32⟩).ofBuf (V (Proc.devRef .tc main_arg2)) = V (Proc.devRef .tc main_arg2) := rfl
  have e0 : (StableHlo.TRef.of main_v9 : StableHlo.TRef sig ⟨S100000x32, .f32⟩).ofBuf (V (Proc.devRef .tc main_v9)) = V (Proc.devRef .tc main_v9) := rfl
  simp only [ofBuf_toBuf, e2, e0]
  refine toBuf_eq _ _ _ (heq_of_eq ?_)
  unfold KStages.take32 KStages.inRange KStages.idx KStages.wrap
  rfl

/-- The take writes neither the edge rows nor the edge weights. -/
private theorem take2_arg1 (V : Valuation τ sig (Elt F)) :
    StableHlo.after (hostOps2 (F := F)) V (Proc.devRef .tc main_arg1) = V (Proc.devRef .tc main_arg1) := by after_results_simp
private theorem take2_arg3 (V : Valuation τ sig (Elt F)) :
    StableHlo.after (hostOps2 (F := F)) V (Proc.devRef .tc main_arg3) = V (Proc.devRef .tc main_arg3) := by after_results_simp

/-- The scaling and the scatter-add over any entry contents. -/
private theorem tail2_v16 (V : Valuation τ sig (Elt F)) :
    StableHlo.after (hostOps2_1 (F := F)) V (Proc.devRef .tc main_v16)
      = Host.scatterAdd scatter_S100000x32_S1000000x1_S1000000x32_1_0_0_1
          (broadcastInDim S100000x32 ![] bcast_S_S100000x32 (constant S_ .f32 0x00000000#32))
          (broadcastInDim S1000000x1 ![0] bcast_S1000000_S1000000x1_0 (V (Proc.devRef .tc main_arg1)))
          (mulf (broadcastInDim S1000000x32 ![0, 1] bcast_S1000000x1_S1000000x32_0_1 (broadcastInDim S1000000x1 ![0] bcast_S1000000_S1000000x1_0 (V (Proc.devRef .tc main_arg3))))
            (V (Proc.devRef .tc main_v10))) := by
  after_results

theorem W6_v16 (c : Dev nD) : W6 m ρ c (Proc.devRef .tc main_v16)
    = KStages.kagg32 (W4 m ρ c (Proc.devRef .tc main_v9)) (m ((c : Thread nD τ).loc main_arg1)) (m ((c : Thread nD τ).loc main_arg2)) (m ((c : Thread nD τ).loc main_arg3)) := by
  show StableHlo.after hostOps2_1 (StableHlo.after hostOps2 (W4 m ρ c)) (Proc.devRef .tc main_v16) = _
  rw [tail2_v16, take2_v10, take2_arg1, take2_arg3, W4_arg1 m ρ c, W4_arg2 m ρ c, W4_arg3 m ρ c]
  rfl

theorem W6_v17 (c : Dev nD) (k : Fin 32) : W6 m ρ c (Proc.devRef .tc main_v17) (ix2 0 k) = m ((c : Thread nD τ).loc main_arg7) (ix1 k) := by
  show StableHlo.after hostOps2_1 (StableHlo.after hostOps2 (W4 m ρ c)) (Proc.devRef .tc main_v17) (ix2 0 k) = _
  after_results
  show shapeCast (⟨2, ![1, 32]⟩ : Shape) (W4 m ρ c (Proc.devRef .tc main_arg7)) shapeCasts_S32_S1x32 (ix2 0 k) = _
  rw [W4_arg7 m ρ c]
  exact shapeCast_a_1a_apply (a := 32) _ _ 0 k

theorem W6_arg8 (c : Dev nD) : W6 m ρ c (Proc.devRef .tc main_arg8) = m ((c : Thread nD τ).loc main_arg8) := by
  show StableHlo.after hostOps2_1 (StableHlo.after hostOps2 (W4 m ρ c)) (Proc.devRef .tc main_arg8) = _
  after_results_simp
  exact W4_arg8 m ρ c

/-! The stretch writes none of the other arguments either: at region 2's entry each holds what was launched. -/

private theorem W6_arg1 (c : Dev nD) : W6 m ρ c (Proc.devRef .tc main_arg1) = m ((c : Thread nD τ).loc main_arg1) := by
  show StableHlo.after hostOps2_1 (StableHlo.after hostOps2 (W4 m ρ c)) (Proc.devRef .tc main_arg1) = _
  after_results_simp
  exact W4_arg1 m ρ c
private theorem W6_arg2 (c : Dev nD) : W6 m ρ c (Proc.devRef .tc main_arg2) = m ((c : Thread nD τ).loc main_arg2) := by
  show StableHlo.after hostOps2_1 (StableHlo.after hostOps2 (W4 m ρ c)) (Proc.devRef .tc main_arg2) = _
  after_results_simp
  exact W4_arg2 m ρ c
private theorem W6_arg3 (c : Dev nD) : W6 m ρ c (Proc.devRef .tc main_arg3) = m ((c : Thread nD τ).loc main_arg3) := by
  show StableHlo.after hostOps2_1 (StableHlo.after hostOps2 (W4 m ρ c)) (Proc.devRef .tc main_arg3) = _
  after_results_simp
  exact W4_arg3 m ρ c
private theorem W6_arg9 (c : Dev nD) : W6 m ρ c (Proc.devRef .tc main_arg9) = m ((c : Thread nD τ).loc main_arg9) := by
  show StableHlo.after hostOps2_1 (StableHlo.after hostOps2 (W4 m ρ c)) (Proc.devRef .tc main_arg9) = _
  after_results_simp
  exact W4_arg9 m ρ c

/-! ## The stretch between regions 2 and 3 -/

/-! Region 2 writes none of these arguments: at its exit each holds what was launched. -/

private theorem W7_arg1 (c : Dev nD) : W7 m ρ c (Proc.devRef .tc main_arg1) = m ((c : Thread nD τ).loc main_arg1) :=
  (W7_of_ne m ρ c main_arg1 (by decide)).trans (W6_arg1 m ρ c)
private theorem W7_arg2 (c : Dev nD) : W7 m ρ c (Proc.devRef .tc main_arg2) = m ((c : Thread nD τ).loc main_arg2) :=
  (W7_of_ne m ρ c main_arg2 (by decide)).trans (W6_arg2 m ρ c)
private theorem W7_arg3 (c : Dev nD) : W7 m ρ c (Proc.devRef .tc main_arg3) = m ((c : Thread nD τ).loc main_arg3) :=
  (W7_of_ne m ρ c main_arg3 (by decide)).trans (W6_arg3 m ρ c)
private theorem W7_arg9 (c : Dev nD) : W7 m ρ c (Proc.devRef .tc main_arg9) = m ((c : Thread nD τ).loc main_arg9) :=
  (W7_of_ne m ρ c main_arg9 (by decide)).trans (W6_arg9 m ρ c)

/-- The take over any entry contents: the masked gather of the support rows at the wrapped columns. -/
private theorem take3_v19 (V : Valuation τ sig (Elt F)) :
    StableHlo.after (hostOps3 (F := F)) V (Proc.devRef .tc main_v19)
      = KStages.take16 (V (Proc.devRef .tc main_v18)) (V (Proc.devRef .tc main_arg2)) := by
  after_results_simp
  have e2 : (StableHlo.TRef.of main_arg2 : StableHlo.TRef sig ⟨S1000000, .i32⟩).ofBuf (V (Proc.devRef .tc main_arg2)) = V (Proc.devRef .tc main_arg2) := rfl
  have e0 : (StableHlo.TRef.of main_v18 : StableHlo.TRef sig ⟨S100000x16, .f32⟩).ofBuf (V (Proc.devRef .tc main_v18)) = V (Proc.devRef .tc main_v18) := rfl
  simp only [ofBuf_toBuf, e2, e0]
  refine toBuf_eq _ _ _ (heq_of_eq ?_)
  unfold KStages.take16 KStages.inRange KStages.idx KStages.wrap
  rfl

/-- The take writes neither the edge rows nor the edge weights. -/
private theorem take3_arg1 (V : Valuation τ sig (Elt F)) :
    StableHlo.after (hostOps3 (F := F)) V (Proc.devRef .tc main_arg1) = V (Proc.devRef .tc main_arg1) := by after_results_simp
private theorem take3_arg3 (V : Valuation τ sig (Elt F)) :
    StableHlo.after (hostOps3 (F := F)) V (Proc.devRef .tc main_arg3) = V (Proc.devRef .tc main_arg3) := by after_results_simp

/-- The scaling and the scatter-add over any entry contents. -/
private theorem tail3_v25 (V : Valuation τ sig (Elt F)) :
    StableHlo.after (hostOps3_1 (F := F)) V (Proc.devRef .tc main_v25)
      = Host.scatterAdd scatter_S100000x16_S1000000x1_S1000000x16_1_0_0_1
          (broadcastInDim S100000x16 ![] bcast_S_S100000x16 (constant S_ .f32 0x00000000#32))
          (broadcastInDim S1000000x1 ![0] bcast_S1000000_S1000000x1_0 (V (Proc.devRef .tc main_arg1)))
          (mulf (broadcastInDim S1000000x16 ![0, 1] bcast_S1000000x1_S1000000x16_0_1 (broadcastInDim S1000000x1 ![0] bcast_S1000000_S1000000x1_0 (V (Proc.devRef .tc main_arg3))))
            (V (Proc.devRef .tc main_v19))) := by
  after_results

theorem W9_v25 (c : Dev nD) : W9 m ρ c (Proc.devRef .tc main_v25)
    = KStages.kagg16 (W7 m ρ c (Proc.devRef .tc main_v18)) (m ((c : Thread nD τ).loc main_arg1)) (m ((c : Thread nD τ).loc main_arg2)) (m ((c : Thread nD τ).loc main_arg3)) := by
  show StableHlo.after hostOps3_1 (StableHlo.after hostOps3 (W7 m ρ c)) (Proc.devRef .tc main_v25) = _
  rw [tail3_v25, take3_v19, take3_arg1, take3_arg3, W7_arg1 m ρ c, W7_arg2 m ρ c, W7_arg3 m ρ c]
  rfl

theorem W9_v26 (c : Dev nD) (k : Fin 16) : W9 m ρ c (Proc.devRef .tc main_v26) (ix2 0 k) = m ((c : Thread nD τ).loc main_arg9) (ix1 k) := by
  show StableHlo.after hostOps3_1 (StableHlo.after hostOps3 (W7 m ρ c)) (Proc.devRef .tc main_v26) (ix2 0 k) = _
  after_results
  show shapeCast (⟨2, ![1, 16]⟩ : Shape) (W7 m ρ c (Proc.devRef .tc main_arg9)) shapeCasts_S16_S1x16 (ix2 0 k) = _
  rw [W7_arg9 m ρ c]
  exact shapeCast_a_1a_apply (a := 16) _ _ 0 k

end Cert.KernelIdeal.KHost

end
-- ==== Proof.Region0.lean ====
/-
  Region 0 (the first dense product): the array the region leaves in its output window is the dense product of the
  node-feature matrix with the first weight matrix, whatever the entry contents `V`.

  The grid has 10 points. Point t holds rows 10000 t … 10000 t + 9999 of the feature matrix (all 64 columns), the whole
  64 x 64 weight matrix, and writes back the same rows of the output. What it writes is the matrix product of its block
  of rows with the weights (both operands pass through a narrowing of the number format, the identity on the extended
  reals): entry (p, q) of the block is the sum over k of block(p, k) * W(k, q). Row 10000 t + p of the product depends
  only on row 10000 t + p of the features, so each written block is that block of rows of the whole product, and the ten
  blocks of rows cover the array: row r is in block r / 10000.
-/
import proofs.«427570_j26783416058429_1_alg».proof.Proof.Gen.KernelIdeal.Frame
import proofs.«427570_j26783416058429_1_alg».proof.Proof.Spec
import Idealize.ShloMosaic.Lib.Pipeline.Value
import Idealize.ShloMosaic.Lib.ValueIdx
import Idealize.ShloMosaic.PureOps.Ideal.Laws

set_option maxRecDepth 16384
noncomputable section

namespace Cert.KernelIdeal.Region0

open Idealize.ShloMosaic Idealize.ShloMosaic.TcCoe Idealize.ShloMosaic.ValueIdx Idealize.SL.Sem Cert.KernelIdeal Cert.KernelIdeal.Gen

variable (V : (c : Dev nD) → (b : Ref sig .tc) → Buf (Elt Ideal) ((c : Thread nD τ).loc b))

/-- The body reads and writes its buffers from the origin. -/
private theorem origin : (![0, 0] : Fin 2 → Nat) = fun _ => 0 := funext fun a => by fin_cases a <;> rfl

/-! ## The product's operand indices: at output entry (i0, i1) and contraction position k the left operand is read at
    (i0, k) and the right one at (k, i1) -/

private theorem lhs_row (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide),
    dif_pos (show (0 : Fin S10000x64.rank) ∈ dot_S10000x64_S64x64_S10000x64_1_0_0_1_n_n.lhsNonContracting by decide)]
  rfl

private theorem lhs_col (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q

private theorem rhs_row (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q

private theorem rhs_col (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide),
    dif_pos (show (1 : Fin S64x64.rank) ∈ dot_S10000x64_S64x64_S10000x64_1_0_0_1_n_n.rhsNonContracting by decide)]
  rfl

/-! ## What a point leaves in its output block -/

/-- Entry (p, q) of the block a point leaves is the sum over k of x0(p, k) * x1(k, q), for the block of rows `x0` and the
    weights `x1` it holds: the narrowing of both operands is the identity on the extended reals, the product starts from
    zero, and its one contracted axis is re-indexed by its coordinate. -/
private theorem product_apply (x0 : Vec Ideal S10000x64 .f32) (x1 : Vec Ideal S64x64 .f32) (p : Fin 10000) (q : Fin 64) :
    out0_2 x0 x1 (ix2 p q) = ∑ k : Fin 64, x0 (ix2 p k) * x1 (ix2 k q) := by
  unfold out0_2
  rw [View.canon_unit_zero origin]
  simp only [View.ld_unit_zero (S := S10000x64) origin, View.ld_unit_zero (S := S64x64) origin]
  unfold k0_pay1
  simp only [matmul]
  rw [Ideal.matmul_constant_zero_apply,
    ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q)
      ((contrEquiv1 dot_S10000x64_S64x64_S10000x64_1_0_0_1_n_n 64 rfl rfl).symm k) = ix2 p k :=
    funext fun a => Fin.ext (by
      match a with
      | ⟨0, _⟩ => exact lhs_row _ _
      | ⟨1, _⟩ => exact (lhs_col _ _).trans hk)
  have er : dot_S10000x64_S64x64_S10000x64_1_0_0_1_n_n.rhsIdx (ix2 p q)
      ((contrEquiv1 dot_S10000x64_S64x64_S10000x64_1_0_0_1_n_n 64 rfl rfl).symm k) = ix2 k q :=
    funext fun a => Fin.ext (by
      match a with
      | ⟨0, _⟩ => exact (rhs_row _ _).trans hk
      | ⟨1, _⟩ => exact rhs_col _ _)
  rw [el, er]
  rfl

/-- A block of rows of the product is the product of that block of rows: if `x0` is rows 10000 r … 10000 r + 9999 of
    `A` and `x1` is `W`, then entry j of the block a point leaves is entry (10000 r + j0, j1) of the product of `A` with
    `W`. -/
private theorem rows_product (A : S100000x64.Idx → EReal) (W : S64x64.Idx → EReal)
    (x0 : Vec Ideal S10000x64 .f32) (x1 : Vec Ideal S64x64 .f32) (r : Nat)
    (h0 : ∀ (p : Fin 10000) (k : Fin 64) (i : S100000x64.Idx),
      (i 0).val = r * 10000 + p.val → (i 1).val = k.val → x0 (ix2 p k) = A i)
    (h1 : x1 = W)
    (j : S10000x64.Idx) (i : S100000x64.Idx) (hi0 : (i 0).val = r * 10000 + (j 0).val) (hi1 : (i 1).val = (j 1).val) :
    out0_2 x0 x1 j = Cert.Spec.linS A W i := by
  obtain ⟨p, q, rfl⟩ : ∃ (p : Fin 10000) (q : Fin 64), j = ix2 p q := ⟨j 0, j 1, eq_ix2 j⟩
  rw [product_apply]
  obtain ⟨a, b, rfl⟩ : ∃ (a : Fin 100000) (b : Fin 64), i = ix2 a b := ⟨i 0, i 1, eq_ix2 i⟩
  rw [Cert.Spec.linS_apply]
  subst h1
  obtain rfl : b = q := Fin.ext hi1
  exact Finset.sum_congr rfl fun k _ => congrArg (· * x1 (ix2 k b)) (h0 p k (ix2 a k) hi0 rfl)

/-! ## The blocks a point holds -/

/-- The block indices at grid point t: the feature rows and the output rows move with t, on the column axis and for the
    weights the block index is 0 (decided over the 10 points). -/
private theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The feature block at point t is rows 10000 t … 10000 t + 9999 of the feature matrix. -/
private theorem rows_block (c : Dev nD) (t : Fin cfg0.N) (p : Fin 10000) (k : Fin 64) (i : S100000x64.Idx)
    (hi0 : (i 0).val = t.val * 10000 + p.val) (hi1 : (i 1).val = k.val) :
    (iblk0 V c 0 t : Vec Ideal S10000x64 .f32) (ix2 p k) = (V c main_arg0 : S100000x64.Idx → EReal) i := by
  obtain ⟨e0, e1, -⟩ := idx_facts t
  unfold iblk0
  rw [View.read_apply]
  show V c main_arg0 _ = V c main_arg0 _
  congr 1
  funext a; apply Fin.ext
  match a with
  | ⟨0, _⟩ => show win0_0.index t (0 : Fin 2) * 10000 + 1 * p.val = (i 0).val; rw [e0, hi0]; omega
  | ⟨1, _⟩ => show win0_0.index t (1 : Fin 2) * 64 + 1 * k.val = (i 1).val; rw [e1, hi1]; omega

/-- The weight block at every point is the whole weight matrix. -/
private theorem weights_block (c : Dev nD) (t : Fin cfg0.N) :
    (iblk0 V c 1 t : Vec Ideal S64x64 .f32) = (V c main_arg4 : S64x64.Idx → EReal) := by
  obtain ⟨-, -, e2, e3, -⟩ := idx_facts t
  funext y
  unfold iblk0
  rw [View.read_apply]
  show V c main_arg4 _ = V c main_arg4 y
  congr 1
  funext a; apply Fin.ext
  match a with
  | ⟨0, _⟩ => show win0_1.index t (0 : Fin 2) * 64 + 1 * (y 0).val = (y 0).val; rw [e2]; omega
  | ⟨1, _⟩ => show win0_1.index t (1 : Fin 2) * 64 + 1 * (y 1).val = (y 1).val; rw [e3]; omega

/-! ## From blocks to the array -/

/-- What point t writes back is its block of rows of the product of the feature matrix with the weights. -/
private theorem flushed_eq (c : Dev nD) (t : Fin cfg0.N) :
    (dat0 (F := Ideal) V c).flushed 2 t
      = ((cfg0.win 2).blk t).view.read (Elt Ideal) (Cert.Spec.linS (V c main_arg0) (V c main_arg4)) := by
  show (cfg0.win 2).cut (grid0.coords t) ((dat0 V c).after 2 t) = _
  rw [after0_2]
  obtain ⟨-, -, -, -, e4, e5⟩ := idx_facts t
  funext j
  show out0_2 (iblk0 V c 0 t) (iblk0 V c 1 t) j
    = Cert.Spec.linS (V c main_arg0) (V c main_arg4) (((cfg0.win 2).blk t).view.emb j)
  exact rows_product (V c main_arg0) (V c main_arg4) (iblk0 V c 0 t) (iblk0 V c 1 t) t.val
    (fun p k i h0 h1 => rows_block V c t p k i h0 h1) (weights_block V c t) j (((cfg0.win 2).blk t).view.emb j)
    (by show win0_2.index t (0 : Fin 2) * 10000 + 1 * (j 0).val = _; rw [e4]; omega)
    (by show win0_2.index t (1 : Fin 2) * 64 + 1 * (j 1).val = _; rw [e5]; omega)

/-- An index of the output array is in point t's block iff each coordinate is in the block's range on its axis. -/
private theorem mem_rows (t : Fin cfg0.N) (i : S100000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v0).slice (win0_2.rect t)).set ↔ _
  rw [View.set_slice_whole, Rect.mem_set_unit]
  exact Iff.rfl

/-- Every index of the output array is in some point's block: row r is in the block of point r / 10000. -/
private theorem rows_cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  obtain ⟨t, ht⟩ : ∃ t : Fin cfg0.N, t.val = (i 0).val / 10000 := ⟨⟨(i 0).val / 10000, by rw [hN]; omega⟩, rfl⟩
  obtain ⟨-, -, -, -, e4, e5⟩ := idx_facts t
  refine ⟨t, flush0_2 t, ?_⟩
  rw [mem_rows]
  intro a
  match a with
  | ⟨0, _⟩ =>
    show win0_2.index t (0 : Fin 2) * 10000 ≤ (i 0).val ∧ (i 0).val < win0_2.index t (0 : Fin 2) * 10000 + 10000
    rw [e4, ht]; omega
  | ⟨1, _⟩ =>
    show win0_2.index t (1 : Fin 2) * 64 ≤ (i 1).val ∧ (i 1).val < win0_2.index t (1 : Fin 2) * 64 + 64
    rw [e5]; omega

theorem arr (c : Dev nD) :
    (dat0 (F := Ideal) V c).arrAt 2 cfg0.N = Cert.Spec.linS (V c main_arg0) (V c main_arg4) := by
  exact (dat0 (F := Ideal) V c).arrAt_eq_of_cover 2 (Cert.Spec.linS (V c main_arg0) (V c main_arg4))
    (fun t _ => flushed_eq V c t) rows_cover

end Cert.KernelIdeal.Region0

end
-- ==== Proof.Region1.lean ====
/-
  Region 1 (bias, rectifier, second dense product): the array the region leaves in its output window, whatever the
  entry contents `V`.
-/
import proofs.«427570_j26783416058429_1_alg».proof.Proof.Gen.KernelIdeal.Frame
import proofs.«427570_j26783416058429_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384
noncomputable section

namespace Cert.KernelIdeal.Region1

open Idealize.ShloMosaic Idealize.ShloMosaic.TcCoe Idealize.ShloMosaic.ValueIdx Idealize.SL.Sem Cert.KernelIdeal Cert.KernelIdeal.Gen

variable (V : (c : Dev nD) → (b : Ref sig .tc) → Buf (Elt Ideal) ((c : Thread nD τ).loc b))

/-- The zero offsets, as a constant function. -/
theorem hz : (![0, 0] : Fin 2 → Nat) = fun _ => 0 := funext fun a => by fin_cases a <;> rfl

/-- The block product at an entry: the sum over the contracted coordinate of the products of the entries. -/
theorem prod_at (A : FVec Ideal S10000x64 .bf16) (B : FVec Ideal S64x32 .bf16) (p : Fin 10000) (q : Fin 32) :
    matmul dot_S10000x64_S64x32_S10000x32_1_0_0_1_n_n none A B (constant (F := Ideal) S10000x32 .f32 0x00000000#32) (ix2 p q)
      = ∑ k : Fin 64, A (ix2 p k) * B (ix2 k q) := by
  show FloatOps.matmul _ none A B _ (ix2 p q) = _
  rw [Ideal.matmul_constant_zero_apply,
    ← Equiv.sum_comp (contrEquiv1 dot_S10000x64_S64x32_S10000x32_1_0_0_1_n_n 64 rfl rfl).symm]
  refine Finset.sum_congr rfl fun c _ => ?_
  have c2 := contrEquiv1_symm_val dot_S10000x64_S64x32_S10000x32_1_0_0_1_n_n 64 rfl rfl c
  have l2 : dot_S10000x64_S64x32_S10000x32_1_0_0_1_n_n.lhsIdx (ix2 p q) ((contrEquiv1 _ 64 rfl rfl).symm c) = ix2 p c := by
    funext ax; apply Fin.ext
    match ax with
    | ⟨0, _⟩ => simp [DotDims.lhsIdx, dot_S10000x64_S64x32_S10000x32_1_0_0_1_n_n]; rfl
    | ⟨1, _⟩ => simp [DotDims.lhsIdx, dot_S10000x64_S64x32_S10000x32_1_0_0_1_n_n]; exact c2
  have r2 : dot_S10000x64_S64x32_S10000x32_1_0_0_1_n_n.rhsIdx (ix2 p q) ((contrEquiv1 _ 64 rfl rfl).symm c) = ix2 c q := by
    funext ax; apply Fin.ext
    match ax with
    | ⟨0, _⟩ => simp [DotDims.rhsIdx, dot_S10000x64_S64x32_S10000x32_1_0_0_1_n_n]; exact c2
    | ⟨1, _⟩ => simp [DotDims.rhsIdx, dot_S10000x64_S64x32_S10000x32_1_0_0_1_n_n]; rfl
  rw [l2, r2]

/-- The bias row added to the block, at an entry. -/
theorem biased_at (x0 : Vec Ideal S10000x64 .f32) (x1 : Vec Ideal S1x64 .f32) (p : Fin 10000) (k : Fin 64) :
    (addf (shapeCast S10000x64 x0 shapeCasts_S10000x64_S10000x64)
        (broadcastTo S10000x64 (shapeCast S1x64 (shapeCast S1x64 x1 shapeCasts_S1x64_S1x64) shapeCasts_S1x64_S1x64)
          broadcasts_S1x64_S10000x64) : FVec Ideal S10000x64 .f32) (ix2 p k)
      = x0 (ix2 p k) + x1 (ix2 0 k) := by
  rw [shapeCast_self, shapeCast_self, shapeCast_self]
  show x0 (ix2 p k) + broadcastTo S10000x64 x1 broadcasts_S1x64_S10000x64 (ix2 p k) = _
  rw [broadcastTo_1b_ab_apply]

/-- What the body leaves in the output's block, entry by entry. -/
theorem out_at (x0 : Vec Ideal S10000x64 .f32) (x1 : Vec Ideal S1x64 .f32) (x2 : Vec Ideal S64x32 .f32)
    (p : Fin 10000) (q : Fin 32) :
    out1_3 x0 x1 x2 (ix2 p q) = ∑ k : Fin 64, Cert.Spec.leakyS (x0 (ix2 p k) + x1 (ix2 0 k)) * x2 (ix2 k q) := by
  unfold out1_3
  rw [View.canon_unit_zero hz]
  simp only [View.ld_unit_zero (S := S1x64) hz, View.ld_unit_zero (S := S10000x64) hz, View.ld_unit_zero (S := S64x32) hz]
  unfold k1_pay1
  refine (prod_at _ _ p q).trans ?_
  refine Finset.sum_congr rfl fun k _ => ?_
  rw [← biased_at x0 x1 p k]
  rfl

/-- The layer's result on the whole array: bias and rectifier on the aggregate, then the dense product with the weights. -/
abbrev layer (c : Dev nD) : S100000x32.Idx → EReal :=
  Cert.Spec.linS (n := 100000) (d := 64) (e := 32)
    (Cert.Spec.actS (n := 100000) (d := 64) (V c main_v7) (fun k => V c main_v8 (ix2 0 k))) (V c main_arg6)

/-- Where each window's block sits at a grid point: the aggregate's and the output's block at point t is block row t,
    the bias row and the weights are their whole arrays. -/
theorem place : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row p of block row t is row 10000 t + p of the array. -/
def rowOf (t : Fin cfg1.N) (p : Fin 10000) : Fin 100000 :=
  ⟨t.val * 10000 + p.val, by have h := t.isLt; have hN : cfg1.N = 10 := N_1; have := p.isLt; omega⟩

/-- The aggregate's block at point t, entry (p, k), is the aggregate at row 10000 t + p. -/
theorem agg_block (c : Dev nD) (t : Fin cfg1.N) (p : Fin 10000) (k : Fin 64) :
    (iblk1 V c 0 t : Vec Ideal S10000x64 .f32) (ix2 p k) = (V c main_v7 : S100000x64.Idx → EReal) (ix2 (rowOf t p) k) := by
  obtain ⟨e0, e1, -⟩ := place t
  unfold iblk1
  rw [View.read_apply]
  show V c main_v7 _ = V c main_v7 _
  refine congrArg (V c main_v7) ?_
  funext a; apply Fin.ext
  match a with
  | ⟨0, _⟩ => show win1_0.index t (0 : Fin 2) * 10000 + 1 * p.val = t.val * 10000 + p.val; rw [e0]; omega
  | ⟨1, _⟩ => show win1_0.index t (1 : Fin 2) * 64 + 1 * k.val = k.val; rw [e1]; omega

/-- The bias window's block at any point is the bias row itself. -/
theorem bias_block (c : Dev nD) (t : Fin cfg1.N) (k : Fin 64) :
    (iblk1 V c 1 t : Vec Ideal S1x64 .f32) (ix2 0 k) = (V c main_v8 : S1x64.Idx → EReal) (ix2 0 k) := by
  obtain ⟨-, -, e0, e1, -⟩ := place t
  unfold iblk1
  rw [View.read_apply]
  show V c main_v8 _ = V c main_v8 _
  refine congrArg (V c main_v8) ?_
  funext a; apply Fin.ext
  match a with
  | ⟨0, _⟩ => show win1_1.index t (0 : Fin 2) * 1 + 1 * 0 = 0; rw [e0]
  | ⟨1, _⟩ => show win1_1.index t (1 : Fin 2) * 64 + 1 * k.val = k.val; rw [e1]; omega

/-- The weights window's block at any point is the weight matrix itself. -/
theorem weights_block (c : Dev nD) (t : Fin cfg1.N) (k : Fin 64) (q : Fin 32) :
    (iblk1 V c 2 t : Vec Ideal S64x32 .f32) (ix2 k q) = (V c main_arg6 : S64x32.Idx → EReal) (ix2 k q) := by
  obtain ⟨-, -, -, -, e0, e1, -⟩ := place t
  unfold iblk1
  rw [View.read_apply]
  show V c main_arg6 _ = V c main_arg6 _
  refine congrArg (V c main_arg6) ?_
  funext a; apply Fin.ext
  match a with
  | ⟨0, _⟩ => show win1_2.index t (0 : Fin 2) * 64 + 1 * k.val = k.val; rw [e0]; omega
  | ⟨1, _⟩ => show win1_2.index t (1 : Fin 2) * 32 + 1 * q.val = q.val; rw [e1]; omega

/-- Entry (p, q) of the output's block at point t is entry (10000 t + p, q) of the output array. -/
theorem out_place (t : Fin cfg1.N) (p : Fin 10000) (q : Fin 32) :
    (((cfg1.win 3).blk t).view.emb (ix2 p q) : S100000x32.Idx) = ix2 (rowOf t p) q := by
  obtain ⟨-, -, -, -, -, -, e0, e1⟩ := place t
  funext a; apply Fin.ext
  match a with
  | ⟨0, _⟩ => show win1_3.index t (0 : Fin 2) * 10000 + 1 * p.val = t.val * 10000 + p.val; rw [e0]; omega
  | ⟨1, _⟩ => show win1_3.index t (1 : Fin 2) * 32 + 1 * q.val = q.val; rw [e1]; omega

/-- What the body leaves at point t is block row t of the layer's result. -/
theorem block_eq (c : Dev nD) (t : Fin cfg1.N) (j : S10000x32.Idx) :
    out1_3 (iblk1 V c 0 t) (iblk1 V c 1 t) (iblk1 V c 2 t) j = layer V c (((cfg1.win 3).blk t).view.emb j) := by
  obtain ⟨p, q, rfl⟩ : ∃ (p : Fin 10000) (q : Fin 32), j = ix2 p q := ⟨j 0, j 1, eq_ix2 j⟩
  refine (out_at (iblk1 V c 0 t) (iblk1 V c 1 t) (iblk1 V c 2 t) p q).trans ?_
  rw [out_place t p q]
  refine Eq.trans ?_ (Cert.Spec.linS_apply (n := 100000) (d := 64) (e := 32) _ _ (rowOf t p) q).symm
  refine Finset.sum_congr rfl fun k _ => ?_
  rw [Cert.Spec.actS_apply, agg_block V c t p k, bias_block V c t k, weights_block V c t k q]

/-- What point t writes back is block row t of the layer's result. -/
theorem point_writes (c : Dev nD) (t : Fin cfg1.N) :
    (dat1 (F := Ideal) V c).flushed 3 t = ((cfg1.win 3).blk t).view.read (Elt Ideal) (layer V c) := by
  show (cfg1.win 3).cut (grid1.coords t) ((dat1 (F := Ideal) V c).after 3 t) = _
  rw [after1_3]
  funext j
  exact block_eq V c t j

/-- An entry of the output array is in point t's block iff its row is in block row t. -/
theorem mem_block (t : Fin cfg1.N) (i : S100000x32.Idx) :
    i ∈ ((cfg1.win 3).blk t).view.set ↔ ∀ a : Fin 2, win1_3.index t a * S10000x32.size a ≤ (i a).val ∧ (i a).val < win1_3.index t a * S10000x32.size a + S10000x32.size a := by
  show i ∈ ((View.whole main_v9).slice (win1_3.rect t)).set ↔ _
  rw [View.set_slice_whole, Rect.mem_set_unit]
  exact Iff.rfl

/-- Every row is in some block row: row r is in block row r / 10000. -/
theorem covered (i : S100000x32.Idx) :
    ∃ t : Fin cfg1.N, (cfg1.win 3).flush t = true ∧ i ∈ ((cfg1.win 3).blk t).view.set := by
  have hi0 : (i 0).val < 100000 := (i 0).isLt
  have hi1 : (i 1).val < 32 := (i 1).isLt
  have hN : cfg1.N = 10 := N_1
  let t : Fin cfg1.N := ⟨(i 0).val / 10000, by omega⟩
  have ht : t.val = (i 0).val / 10000 := rfl
  obtain ⟨-, -, -, -, -, -, e0, e1⟩ := place t
  refine ⟨t, flush1_3 t, ?_⟩
  rw [mem_block]
  intro a
  match a with
  | ⟨0, _⟩ => show win1_3.index t (0 : Fin 2) * 10000 ≤ (i 0).val ∧ (i 0).val < win1_3.index t (0 : Fin 2) * 10000 + 10000; rw [e0, ht]; omega
  | ⟨1, _⟩ => show win1_3.index t (1 : Fin 2) * 32 ≤ (i 1).val ∧ (i 1).val < win1_3.index t (1 : Fin 2) * 32 + 32; rw [e1]; omega

theorem arr (c : Dev nD) :
    (dat1 (F := Ideal) V c).arrAt 3 cfg1.N = Cert.Spec.linS (Cert.Spec.actS (V c main_v7) (fun k => V c main_v8 (ix2 0 k))) (V c main_arg6) :=
  (dat1 (F := Ideal) V c).arrAt_eq_of_cover 3 (layer V c) (fun t _ => point_writes V c t) covered

end Cert.KernelIdeal.Region1

end
-- ==== Proof.Region2.lean ====
/-
  Region 2 (bias, rectifier, third dense product): the array the region leaves in its output window, whatever the
  entry contents `V`.
-/
import proofs.«427570_j26783416058429_1_alg».proof.Proof.Gen.KernelIdeal.Frame
import proofs.«427570_j26783416058429_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384
noncomputable section

namespace Cert.KernelIdeal.Region2

open Idealize.ShloMosaic Idealize.ShloMosaic.TcCoe Idealize.ShloMosaic.ValueIdx Idealize.SL.Sem Cert.KernelIdeal Cert.KernelIdeal.Gen

variable (V : (c : Dev nD) → (b : Ref sig .tc) → Buf (Elt Ideal) ((c : Thread nD τ).loc b))

/-- The zero offsets, as a constant function. -/
theorem hz : (![0, 0] : Fin 2 → Nat) = fun _ => 0 := funext fun a => by fin_cases a <;> rfl

/-- The block product at an entry: the sum over the contracted coordinate of the products of the entries. -/
theorem prod_at (A : FVec Ideal S10000x32 .bf16) (B : FVec Ideal S32x16 .bf16) (p : Fin 10000) (q : Fin 16) :
    matmul dot_S10000x32_S32x16_S10000x16_1_0_0_1_n_n none A B (constant (F := Ideal) S10000x16 .f32 0x00000000#32) (ix2 p q)
      = ∑ k : Fin 32, A (ix2 p k) * B (ix2 k q) := by
  show FloatOps.matmul _ none A B _ (ix2 p q) = _
  rw [Ideal.matmul_constant_zero_apply,
    ← Equiv.sum_comp (contrEquiv1 dot_S10000x32_S32x16_S10000x16_1_0_0_1_n_n 32 rfl rfl).symm]
  refine Finset.sum_congr rfl fun c _ => ?_
  have c2 := contrEquiv1_symm_val dot_S10000x32_S32x16_S10000x16_1_0_0_1_n_n 32 rfl rfl c
  have l2 : dot_S10000x32_S32x16_S10000x16_1_0_0_1_n_n.lhsIdx (ix2 p q) ((contrEquiv1 _ 32 rfl rfl).symm c) = ix2 p c := by
    funext ax; apply Fin.ext
    match ax with
    | ⟨0, _⟩ => simp [DotDims.lhsIdx, dot_S10000x32_S32x16_S10000x16_1_0_0_1_n_n]; rfl
    | ⟨1, _⟩ => simp [DotDims.lhsIdx, dot_S10000x32_S32x16_S10000x16_1_0_0_1_n_n]; exact c2
  have r2 : dot_S10000x32_S32x16_S10000x16_1_0_0_1_n_n.rhsIdx (ix2 p q) ((contrEquiv1 _ 32 rfl rfl).symm c) = ix2 c q := by
    funext ax; apply Fin.ext
    match ax with
    | ⟨0, _⟩ => simp [DotDims.rhsIdx, dot_S10000x32_S32x16_S10000x16_1_0_0_1_n_n]; exact c2
    | ⟨1, _⟩ => simp [DotDims.rhsIdx, dot_S10000x32_S32x16_S10000x16_1_0_0_1_n_n]; rfl
  rw [l2, r2]

/-- The bias row added to the block, at an entry. -/
theorem biased_at (x0 : Vec Ideal S10000x32 .f32) (x1 : Vec Ideal S1x32 .f32) (p : Fin 10000) (k : Fin 32) :
    (addf (shapeCast S10000x32 x0 shapeCasts_S10000x32_S10000x32)
        (broadcastTo S10000x32 (shapeCast S1x32 (shapeCast S1x32 x1 shapeCasts_S1x32_S1x32) shapeCasts_S1x32_S1x32)
          broadcasts_S1x32_S10000x32) : FVec Ideal S10000x32 .f32) (ix2 p k)
      = x0 (ix2 p k) + x1 (ix2 0 k) := by
  rw [shapeCast_self, shapeCast_self, shapeCast_self]
  show x0 (ix2 p k) + broadcastTo S10000x32 x1 broadcasts_S1x32_S10000x32 (ix2 p k) = _
  rw [broadcastTo_1b_ab_apply]

/-- What the body leaves in the output's block, entry by entry. -/
theorem out_at (x0 : Vec Ideal S10000x32 .f32) (x1 : Vec Ideal S1x32 .f32) (x2 : Vec Ideal S32x16 .f32)
    (p : Fin 10000) (q : Fin 16) :
    out2_3 x0 x1 x2 (ix2 p q) = ∑ k : Fin 32, Cert.Spec.leakyS (x0 (ix2 p k) + x1 (ix2 0 k)) * x2 (ix2 k q) := by
  unfold out2_3
  rw [View.canon_unit_zero hz]
  simp only [View.ld_unit_zero (S := S1x32) hz, View.ld_unit_zero (S := S10000x32) hz, View.ld_unit_zero (S := S32x16) hz]
  unfold k2_pay1
  refine (prod_at _ _ p q).trans ?_
  refine Finset.sum_congr rfl fun k _ => ?_
  rw [← biased_at x0 x1 p k]
  rfl

/-- The layer's result on the whole array: bias and rectifier on the aggregate, then the dense product with the weights. -/
abbrev layer (c : Dev nD) : S100000x16.Idx → EReal :=
  Cert.Spec.linS (n := 100000) (d := 32) (e := 16)
    (Cert.Spec.actS (n := 100000) (d := 32) (V c main_v16) (fun k => V c main_v17 (ix2 0 k))) (V c main_arg8)

/-- Where each window's block sits at a grid point: the aggregate's and the output's block at point t is block row t,
    the bias row and the weights are their whole arrays. -/
theorem place : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Row p of block row t is row 10000 t + p of the array. -/
def rowOf (t : Fin cfg2.N) (p : Fin 10000) : Fin 100000 :=
  ⟨t.val * 10000 + p.val, by have h := t.isLt; have hN : cfg2.N = 10 := N_2; have := p.isLt; omega⟩

/-- The aggregate's block at point t, entry (p, k), is the aggregate at row 10000 t + p. -/
theorem agg_block (c : Dev nD) (t : Fin cfg2.N) (p : Fin 10000) (k : Fin 32) :
    (iblk2 V c 0 t : Vec Ideal S10000x32 .f32) (ix2 p k) = (V c main_v16 : S100000x32.Idx → EReal) (ix2 (rowOf t p) k) := by
  obtain ⟨e0, e1, -⟩ := place t
  unfold iblk2
  rw [View.read_apply]
  show V c main_v16 _ = V c main_v16 _
  refine congrArg (V c main_v16) ?_
  funext a; apply Fin.ext
  match a with
  | ⟨0, _⟩ => show win2_0.index t (0 : Fin 2) * 10000 + 1 * p.val = t.val * 10000 + p.val; rw [e0]; omega
  | ⟨1, _⟩ => show win2_0.index t (1 : Fin 2) * 32 + 1 * k.val = k.val; rw [e1]; omega

/-- The bias window's block at any point is the bias row itself. -/
theorem bias_block (c : Dev nD) (t : Fin cfg2.N) (k : Fin 32) :
    (iblk2 V c 1 t : Vec Ideal S1x32 .f32) (ix2 0 k) = (V c main_v17 : S1x32.Idx → EReal) (ix2 0 k) := by
  obtain ⟨-, -, e0, e1, -⟩ := place t
  unfold iblk2
  rw [View.read_apply]
  show V c main_v17 _ = V c main_v17 _
  refine congrArg (V c main_v17) ?_
  funext a; apply Fin.ext
  match a with
  | ⟨0, _⟩ => show win2_1.index t (0 : Fin 2) * 1 + 1 * 0 = 0; rw [e0]
  | ⟨1, _⟩ => show win2_1.index t (1 : Fin 2) * 32 + 1 * k.val = k.val; rw [e1]; omega

/-- The weights window's block at any point is the weight matrix itself. -/
theorem weights_block (c : Dev nD) (t : Fin cfg2.N) (k : Fin 32) (q : Fin 16) :
    (iblk2 V c 2 t : Vec Ideal S32x16 .f32) (ix2 k q) = (V c main_arg8 : S32x16.Idx → EReal) (ix2 k q) := by
  obtain ⟨-, -, -, -, e0, e1, -⟩ := place t
  unfold iblk2
  rw [View.read_apply]
  show V c main_arg8 _ = V c main_arg8 _
  refine congrArg (V c main_arg8) ?_
  funext a; apply Fin.ext
  match a with
  | ⟨0, _⟩ => show win2_2.index t (0 : Fin 2) * 32 + 1 * k.val = k.val; rw [e0]; omega
  | ⟨1, _⟩ => show win2_2.index t (1 : Fin 2) * 16 + 1 * q.val = q.val; rw [e1]; omega

/-- Entry (p, q) of the output's block at point t is entry (10000 t + p, q) of the output array. -/
theorem out_place (t : Fin cfg2.N) (p : Fin 10000) (q : Fin 16) :
    (((cfg2.win 3).blk t).view.emb (ix2 p q) : S100000x16.Idx) = ix2 (rowOf t p) q := by
  obtain ⟨-, -, -, -, -, -, e0, e1⟩ := place t
  funext a; apply Fin.ext
  match a with
  | ⟨0, _⟩ => show win2_3.index t (0 : Fin 2) * 10000 + 1 * p.val = t.val * 10000 + p.val; rw [e0]; omega
  | ⟨1, _⟩ => show win2_3.index t (1 : Fin 2) * 16 + 1 * q.val = q.val; rw [e1]; omega

/-- What the body leaves at point t is block row t of the layer's result. -/
theorem block_eq (c : Dev nD) (t : Fin cfg2.N) (j : S10000x16.Idx) :
    out2_3 (iblk2 V c 0 t) (iblk2 V c 1 t) (iblk2 V c 2 t) j = layer V c (((cfg2.win 3).blk t).view.emb j) := by
  obtain ⟨p, q, rfl⟩ : ∃ (p : Fin 10000) (q : Fin 16), j = ix2 p q := ⟨j 0, j 1, eq_ix2 j⟩
  refine (out_at (iblk2 V c 0 t) (iblk2 V c 1 t) (iblk2 V c 2 t) p q).trans ?_
  rw [out_place t p q]
  refine Eq.trans ?_ (Cert.Spec.linS_apply (n := 100000) (d := 32) (e := 16) _ _ (rowOf t p) q).symm
  refine Finset.sum_congr rfl fun k _ => ?_
  rw [Cert.Spec.actS_apply, agg_block V c t p k, bias_block V c t k, weights_block V c t k q]

/-- What point t writes back is block row t of the layer's result. -/
theorem point_writes (c : Dev nD) (t : Fin cfg2.N) :
    (dat2 (F := Ideal) V c).flushed 3 t = ((cfg2.win 3).blk t).view.read (Elt Ideal) (layer V c) := by
  show (cfg2.win 3).cut (grid2.coords t) ((dat2 (F := Ideal) V c).after 3 t) = _
  rw [after2_3]
  funext j
  exact block_eq V c t j

/-- An entry of the output array is in point t's block iff its row is in block row t. -/
theorem mem_block (t : Fin cfg2.N) (i : S100000x16.Idx) :
    i ∈ ((cfg2.win 3).blk t).view.set ↔ ∀ a : Fin 2, win2_3.index t a * S10000x16.size a ≤ (i a).val ∧ (i a).val < win2_3.index t a * S10000x16.size a + S10000x16.size a := by
  show i ∈ ((View.whole main_v18).slice (win2_3.rect t)).set ↔ _
  rw [View.set_slice_whole, Rect.mem_set_unit]
  exact Iff.rfl

/-- Every row is in some block row: row r is in block row r / 10000. -/
theorem covered (i : S100000x16.Idx) :
    ∃ t : Fin cfg2.N, (cfg2.win 3).flush t = true ∧ i ∈ ((cfg2.win 3).blk t).view.set := by
  have hi0 : (i 0).val < 100000 := (i 0).isLt
  have hi1 : (i 1).val < 16 := (i 1).isLt
  have hN : cfg2.N = 10 := N_2
  let t : Fin cfg2.N := ⟨(i 0).val / 10000, by omega⟩
  have ht : t.val = (i 0).val / 10000 := rfl
  obtain ⟨-, -, -, -, -, -, e0, e1⟩ := place t
  refine ⟨t, flush2_3 t, ?_⟩
  rw [mem_block]
  intro a
  match a with
  | ⟨0, _⟩ => show win2_3.index t (0 : Fin 2) * 10000 ≤ (i 0).val ∧ (i 0).val < win2_3.index t (0 : Fin 2) * 10000 + 10000; rw [e0, ht]; omega
  | ⟨1, _⟩ => show win2_3.index t (1 : Fin 2) * 16 ≤ (i 1).val ∧ (i 1).val < win2_3.index t (1 : Fin 2) * 16 + 16; rw [e1]; omega

theorem arr (c : Dev nD) :
    (dat2 (F := Ideal) V c).arrAt 3 cfg2.N = Cert.Spec.linS (Cert.Spec.actS (V c main_v16) (fun k => V c main_v17 (ix2 0 k))) (V c main_arg8) :=
  (dat2 (F := Ideal) V c).arrAt_eq_of_cover 3 (layer V c) (fun t _ => point_writes V c t) covered

end Cert.KernelIdeal.Region2

end
-- ==== Proof.Region3.lean ====
/-
  Region 3 (the last bias and rectifier): the array the region leaves in its output window, whatever the entry
  contents `V`.

  The region walks the [100000, 16] aggregate in ten blocks of 10000 rows. At each block it adds the [1, 16] bias row to
  every row of the block and applies the leaky rectifier with slope 1/4 entry by entry, and writes the block back to the
  same rows of the output. So entry (r, q) of the output is the rectifier of aggregate(r, q) + bias(0, q): first for one
  block at explicit coordinates, then for the block each grid point writes back, then for the whole array because the
  ten row blocks cover it.
-/
import proofs.«427570_j26783416058429_1_alg».proof.Proof.Gen.KernelIdeal.Frame
import proofs.«427570_j26783416058429_1_alg».proof.Proof.Spec
import Idealize.ShloMosaic.Lib.Pipeline.Value
import Idealize.ShloMosaic.Lib.ValueIdx
import Idealize.ShloMosaic.PureOps.Ideal.Laws

set_option maxRecDepth 16384
noncomputable section

namespace Cert.KernelIdeal.Region3

open Idealize.ShloMosaic Idealize.ShloMosaic.TcCoe Idealize.ShloMosaic.ValueIdx Idealize.SL.Sem Cert.KernelIdeal Cert.KernelIdeal.Gen

variable (V : (c : Dev nD) → (b : Ref sig .tc) → Buf (Elt Ideal) ((c : Thread nD τ).loc b))

/-! ## One block at explicit coordinates -/

/-- The body's loads and its store start at offsets (0, 0): the zero offsets, as a constant function. -/
private theorem zero_offsets : (![0, 0] : Fin 2 → Nat) = fun _ => 0 := funext fun a => by fin_cases a <;> rfl

/-- A row repeated down the rows: entry (p, q) of the [1, 16] row broadcast to [10000, 16] is entry (0, q) of the row
    (the row's first axis has extent 1, so it reads 0 there; its second axis follows the column). -/
private theorem row_broadcast (y : S1x16.Idx → EReal) (p : Fin 10000) (q : Fin 16) :
    broadcastTo S10000x16 y broadcasts_S1x16_S10000x16 (ix2 p q) = y (ix2 0 q) :=
  broadcastTo_apply y _ (ix2 p q) (ix2 0 q) fun a => by
    match a with
    | ⟨0, _⟩ => rfl
    | ⟨1, _⟩ => rfl

/-- WHAT THE BODY LEAVES in the output's block, entry by entry: with `x0` the aggregate's block and `x1` the bias row,
    entry (p, q) is the leaky rectifier of x0(p, q) + x1(0, q). The one store covers the block, so the block is its
    payload; the shape casts are to the operands' own shapes; every other operation is entrywise. -/
private theorem out_apply (x0 : Vec Ideal S10000x16 .f32) (x1 : Vec Ideal S1x16 .f32) (p : Fin 10000) (q : Fin 16) :
    out3_2 x0 x1 (ix2 p q) = Cert.Spec.leakyS (x0 (ix2 p q) + x1 (ix2 0 q)) := by
  unfold out3_2
  rw [View.canon_unit_zero zero_offsets]
  simp only [View.ld_unit_zero (S := S10000x16) zero_offsets, View.ld_unit_zero (S := S1x16) zero_offsets]
  unfold k3_pay1
  simp only [select_apply, cmpf_apply, addf_apply, mulf_apply, broadcast_apply, shapeCast_self, row_broadcast]
  rfl

/-! ## The blocks of the windows at a grid point -/

/-- The printed index maps over the ten grid points: point t's aggregate block and output block are row block t,
    column block 0; the bias row's block is always block (0, 0). -/
private theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The aggregate's block at point t is rows 10000 t … 10000 t + 9999 of the aggregate: entry (p, q) of the block is
    entry (10000 t + p, q) of the array (a block's coordinate is block index × block extent + coordinate inside). -/
private theorem agg_block (c : Dev nD) (t : Fin cfg3.N) (p : Fin 10000) (q : Fin 16) (r : Fin 100000)
    (hr : r.val = t.val * 10000 + p.val) :
    (iblk3 V c 0 t : Vec Ideal S10000x16 .f32) (ix2 p q) = (V c main_v25 : S100000x16.Idx → EReal) (ix2 r q) := by
  obtain ⟨e0, e1, -, -, -, -⟩ := idx_facts t
  unfold iblk3
  rw [View.read_apply]
  show V c main_v25 _ = V c main_v25 _
  congr 1
  funext a
  apply Fin.ext
  match a with
  | ⟨0, _⟩ => show win3_0.index t 0 * 10000 + 1 * p.val = r.val; rw [e0, hr]; omega
  | ⟨1, _⟩ => show win3_0.index t 1 * 16 + 1 * q.val = q.val; rw [e1]; omega

/-- The bias row's block at every point is the whole row: entry (0, q) of the block is entry (0, q) of the row. -/
private theorem bias_block (c : Dev nD) (t : Fin cfg3.N) (q : Fin 16) :
    (iblk3 V c 1 t : Vec Ideal S1x16 .f32) (ix2 0 q) = (V c main_v26 : S1x16.Idx → EReal) (ix2 0 q) := by
  obtain ⟨-, -, e2, e3, -, -⟩ := idx_facts t
  unfold iblk3
  rw [View.read_apply]
  show V c main_v26 _ = V c main_v26 _
  congr 1
  funext a
  apply Fin.ext
  match a with
  | ⟨0, _⟩ => show win3_1.index t 0 * 1 + 1 * 0 = 0; rw [e2]
  | ⟨1, _⟩ => show win3_1.index t 1 * 16 + 1 * q.val = q.val; rw [e3]; omega

/-! ## From the blocks to the array -/

/-- WHAT POINT t WRITES BACK is block t of the bias-then-rectifier of the entry contents: entry (p, q) of the block the
    body leaves is the rectifier of aggregate(10000 t + p, q) + bias(0, q), and (10000 t + p, q) is where entry (p, q) of
    the output's block t sits in the output array. -/
private theorem flushed_eq (c : Dev nD) (t : Fin cfg3.N) :
    (dat3 (F := Ideal) V c).flushed 2 t
      = ((cfg3.win 2).blk t).view.read (Elt Ideal) (Cert.Spec.actS (V c main_v25) (fun k => V c main_v26 (ix2 0 k))) := by
  show (cfg3.win 2).cut (grid3.coords t) ((dat3 (F := Ideal) V c).after 2 t) = _
  rw [after3_2]
  funext j
  obtain ⟨p, q, rfl⟩ : ∃ (p : Fin 10000) (q : Fin 16), j = ix2 p q := ⟨j 0, j 1, eq_ix2 j⟩
  have hr : t.val * 10000 + p.val < 100000 := by
    have ht : t.val < 10 := lt_of_lt_of_eq t.isLt N_3
    omega
  have hemb : ((cfg3.win 2).blk t).view.emb (ix2 p q) = (ix2 (⟨t.val * 10000 + p.val, hr⟩ : Fin 100000) q : S100000x16.Idx) := by
    obtain ⟨-, -, -, -, e4, e5⟩ := idx_facts t
    funext a
    apply Fin.ext
    match a with
    | ⟨0, _⟩ => show win3_2.index t 0 * 10000 + 1 * p.val = t.val * 10000 + p.val; rw [e4]; omega
    | ⟨1, _⟩ => show win3_2.index t 1 * 16 + 1 * q.val = q.val; rw [e5]; omega
  rw [View.read_apply]
  show out3_2 (iblk3 V c 0 t) (iblk3 V c 1 t) (ix2 p q)
    = Cert.Spec.actS (V c main_v25) (fun k => V c main_v26 (ix2 0 k)) (((cfg3.win 2).blk t).view.emb (ix2 p q))
  rw [hemb, Cert.Spec.actS_apply, out_apply, agg_block V c t p q ⟨_, hr⟩ rfl, bias_block V c t q]

/-- An index of the output array is in point t's block iff each coordinate is in the block's range on its axis. -/
private theorem mem_blk (t : Fin cfg3.N) (i : S100000x16.Idx) :
    i ∈ ((cfg3.win 2).blk t).view.set ↔ ∀ a : Fin 2, win3_2.index t a * S10000x16.size a ≤ (i a).val ∧ (i a).val < win3_2.index t a * S10000x16.size a + S10000x16.size a := by
  show i ∈ ((View.whole main_v27).slice (win3_2.rect t)).set ↔ _
  rw [View.set_slice_whole, Rect.mem_set_unit]
  exact Iff.rfl

/-- THE ROW BLOCKS COVER THE ARRAY: row r is in the block of point r / 10000, and every point writes its block back. -/
private theorem cover (i : S100000x16.Idx) :
    ∃ t : Fin cfg3.N, (cfg3.win 2).flush t = true ∧ i ∈ ((cfg3.win 2).blk t).view.set := by
  have hi0 : (i 0).val < 100000 := (i 0).isLt
  have hi1 : (i 1).val < 16 := (i 1).isLt
  let t : Fin cfg3.N := ⟨(i 0).val / 10000, by rw [show cfg3.N = 10 from N_3]; omega⟩
  obtain ⟨-, -, -, -, e4, e5⟩ := idx_facts t
  have e4' : win3_2.index t (0 : Fin 2) = (i 0).val / 10000 := e4
  refine ⟨t, flush3_2 t, ?_⟩
  rw [mem_blk]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 16 ≤ (i 1).val ∧ (i 1).val < win3_2.index t (1 : Fin 2) * 16 + 16; omega

/-- THE ARRAY the region leaves in its output window: every point writes back its block of the bias-then-rectifier of the
    entry contents, and the blocks cover the array. -/
theorem arr (c : Dev nD) :
    (dat3 (F := Ideal) V c).arrAt 2 cfg3.N = Cert.Spec.actS (V c main_v25) (fun k => V c main_v26 (ix2 0 k)) := by
  exact (dat3 (F := Ideal) V c).arrAt_eq_of_cover 2 _ (fun t _ => flushed_eq V c t) cover

end Cert.KernelIdeal.Region3

end
-- ==== Proof.RefIdx.lean ====
/-
  The reference's dense products and its bias-then-rectifier stages, read index by index on the extended reals:
  each dense product is the plain sum over the contracted axis (`Spec.linS`), and the rectifier after the bias is
  `Spec.actS`.
-/
import proofs.«427570_j26783416058429_1_alg».proof.Proof.RefStages
import proofs.«427570_j26783416058429_1_alg».proof.Proof.Spec
import proofs.«427570_j26783416058429_1_alg».proof.Proof.Gen.ReferenceIdeal
import Idealize.ShloMosaic.PureOps.Ideal.Laws
import Idealize.ShloMosaic.Lib.ValueIdx
import Idealize.ShloMosaic.Lib.Pipeline.Value
import Idealize.ShloMosaic.Lib.ValueLayout

noncomputable section

namespace Cert.ReferenceIdeal.RefIdx

open Idealize.ShloMosaic Idealize.ShloMosaic.ValueIdx Cert.ReferenceIdeal

/-! ## The dense product of layer 1: its operand indices, axis by axis -/

/-- The left operand's row coordinate is the result's row. -/
private theorem lhs1_0 (j : S100000x64.Idx) (k : dot_S100000x64_S64x64_S100000x64_1_0_0_1_n_n.contr.Idx) :
    (dot_S100000x64_S64x64_S100000x64_1_0_0_1_n_n.lhsIdx j k 0).val = (j 0).val := by
  unfold DotDims.lhsIdx
  rw [dif_neg (show ¬ (0 : Fin S100000x64.rank) ∈ dot_S100000x64_S64x64_S100000x64_1_0_0_1_n_n.lhsBatch by decide),
    dif_pos (show (0 : Fin S100000x64.rank) ∈ dot_S100000x64_S64x64_S100000x64_1_0_0_1_n_n.lhsNonContracting by decide)]
  rfl

/-- The left operand's column coordinate is the contracted position. -/
private theorem lhs1_1 (j : S100000x64.Idx) (k : dot_S100000x64_S64x64_S100000x64_1_0_0_1_n_n.contr.Idx) :
    (dot_S100000x64_S64x64_S100000x64_1_0_0_1_n_n.lhsIdx j k 1).val = (k ⟨0, by decide⟩).val :=
  dot_S100000x64_S64x64_S100000x64_1_0_0_1_n_n.lhsIdx_val_of_single (cl := 1) rfl j k

/-- The right operand's row coordinate is the contracted position. -/
private theorem rhs1_0 (j : S100000x64.Idx) (k : dot_S100000x64_S64x64_S100000x64_1_0_0_1_n_n.contr.Idx) :
    (dot_S100000x64_S64x64_S100000x64_1_0_0_1_n_n.rhsIdx j k 0).val = (k ⟨0, by decide⟩).val :=
  dot_S100000x64_S64x64_S100000x64_1_0_0_1_n_n.rhsIdx_val_of_single (cr := 0) rfl j k

/-- The right operand's column coordinate is the result's column. -/
private theorem rhs1_1 (j : S100000x64.Idx) (k : dot_S100000x64_S64x64_S100000x64_1_0_0_1_n_n.contr.Idx) :
    (dot_S100000x64_S64x64_S100000x64_1_0_0_1_n_n.rhsIdx j k 1).val = (j 1).val := by
  unfold DotDims.rhsIdx
  rw [dif_neg (show ¬ (1 : Fin S64x64.rank) ∈ dot_S100000x64_S64x64_S100000x64_1_0_0_1_n_n.rhsBatch by decide),
    dif_pos (show (1 : Fin S64x64.rank) ∈ dot_S100000x64_S64x64_S100000x64_1_0_0_1_n_n.rhsNonContracting by decide)]
  rfl

/-- Entry (p, q) of the product is the sum over the contracted coordinate of the products of the entries. -/
private theorem lin1_apply (x : FVec Ideal S100000x64 .f32) (w : FVec Ideal S64x64 .f32) (p : Fin 100000) (q : Fin 64) :
    Stages.lin1 x w (ix2 p q) = ∑ c : Fin 64, x (ix2 p c) * w (ix2 c q) := by
  show FloatOps.dotGeneral dot_S100000x64_S64x64_S100000x64_1_0_0_1_n_n none .single x w (ix2 p q) = _
  rw [Ideal.dotGeneral_apply, ← Equiv.sum_comp (contrEquiv1 dot_S100000x64_S64x64_S100000x64_1_0_0_1_n_n 64 rfl rfl).symm]
  refine Finset.sum_congr rfl fun c _ => ?_
  have hk := contrEquiv1_symm_val dot_S100000x64_S64x64_S100000x64_1_0_0_1_n_n 64 rfl rfl c
  have hl : dot_S100000x64_S64x64_S100000x64_1_0_0_1_n_n.lhsIdx (ix2 p q) ((contrEquiv1 dot_S100000x64_S64x64_S100000x64_1_0_0_1_n_n 64 rfl rfl).symm c) = ix2 p c := by
    funext ax; apply Fin.ext
    match ax with
    | ⟨0, _⟩ => exact lhs1_0 _ _
    | ⟨1, _⟩ => exact (lhs1_1 _ _).trans hk
  have hr : dot_S100000x64_S64x64_S100000x64_1_0_0_1_n_n.rhsIdx (ix2 p q) ((contrEquiv1 dot_S100000x64_S64x64_S100000x64_1_0_0_1_n_n 64 rfl rfl).symm c) = ix2 c q := by
    funext ax; apply Fin.ext
    match ax with
    | ⟨0, _⟩ => exact (rhs1_0 _ _).trans hk
    | ⟨1, _⟩ => exact rhs1_1 _ _
  rw [hl, hr]

/-! ## The dense product of layer 2: its operand indices, axis by axis -/

/-- The left operand's row coordinate is the result's row. -/
private theorem lhs2_0 (j : S100000x32.Idx) (k : dot_S100000x64_S64x32_S100000x32_1_0_0_1_n_n.contr.Idx) :
    (dot_S100000x64_S64x32_S100000x32_1_0_0_1_n_n.lhsIdx j k 0).val = (j 0).val := by
  unfold DotDims.lhsIdx
  rw [dif_neg (show ¬ (0 : Fin S100000x64.rank) ∈ dot_S100000x64_S64x32_S100000x32_1_0_0_1_n_n.lhsBatch by decide),
    dif_pos (show (0 : Fin S100000x64.rank) ∈ dot_S100000x64_S64x32_S100000x32_1_0_0_1_n_n.lhsNonContracting by decide)]
  rfl

/-- The left operand's column coordinate is the contracted position. -/
private theorem lhs2_1 (j : S100000x32.Idx) (k : dot_S100000x64_S64x32_S100000x32_1_0_0_1_n_n.contr.Idx) :
    (dot_S100000x64_S64x32_S100000x32_1_0_0_1_n_n.lhsIdx j k 1).val = (k ⟨0, by decide⟩).val :=
  dot_S100000x64_S64x32_S100000x32_1_0_0_1_n_n.lhsIdx_val_of_single (cl := 1) rfl j k

/-- The right operand's row coordinate is the contracted position. -/
private theorem rhs2_0 (j : S100000x32.Idx) (k : dot_S100000x64_S64x32_S100000x32_1_0_0_1_n_n.contr.Idx) :
    (dot_S100000x64_S64x32_S100000x32_1_0_0_1_n_n.rhsIdx j k 0).val = (k ⟨0, by decide⟩).val :=
  dot_S100000x64_S64x32_S100000x32_1_0_0_1_n_n.rhsIdx_val_of_single (cr := 0) rfl j k

/-- The right operand's column coordinate is the result's column. -/
private theorem rhs2_1 (j : S100000x32.Idx) (k : dot_S100000x64_S64x32_S100000x32_1_0_0_1_n_n.contr.Idx) :
    (dot_S100000x64_S64x32_S100000x32_1_0_0_1_n_n.rhsIdx j k 1).val = (j 1).val := by
  unfold DotDims.rhsIdx
  rw [dif_neg (show ¬ (1 : Fin S64x32.rank) ∈ dot_S100000x64_S64x32_S100000x32_1_0_0_1_n_n.rhsBatch by decide),
    dif_pos (show (1 : Fin S64x32.rank) ∈ dot_S100000x64_S64x32_S100000x32_1_0_0_1_n_n.rhsNonContracting by decide)]
  rfl

/-- Entry (p, q) of the product is the sum over the contracted coordinate of the products of the entries. -/
private theorem lin2_apply (x : FVec Ideal S100000x64 .f32) (w : FVec Ideal S64x32 .f32) (p : Fin 100000) (q : Fin 32) :
    Stages.lin2 x w (ix2 p q) = ∑ c : Fin 64, x (ix2 p c) * w (ix2 c q) := by
  show FloatOps.dotGeneral dot_S100000x64_S64x32_S100000x32_1_0_0_1_n_n none .single x w (ix2 p q) = _
  rw [Ideal.dotGeneral_apply, ← Equiv.sum_comp (contrEquiv1 dot_S100000x64_S64x32_S100000x32_1_0_0_1_n_n 64 rfl rfl).symm]
  refine Finset.sum_congr rfl fun c _ => ?_
  have hk := contrEquiv1_symm_val dot_S100000x64_S64x32_S100000x32_1_0_0_1_n_n 64 rfl rfl c
  have hl : dot_S100000x64_S64x32_S100000x32_1_0_0_1_n_n.lhsIdx (ix2 p q) ((contrEquiv1 dot_S100000x64_S64x32_S100000x32_1_0_0_1_n_n 64 rfl rfl).symm c) = ix2 p c := by
    funext ax; apply Fin.ext
    match ax with
    | ⟨0, _⟩ => exact lhs2_0 _ _
    | ⟨1, _⟩ => exact (lhs2_1 _ _).trans hk
  have hr : dot_S100000x64_S64x32_S100000x32_1_0_0_1_n_n.rhsIdx (ix2 p q) ((contrEquiv1 dot_S100000x64_S64x32_S100000x32_1_0_0_1_n_n 64 rfl rfl).symm c) = ix2 c q := by
    funext ax; apply Fin.ext
    match ax with
    | ⟨0, _⟩ => exact (rhs2_0 _ _).trans hk
    | ⟨1, _⟩ => exact rhs2_1 _ _
  rw [hl, hr]

/-! ## The dense product of layer 3: its operand indices, axis by axis -/

/-- The left operand's row coordinate is the result's row. -/
private theorem lhs3_0 (j : S100000x16.Idx) (k : dot_S100000x32_S32x16_S100000x16_1_0_0_1_n_n.contr.Idx) :
    (dot_S100000x32_S32x16_S100000x16_1_0_0_1_n_n.lhsIdx j k 0).val = (j 0).val := by
  unfold DotDims.lhsIdx
  rw [dif_neg (show ¬ (0 : Fin S100000x32.rank) ∈ dot_S100000x32_S32x16_S100000x16_1_0_0_1_n_n.lhsBatch by decide),
    dif_pos (show (0 : Fin S100000x32.rank) ∈ dot_S100000x32_S32x16_S100000x16_1_0_0_1_n_n.lhsNonContracting by decide)]
  rfl

/-- The left operand's column coordinate is the contracted position. -/
private theorem lhs3_1 (j : S100000x16.Idx) (k : dot_S100000x32_S32x16_S100000x16_1_0_0_1_n_n.contr.Idx) :
    (dot_S100000x32_S32x16_S100000x16_1_0_0_1_n_n.lhsIdx j k 1).val = (k ⟨0, by decide⟩).val :=
  dot_S100000x32_S32x16_S100000x16_1_0_0_1_n_n.lhsIdx_val_of_single (cl := 1) rfl j k

/-- The right operand's row coordinate is the contracted position. -/
private theorem rhs3_0 (j : S100000x16.Idx) (k : dot_S100000x32_S32x16_S100000x16_1_0_0_1_n_n.contr.Idx) :
    (dot_S100000x32_S32x16_S100000x16_1_0_0_1_n_n.rhsIdx j k 0).val = (k ⟨0, by decide⟩).val :=
  dot_S100000x32_S32x16_S100000x16_1_0_0_1_n_n.rhsIdx_val_of_single (cr := 0) rfl j k

/-- The right operand's column coordinate is the result's column. -/
private theorem rhs3_1 (j : S100000x16.Idx) (k : dot_S100000x32_S32x16_S100000x16_1_0_0_1_n_n.contr.Idx) :
    (dot_S100000x32_S32x16_S100000x16_1_0_0_1_n_n.rhsIdx j k 1).val = (j 1).val := by
  unfold DotDims.rhsIdx
  rw [dif_neg (show ¬ (1 : Fin S32x16.rank) ∈ dot_S100000x32_S32x16_S100000x16_1_0_0_1_n_n.rhsBatch by decide),
    dif_pos (show (1 : Fin S32x16.rank) ∈ dot_S100000x32_S32x16_S100000x16_1_0_0_1_n_n.rhsNonContracting by decide)]
  rfl

/-- Entry (p, q) of the product is the sum over the contracted coordinate of the products of the entries. -/
private theorem lin3_apply (x : FVec Ideal S100000x32 .f32) (w : FVec Ideal S32x16 .f32) (p : Fin 100000) (q : Fin 16) :
    Stages.lin3 x w (ix2 p q) = ∑ c : Fin 32, x (ix2 p c) * w (ix2 c q) := by
  show FloatOps.dotGeneral dot_S100000x32_S32x16_S100000x16_1_0_0_1_n_n none .single x w (ix2 p q) = _
  rw [Ideal.dotGeneral_apply, ← Equiv.sum_comp (contrEquiv1 dot_S100000x32_S32x16_S100000x16_1_0_0_1_n_n 32 rfl rfl).symm]
  refine Finset.sum_congr rfl fun c _ => ?_
  have hk := contrEquiv1_symm_val dot_S100000x32_S32x16_S100000x16_1_0_0_1_n_n 32 rfl rfl c
  have hl : dot_S100000x32_S32x16_S100000x16_1_0_0_1_n_n.lhsIdx (ix2 p q) ((contrEquiv1 dot_S100000x32_S32x16_S100000x16_1_0_0_1_n_n 32 rfl rfl).symm c) = ix2 p c := by
    funext ax; apply Fin.ext
    match ax with
    | ⟨0, _⟩ => exact lhs3_0 _ _
    | ⟨1, _⟩ => exact (lhs3_1 _ _).trans hk
  have hr : dot_S100000x32_S32x16_S100000x16_1_0_0_1_n_n.rhsIdx (ix2 p q) ((contrEquiv1 dot_S100000x32_S32x16_S100000x16_1_0_0_1_n_n 32 rfl rfl).symm c) = ix2 c q := by
    funext ax; apply Fin.ext
    match ax with
    | ⟨0, _⟩ => exact (rhs3_0 _ _).trans hk
    | ⟨1, _⟩ => exact rhs3_1 _ _
  rw [hl, hr]

/-! ## Bias then rectifier at width 64 -/

/-- The bias vector laid along the rows reads, at (p, q), the vector's entry q: the [64] → [1, 64] → [100000, 64]
    broadcasts composed. -/
private theorem biasRow64 (b : FVec Ideal S64 .f32) (p : Fin 100000) (q : Fin 64) :
    broadcastInDim S100000x64 ![0, 1] Facts₀.bcast_S1x64_S100000x64_0_1
      (broadcastInDim S1x64 ![1] Facts₀.bcast_S64_S1x64_1 b) (ix2 p q) = b (ix1 q) := by
  refine (broadcastInDim_apply ![0, 1] Facts₀.bcast_S1x64_S100000x64_0_1 _ (ix2 p q) (ix2 (0 : Fin 1) q) ?_).trans
    (broadcastInDim_apply ![1] Facts₀.bcast_S64_S1x64_1 b (ix2 (0 : Fin 1) q) (ix1 q) ?_)
  · intro a
    match a with
    | ⟨0, _⟩ => rfl
    | ⟨1, _⟩ => rfl
  · intro a
    match a with
    | ⟨0, _⟩ => rfl

/-! ## Bias then rectifier at width 32 -/

/-- The bias vector laid along the rows reads, at (p, q), the vector's entry q: the [32] → [1, 32] → [100000, 32]
    broadcasts composed. -/
private theorem biasRow32 (b : FVec Ideal S32 .f32) (p : Fin 100000) (q : Fin 32) :
    broadcastInDim S100000x32 ![0, 1] Facts₀.bcast_S1x32_S100000x32_0_1
      (broadcastInDim S1x32 ![1] Facts₀.bcast_S32_S1x32_1 b) (ix2 p q) = b (ix1 q) := by
  refine (broadcastInDim_apply ![0, 1] Facts₀.bcast_S1x32_S100000x32_0_1 _ (ix2 p q) (ix2 (0 : Fin 1) q) ?_).trans
    (broadcastInDim_apply ![1] Facts₀.bcast_S32_S1x32_1 b (ix2 (0 : Fin 1) q) (ix1 q) ?_)
  · intro a
    match a with
    | ⟨0, _⟩ => rfl
    | ⟨1, _⟩ => rfl
  · intro a
    match a with
    | ⟨0, _⟩ => rfl

/-! ## Bias then rectifier at width 16 -/

/-- The bias vector laid along the rows reads, at (p, q), the vector's entry q: the [16] → [1, 16] → [100000, 16]
    broadcasts composed. -/
private theorem biasRow16 (b : FVec Ideal S16 .f32) (p : Fin 100000) (q : Fin 16) :
    broadcastInDim S100000x16 ![0, 1] Facts₀.bcast_S1x16_S100000x16_0_1
      (broadcastInDim S1x16 ![1] Facts₀.bcast_S16_S1x16_1 b) (ix2 p q) = b (ix1 q) := by
  refine (broadcastInDim_apply ![0, 1] Facts₀.bcast_S1x16_S100000x16_0_1 _ (ix2 p q) (ix2 (0 : Fin 1) q) ?_).trans
    (broadcastInDim_apply ![1] Facts₀.bcast_S16_S1x16_1 b (ix2 (0 : Fin 1) q) (ix1 q) ?_)
  · intro a
    match a with
    | ⟨0, _⟩ => rfl
    | ⟨1, _⟩ => rfl
  · intro a
    match a with
    | ⟨0, _⟩ => rfl

/-! ## The six stages, index by index -/

theorem lin1_eq (x : FVec Ideal S100000x64 .f32) (w : FVec Ideal S64x64 .f32) : Stages.lin1 x w = Cert.Spec.linS x w := by
  funext i
  obtain ⟨p, q, rfl⟩ : ∃ (p : Fin 100000) (q : Fin 64), i = ix2 p q := ⟨i 0, i 1, eq_ix2 i⟩
  rw [Cert.Spec.linS_apply, lin1_apply]
theorem lin2_eq (x : FVec Ideal S100000x64 .f32) (w : FVec Ideal S64x32 .f32) : Stages.lin2 x w = Cert.Spec.linS x w := by
  funext i
  obtain ⟨p, q, rfl⟩ : ∃ (p : Fin 100000) (q : Fin 32), i = ix2 p q := ⟨i 0, i 1, eq_ix2 i⟩
  rw [Cert.Spec.linS_apply, lin2_apply]
theorem lin3_eq (x : FVec Ideal S100000x32 .f32) (w : FVec Ideal S32x16 .f32) : Stages.lin3 x w = Cert.Spec.linS x w := by
  funext i
  obtain ⟨p, q, rfl⟩ : ∃ (p : Fin 100000) (q : Fin 16), i = ix2 p q := ⟨i 0, i 1, eq_ix2 i⟩
  rw [Cert.Spec.linS_apply, lin3_apply]

theorem act64_eq (y : FVec Ideal S100000x64 .f32) (b : FVec Ideal S64 .f32) :
    Stages.leaky64 (Stages.bias64 y b) = Cert.Spec.actS y (fun k => b (ix1 k)) := by
  funext i
  obtain ⟨p, q, rfl⟩ : ∃ (p : Fin 100000) (q : Fin 64), i = ix2 p q := ⟨i 0, i 1, eq_ix2 i⟩
  rw [Cert.Spec.actS_apply]
  show Cert.Spec.leakyS (y (ix2 p q) + broadcastInDim S100000x64 ![0, 1] Facts₀.bcast_S1x64_S100000x64_0_1
      (broadcastInDim S1x64 ![1] Facts₀.bcast_S64_S1x64_1 b) (ix2 p q)) = _
  rw [biasRow64]
theorem act32_eq (y : FVec Ideal S100000x32 .f32) (b : FVec Ideal S32 .f32) :
    Stages.leaky32 (Stages.bias32 y b) = Cert.Spec.actS y (fun k => b (ix1 k)) := by
  funext i
  obtain ⟨p, q, rfl⟩ : ∃ (p : Fin 100000) (q : Fin 32), i = ix2 p q := ⟨i 0, i 1, eq_ix2 i⟩
  rw [Cert.Spec.actS_apply]
  show Cert.Spec.leakyS (y (ix2 p q) + broadcastInDim S100000x32 ![0, 1] Facts₀.bcast_S1x32_S100000x32_0_1
      (broadcastInDim S1x32 ![1] Facts₀.bcast_S32_S1x32_1 b) (ix2 p q)) = _
  rw [biasRow32]
theorem act16_eq (y : FVec Ideal S100000x16 .f32) (b : FVec Ideal S16 .f32) :
    Stages.leaky16 (Stages.bias16 y b) = Cert.Spec.actS y (fun k => b (ix1 k)) := by
  funext i
  obtain ⟨p, q, rfl⟩ : ∃ (p : Fin 100000) (q : Fin 16), i = ix2 p q := ⟨i 0, i 1, eq_ix2 i⟩
  rw [Cert.Spec.actS_apply]
  show Cert.Spec.leakyS (y (ix2 p q) + broadcastInDim S100000x16 ![0, 1] Facts₀.bcast_S1x16_S100000x16_0_1
      (broadcastInDim S1x16 ![1] Facts₀.bcast_S16_S1x16_1 b) (ix2 p q)) = _
  rw [biasRow16]

end Cert.ReferenceIdeal.RefIdx

end
-- ==== Proof.Bridge.lean ====
/-
  The bridge between the two programs, on the extended reals.

  Both programs compute three graph-convolution layers. With `lin` the dense product, `agg` the sparse aggregation
  over the edge list and `act` the bias followed by the rectifier of slope 1/4, the result is
      act (agg (lin (act (agg (lin (act (agg (lin x W1)) b1) W2)) b2) W3)) b3,
  which `net` states once, with the aggregation of each width a parameter.

  The kernel program's side is read off the buffer contents at its segment boundaries: each region's output array is
  the region's function of its entry contents, and each host stretch between two regions leaves the aggregation of
  the previous region's output; under the range fact on the edge columns the masked take inside that aggregation is
  the bare gather. The reference's side is its stage functions read index by index. The two aggregations are the same
  host operations over equal records, so the two sides are one function of the arguments.
-/
import proofs.«427570_j26783416058429_1_alg».proof.Proof.Gen.KernelIdeal.Frame
import proofs.«427570_j26783416058429_1_alg».proof.Proof.Gen.ReferenceIdeal
import proofs.«427570_j26783416058429_1_alg».proof.Proof.Spec
import proofs.«427570_j26783416058429_1_alg».proof.Proof.KStages
import proofs.«427570_j26783416058429_1_alg».proof.Proof.KHost
import proofs.«427570_j26783416058429_1_alg».proof.Proof.Take
import proofs.«427570_j26783416058429_1_alg».proof.Proof.Region0
import proofs.«427570_j26783416058429_1_alg».proof.Proof.Region1
import proofs.«427570_j26783416058429_1_alg».proof.Proof.Region2
import proofs.«427570_j26783416058429_1_alg».proof.Proof.Region3
import proofs.«427570_j26783416058429_1_alg».proof.Proof.RefStages
import proofs.«427570_j26783416058429_1_alg».proof.Proof.RefIdx

set_option maxRecDepth 16384

noncomputable section

namespace Cert.Bridge

open Idealize.ShloMosaic Idealize.ShloMosaic.TcCoe Idealize.ShloMosaic.ValueIdx Idealize.SL.Sem

/-- The three layers composed, the aggregation of each width a parameter. -/
def net (a64 : ((⟨2, ![100000, 64]⟩ : Shape).Idx → EReal) → ((⟨2, ![100000, 64]⟩ : Shape).Idx → EReal))
    (a32 : ((⟨2, ![100000, 32]⟩ : Shape).Idx → EReal) → ((⟨2, ![100000, 32]⟩ : Shape).Idx → EReal))
    (a16 : ((⟨2, ![100000, 16]⟩ : Shape).Idx → EReal) → ((⟨2, ![100000, 16]⟩ : Shape).Idx → EReal))
    (x : (⟨2, ![100000, 64]⟩ : Shape).Idx → EReal)
    (w1 : (⟨2, ![64, 64]⟩ : Shape).Idx → EReal) (b1 : Fin 64 → EReal)
    (w2 : (⟨2, ![64, 32]⟩ : Shape).Idx → EReal) (b2 : Fin 32 → EReal)
    (w3 : (⟨2, ![32, 16]⟩ : Shape).Idx → EReal) (b3 : Fin 16 → EReal) : (⟨2, ![100000, 16]⟩ : Shape).Idx → EReal :=
  Cert.Spec.actS (a16 (Cert.Spec.linS (Cert.Spec.actS (a32 (Cert.Spec.linS (Cert.Spec.actS (a64 (Cert.Spec.linS x w1)) b1) w2)) b2) w3)) b3

/-! ## The kernel program's side -/

section Kernel

open Cert.KernelIdeal Cert.KernelIdeal.Gen

variable (m : (ℓ : Loc nD τ sig) → Buf (Elt Ideal) ℓ) (ρ : Dev nD → PrngReg)

/-- Region 0 leaves the first dense product in `main_v0`. -/
theorem W1_v0 (c : Dev nD) :
    W1 m ρ c (Proc.devRef .tc main_v0) = Cert.Spec.linS (m ((c : Thread nD τ).loc main_arg0)) (m ((c : Thread nD τ).loc main_arg4)) :=
  (W1_arr m ρ c 2).trans (Region0.arr (V0 m ρ) c)

/-- Region 1 leaves, in `main_v9`, the second dense product of the first layer's activated aggregate. -/
theorem W4_v9 (c : Dev nD) (h : Take.ColsInRange (m ((c : Thread nD τ).loc main_arg2))) :
    W4 m ρ c (Proc.devRef .tc main_v9)
      = Cert.Spec.linS (Cert.Spec.actS (KStages.gagg64 (F := Ideal) (Cert.Spec.linS (m ((c : Thread nD τ).loc main_arg0)) (m ((c : Thread nD τ).loc main_arg4))) (m ((c : Thread nD τ).loc main_arg1)) (m ((c : Thread nD τ).loc main_arg2)) (m ((c : Thread nD τ).loc main_arg3)))
          (fun k => (m ((c : Thread nD τ).loc main_arg5)) (ix1 k))) (m ((c : Thread nD τ).loc main_arg6)) := by
  refine (W4_arr m ρ c 3).trans ((Region1.arr (V3 m ρ) c).trans ?_)
  have e7 : V3 m ρ c main_v7 = KStages.gagg64 (F := Ideal) (Cert.Spec.linS (m ((c : Thread nD τ).loc main_arg0)) (m ((c : Thread nD τ).loc main_arg4))) (m ((c : Thread nD τ).loc main_arg1)) (m ((c : Thread nD τ).loc main_arg2)) (m ((c : Thread nD τ).loc main_arg3)) :=
    (KHost.W3_v7 m ρ c).trans (by rw [W1_v0 m ρ c]; exact Take.kagg64_eq _ _ _ _ h)
  have e8 : (fun k : Fin 64 => V3 m ρ c main_v8 (ix2 0 k)) = fun k => (m ((c : Thread nD τ).loc main_arg5)) (ix1 k) := funext (KHost.W3_v8 m ρ c)
  have e6 : V3 m ρ c main_arg6 = (m ((c : Thread nD τ).loc main_arg6)) := KHost.W3_arg6 m ρ c
  rw [e7, e8, e6]

/-- Region 2 leaves, in `main_v18`, the third dense product of the second layer's activated aggregate. -/
theorem W7_v18 (c : Dev nD) (h : Take.ColsInRange (m ((c : Thread nD τ).loc main_arg2))) :
    W7 m ρ c (Proc.devRef .tc main_v18)
      = Cert.Spec.linS (Cert.Spec.actS (KStages.gagg32 (F := Ideal) (W4 m ρ c (Proc.devRef .tc main_v9)) (m ((c : Thread nD τ).loc main_arg1)) (m ((c : Thread nD τ).loc main_arg2)) (m ((c : Thread nD τ).loc main_arg3)))
          (fun k => (m ((c : Thread nD τ).loc main_arg7)) (ix1 k))) (m ((c : Thread nD τ).loc main_arg8)) := by
  refine (W7_arr m ρ c 3).trans ((Region2.arr (V6 m ρ) c).trans ?_)
  have e16 : V6 m ρ c main_v16 = KStages.gagg32 (F := Ideal) (W4 m ρ c (Proc.devRef .tc main_v9)) (m ((c : Thread nD τ).loc main_arg1)) (m ((c : Thread nD τ).loc main_arg2)) (m ((c : Thread nD τ).loc main_arg3)) :=
    (KHost.W6_v16 m ρ c).trans (Take.kagg32_eq _ _ _ _ h)
  have e17 : (fun k : Fin 32 => V6 m ρ c main_v17 (ix2 0 k)) = fun k => (m ((c : Thread nD τ).loc main_arg7)) (ix1 k) := funext (KHost.W6_v17 m ρ c)
  have e8 : V6 m ρ c main_arg8 = (m ((c : Thread nD τ).loc main_arg8)) := KHost.W6_arg8 m ρ c
  rw [e16, e17, e8]

/-- Region 3 leaves, in the result array `main_v27`, the third layer's activated aggregate. -/
theorem W10_v27 (c : Dev nD) (h : Take.ColsInRange (m ((c : Thread nD τ).loc main_arg2))) :
    W10 m ρ c (Proc.devRef .tc main_v27)
      = Cert.Spec.actS (KStages.gagg16 (F := Ideal) (W7 m ρ c (Proc.devRef .tc main_v18)) (m ((c : Thread nD τ).loc main_arg1)) (m ((c : Thread nD τ).loc main_arg2)) (m ((c : Thread nD τ).loc main_arg3)))
          (fun k => (m ((c : Thread nD τ).loc main_arg9)) (ix1 k)) := by
  refine (W10_arr m ρ c 2).trans ((Region3.arr (V9 m ρ) c).trans ?_)
  have e25 : V9 m ρ c main_v25 = KStages.gagg16 (F := Ideal) (W7 m ρ c (Proc.devRef .tc main_v18)) (m ((c : Thread nD τ).loc main_arg1)) (m ((c : Thread nD τ).loc main_arg2)) (m ((c : Thread nD τ).loc main_arg3)) :=
    (KHost.W9_v25 m ρ c).trans (Take.kagg16_eq _ _ _ _ h)
  have e26 : (fun k : Fin 16 => V9 m ρ c main_v26 (ix2 0 k)) = fun k => (m ((c : Thread nD τ).loc main_arg9)) (ix1 k) := funext (KHost.W9_v26 m ρ c)
  rw [e25, e26]

/-- The kernel program's result array is the three layers composed, each aggregation the bare-gather form. -/
theorem kernel_value (c : Dev nD) (h : Take.ColsInRange (m ((c : Thread nD τ).loc main_arg2))) :
    W10 m ρ c (Proc.devRef .tc main_v27)
      = net (fun s => KStages.gagg64 (F := Ideal) s (m ((c : Thread nD τ).loc main_arg1)) (m ((c : Thread nD τ).loc main_arg2)) (m ((c : Thread nD τ).loc main_arg3)))
          (fun s => KStages.gagg32 (F := Ideal) s (m ((c : Thread nD τ).loc main_arg1)) (m ((c : Thread nD τ).loc main_arg2)) (m ((c : Thread nD τ).loc main_arg3)))
          (fun s => KStages.gagg16 (F := Ideal) s (m ((c : Thread nD τ).loc main_arg1)) (m ((c : Thread nD τ).loc main_arg2)) (m ((c : Thread nD τ).loc main_arg3)))
          (m ((c : Thread nD τ).loc main_arg0)) (m ((c : Thread nD τ).loc main_arg4)) (fun k => (m ((c : Thread nD τ).loc main_arg5)) (ix1 k)) (m ((c : Thread nD τ).loc main_arg6)) (fun k => (m ((c : Thread nD τ).loc main_arg7)) (ix1 k))
          (m ((c : Thread nD τ).loc main_arg8)) (fun k => (m ((c : Thread nD τ).loc main_arg9)) (ix1 k)) := by
  rw [W10_v27 m ρ c h, W7_v18 m ρ c h, W4_v9 m ρ c h]
  rfl

end Kernel

/-! ## The reference's side, and the two aggregations -/

section Reference

open Cert.ReferenceIdeal

/-- The reference's three layers composed are `net` over its own aggregations. -/
theorem ref_value (x : FVec Ideal S100000x64 .f32) (row col : IVec S1000000 32) (ew : FVec Ideal S1000000 .f32)
    (w1 : FVec Ideal S64x64 .f32) (b1 : FVec Ideal S64 .f32) (w2 : FVec Ideal S64x32 .f32) (b2 : FVec Ideal S32 .f32)
    (w3 : FVec Ideal S32x16 .f32) (b3 : FVec Ideal S16 .f32) :
    Stages.out x row col ew w1 b1 w2 b2 w3 b3
      = net (fun s => Stages.agg64 s row col ew) (fun s => Stages.agg32 s row col ew) (fun s => Stages.agg16 s row col ew)
          x w1 (fun k => b1 (ix1 k)) w2 (fun k => b2 (ix1 k)) w3 (fun k => b3 (ix1 k)) := by
  unfold Stages.out net
  rw [RefIdx.act16_eq, RefIdx.lin3_eq, RefIdx.act32_eq, RefIdx.lin2_eq, RefIdx.act64_eq, RefIdx.lin1_eq]

/-- The kernel program's bare-gather aggregation and the reference's aggregation are the same host operations over
    equal records (width 64). -/
theorem agg64_eq (s : FVec Ideal S100000x64 .f32) (row col : IVec S1000000 32) (ew : FVec Ideal S1000000 .f32) :
    Cert.KernelIdeal.KStages.gagg64 s row col ew = Stages.agg64 s row col ew := rfl
theorem agg32_eq (s : FVec Ideal S100000x32 .f32) (row col : IVec S1000000 32) (ew : FVec Ideal S1000000 .f32) :
    Cert.KernelIdeal.KStages.gagg32 s row col ew = Stages.agg32 s row col ew := rfl
theorem agg16_eq (s : FVec Ideal S100000x16 .f32) (row col : IVec S1000000 32) (ew : FVec Ideal S1000000 .f32) :
    Cert.KernelIdeal.KStages.gagg16 s row col ew = Stages.agg16 s row col ew := rfl

end Reference

end Cert.Bridge

end
-- ==== Proof.lean ====
/-
  A three-layer graph convolution: the kernel program against its reference, on the extended reals.

  Each layer is a dense product with the layer's weights, a sparse aggregation over the edge list (rows of the product
  gathered at the edge columns, scaled by the edge weights, added into the edge rows), a bias, and a rectifier of
  slope 1/4. The kernel program computes the dense products (with the previous layer's bias and rectifier fused in
  front) in four tiled regions of ten row bands each, and the aggregations between them on the host; the reference
  computes everything on the host. The frames of the two programs with regions come with the certificate; the
  reference's is its run read back. Nothing was rewritten between the kernel program and its idealization. Under the
  precondition every edge column lies in [-100000, 100000), so the kernel program's range mask on the wrapped
  columns holds everywhere and its masked take is the reference's gather; layer by layer the two programs then
  compute the same function of their arguments (`Bridge.net`), the dense product read as the plain sum over the
  contracted axis on both sides.
-/
import proofs.«427570_j26783416058429_1_alg».proof.Defs
import proofs.«427570_j26783416058429_1_alg».proof.Proof.Gen.Kernel
import proofs.«427570_j26783416058429_1_alg».proof.Proof.Gen.Kernel.Frame
import proofs.«427570_j26783416058429_1_alg».proof.Proof.Gen.KernelIdeal
import proofs.«427570_j26783416058429_1_alg».proof.Proof.Gen.KernelIdeal.Frame
import proofs.«427570_j26783416058429_1_alg».proof.Proof.Gen.ReferenceIdeal
import proofs.«427570_j26783416058429_1_alg».proof.Proof.Gen.Pre_finite_inputs
import proofs.«427570_j26783416058429_1_alg».proof.Proof.KernelRun
import proofs.«427570_j26783416058429_1_alg».proof.Proof.RefRun
import proofs.«427570_j26783416058429_1_alg».proof.Proof.Take
import proofs.«427570_j26783416058429_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote nothing. -/
theorem preserves : Cert.preserves_Kernel_KernelIdeal := trivial

/-- From memories agreeing on the arguments both programs run, and the kernel program's result array (what its last
    region leaves) is the reference's: both are `Bridge.net` of the arguments, the two aggregations one function. -/
theorem algebraic : Cert.algebraic_KernelIdeal_ReferenceIdeal := by
  intro m ρ m' ρ' hpre hagree
  refine ⟨fun c => Cert.KernelIdeal.Gen.W10 m ρ c (Proc.devRef .tc Cert.KernelIdeal.main_v27), Cert.KernelIdeal.KRun.run m ρ, ?_⟩
  refine (θ_run Cert.ReferenceIdeal.defs _ _).mono (fun _ h c => ⟨(h c).1.trans ?_, (h c).2⟩)
    (Cert.ReferenceIdeal.RefRun.run (F := Ideal) m' ρ')
  have hcol : Cert.KernelIdeal.Take.ColsInRange (m ((c.tc : Thread Cert.KernelIdeal.nD Cert.KernelIdeal.τ).loc Cert.KernelIdeal.main_arg2)) :=
    Cert.KernelIdeal.Take.cols_of_pre _ _ _ _ _ _ _ _ _ _ (hpre c)
  obtain ⟨h0, h1, h2, h3, h4, h5, h6, h7, h8, h9⟩ := hagree c
  rw [h0, h1, h2, h3, h4, h5, h6, h7, h8, h9, Cert.Bridge.ref_value]
  exact (Cert.Bridge.kernel_value m ρ c hcol).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
